-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_cell" .f32 0x3FD55555#32 ((8388608 / 5033165 : ℝ) : EReal)
  ∧ IdealRules.named_const.Statement Cert.KernelIdeal.κ "inv_cell" .f32 0x3FD55555#32 ((8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x128 .f32) (main_arg1 : FVec F S4096x2 .f32) (main_arg2 : FVec F S4096x2 .f32) (main_arg3 : FVec F S256x512 .f32) (main_arg4 : FVec F S256 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S4096x256x2 : Shape := ⟨3, ![4096, 256, 2]⟩
abbrev S128x2 : Shape := ⟨2, ![128, 2]⟩
abbrev S128x256x2 : Shape := ⟨3, ![128, 256, 2]⟩
abbrev S128x16x16 : Shape := ⟨3, ![128, 16, 16]⟩
abbrev S128x1 : Shape := ⟨2, ![128, 1]⟩
abbrev S128 : Shape := ⟨1, ![128]⟩
abbrev S1x128 : Shape := ⟨2, ![1, 128]⟩
abbrev S128x128 : Shape := ⟨2, ![128, 128]⟩
abbrev S128x16x128 : Shape := ⟨3, ![128, 16, 128]⟩
abbrev S128x1x128 : Shape := ⟨3, ![128, 1, 128]⟩
abbrev S128x256 : Shape := ⟨2, ![128, 256]⟩
abbrev S128x256x1 : Shape := ⟨3, ![128, 256, 1]⟩
abbrev S4096x512 : Shape := ⟨2, ![4096, 512]⟩
abbrev S1x256 : Shape := ⟨2, ![1, 256]⟩
abbrev S4096x256 : Shape := ⟨2, ![4096, 256]⟩
abbrev S512x512 : Shape := ⟨2, ![512, 512]⟩
abbrev S512x256 : Shape := ⟨2, ![512, 256]⟩

abbrev nBuf : Space → Nat
  | .hbm => 10
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S4096x2, .f32⟩
  | .hbm, ⟨2, _⟩ => ⟨S4096x2, .f32⟩
  | .hbm, ⟨3, _⟩ => ⟨S256x512, .f32⟩
  | .hbm, ⟨4, _⟩ => ⟨S256, .f32⟩
  | .hbm, ⟨5, _⟩ => ⟨S4096x2, .f32⟩
  | .hbm, ⟨6, _⟩ => ⟨S4096x256x2, .f32⟩
  | .hbm, ⟨7, _⟩ => ⟨S4096x512, .f32⟩
  | .hbm, ⟨8, _⟩ => ⟨S1x256, .f32⟩
  | .hbm, ⟨9, _⟩ => ⟨S4096x256, .f32⟩
  | .local _ .vmem, ⟨0, _⟩ => ⟨S128x2, .f32⟩
  | .local _ .vmem, ⟨1, _⟩ => ⟨S128x2, .f32⟩
  | .local _ .vmem, ⟨2, _⟩ => ⟨S128x2, .f32⟩
  | .local _ .vmem, ⟨3, _⟩ => ⟨S128x2, .f32⟩
  | .local _ .vmem, ⟨4, _⟩ => ⟨S128x2, .f32⟩
  | .local _ .vmem, ⟨5, _⟩ => ⟨S128x2, .f32⟩
  | .local _ .vmem, ⟨6, _⟩ => ⟨S128x2, .f32⟩
  | .local _ .vmem, ⟨7, _⟩ => ⟨S128x2, .f32⟩
  | .local _ .vmem, ⟨8, _⟩ => ⟨S128x256x2, .f32⟩
  | .local _ .vmem, ⟨9, _⟩ => ⟨S128x256x2, .f32⟩
  | .local _ .vmem, ⟨10, _⟩ => ⟨S128x16x16, .f32⟩
  | .local _ .vmem, ⟨11, _⟩ => ⟨S128x16x16, .f32⟩
  | .local _ .vmem, ⟨12, _⟩ => ⟨S128x16x16, .f32⟩
  | .local _ .vmem, ⟨13, _⟩ => ⟨S512x512, .f32⟩
  | .local _ .vmem, ⟨14, _⟩ => ⟨S512x512, .f32⟩
  | .local _ .vmem, ⟨15, _⟩ => ⟨S256x512, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v127 : BitVec 1 := Scalar.cmpi .eq arg1 c31_i32
  let v128 : BitVec 32 := Scalar.extui v127
  let c0_i32_40 : BitVec 32 := 0#32
  let v129 : BitVec 1 := Scalar.cmpi .ne v128 c0_i32_40
  v129

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S128x16x16_S128x16x16_0_0_0 : ∀ a, (![0, 0, 0] : Fin 3 → Nat) a + S128x16x16.size a ≤ S128x16x16.size a
  h_S128x16x16 : 0 < S128x16x16.numel
  shapeCasts_S128x16x16_S128x16x16 : S128x16x16.ShapeCasts S128x16x16
  inb_S128x2_S128x2_0_0 : ∀ a, (![0, 0] : Fin 2 → Nat) a + S128x2.size a ≤ S128x2.size a
  h_S128x2 : 0 < S128x2.numel
  shapeCasts_S128x2_S128x2 : S128x2.ShapeCasts S128x2
  slices_S128x2_o0_0_S128x1 : S128x2.Slices ![0, 0] S128x1
  shapeCasts_S128x1_S128 : S128x1.ShapeCasts S128
  shapeCasts_S128_S1x128 : S128.ShapeCasts S1x128
  shapeCasts_S128_S128x1 : S128.ShapeCasts S128x1
  broadcasts_S1x128_S128x128 : S1x128.Broadcasts S128x128
  broadcasts_S128x1_S128x128 : S128x1.Broadcasts S128x128
  slices_S128x2_o0_1_S128x1 : S128x2.Slices ![0, 1] S128x1
  iota_S128x128_d0_w32 : S128x128.Iotas .tc 32 [0]
  iota_S128x128_d1_w32 : S128x128.Iotas .tc 32 [1]
  natLt_1_32 : 1 < 32
  iota_S128x16x128_d1_w32 : S128x16x128.Iotas .tc 32 [1]
  shapeCasts_S128x128_S128x1x128 : S128x128.ShapeCasts S128x1x128
  broadcasts_S128x1x128_S128x16x128 : S128x1x128.Broadcasts S128x16x128
  shapeCasts_S128x16x16_S128x256 : S128x16x16.ShapeCasts S128x256
  shapeCasts_S128x256_S128x256x1 : S128x256.ShapeCasts S128x256x1
  concatenates_S128x256x1_S128x256x1_S128x256x2_d2 : Shape.Concatenates [S128x256x1, S128x256x1] S128x256x2 2
  inb_S128x256x2_S128x256x2_0_0_0 : ∀ a, (![0, 0, 0] : Fin 3 → Nat) a + S128x256x2.size a ≤ S128x256x2.size a
  h_S128x256x2 : 0 < S128x256x2.numel
  shapeCasts_S4096x256x2_S4096x512 : S4096x256x2.ShapeCasts S4096x512
  shapeCasts_S256_S1x256 : S256.ShapeCasts S1x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S128x16x128_S128x16x128_S128x16x16_2_2_1_1_0_0_wf : DotDims.WF S128x16x128 S128x16x128 S128x16x16 [2] [2] [1] [1] [0] [0]
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2.size a ≤ S4096x2.size a
  hwx0_0 : ∀ i : grid0.Coords, EltTy.bits .f32 = 32 ∨ (Rect.block (s := S4096x2) S128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S4096x2.size a
  hwx0_1 : ∀ i : grid0.Coords, EltTy.bits .f32 = 32 ∨ (Rect.block (s := S4096x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S4096x2.size a
  hwx0_2 : ∀ i : grid0.Coords, EltTy.bits .f32 = 32 ∨ (Rect.block (s := S4096x2) S128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S4096x2.size a
  hwx0_3 : ∀ i : grid0.Coords, EltTy.bits .f32 = 32 ∨ (Rect.block (s := S4096x2) S128x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256x2.size a ≤ S4096x256x2.size a
  hwx0_4 : ∀ i : grid0.Coords, EltTy.bits .f32 = 32 ∨ (Rect.block (s := S4096x256x2) S128x256x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)

variable [Facts₀]

def dot_S128x16x128_S128x16x128_S128x16x16_2_2_1_1_0_0 : DotDims S128x16x128 S128x16x128 S128x16x16 where
  lhsContracting := [2]
  rhsContracting := [2]
  lhsNonContracting := [1]
  rhsNonContracting := [1]
  lhsBatch := [0]
  rhsBatch := [0]
  wf := dot_S128x16x128_S128x16x128_S128x16x16_2_2_1_1_0_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x2 : Shape := ⟨2, ![4096, 2]⟩
abbrev S256x512 : Shape := ⟨2, ![256, 512]⟩
abbrev S256 : Shape := ⟨1, ![256]⟩
abbrev S1x4096x2 : Shape := ⟨3, ![1, 4096, 2]⟩
abbrev S4096x1x2 : Shape := ⟨3, ![4096, 1, 2]⟩
abbrev S4096x4096x2 : Shape := ⟨3, ![4096, 4096, 2]⟩
abbrev S_ : Shape := ⟨0, ![]⟩
abbrev S4096x4096 : Shape := ⟨2, ![4096, 4096]⟩
abbrev S4096x4096x1 : Shape := ⟨3, ![4096, 4096, 1]⟩
abbrev S4096 : Shape := ⟨1, ![4096]⟩
abbrev S4096x1 : Shape := ⟨2, ![4096, 1]⟩
abbrev S4096x256x2 : Shape := ⟨3, ![4096, 256, 2]⟩
abbrev S4096x256 : Shape := ⟨2, ![4096, 256]⟩
abbrev S4096x256x1 : Shape := ⟨3, ![4096, 256, 1]⟩
abbrev S4096x512 : Shape := ⟨2, ![4096, 512]⟩
abbrev S512x256 : Shape := ⟨2, ![512, 256]⟩
abbrev S1x256 : Shape := ⟨2, ![1, 256]⟩

abbrev nBuf : Space → Nat
  | .hbm => 119
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2, .f32⟩
  | .hbm, ⟨2, _⟩ => ⟨S4096x2, .f32⟩
  | .hbm, ⟨3, _⟩ => ⟨S256x512, .f32⟩
  | .hbm, ⟨4, _⟩ => ⟨S256, .f32⟩
  | .hbm, ⟨5, _⟩ => ⟨S4096x2, .f32⟩
  | .hbm, ⟨6, _⟩ => ⟨S1x4096x2, .f32⟩
  | .hbm, ⟨7, _⟩ => ⟨S4096x1x2, .f32⟩
  | .hbm, ⟨8, _⟩ => ⟨S4096x4096x2, .f32⟩
  | .hbm, ⟨9, _⟩ => ⟨S4096x4096x2, .f32⟩
  | .hbm, ⟨10, _⟩ => ⟨S4096x4096x2, .f32⟩
  | .hbm, ⟨11, _⟩ => ⟨S1x4096x2, .f32⟩
  | .hbm, ⟨12, _⟩ => ⟨S4096x1x2, .f32⟩
  | .hbm, ⟨13, _⟩ => ⟨S4096x4096x2, .f32⟩
  | .hbm, ⟨14, _⟩ => ⟨S4096x4096x2, .f32⟩
  | .hbm, ⟨15, _⟩ => ⟨S4096x4096x2, .f32⟩
  | .hbm, ⟨16, _⟩ => ⟨S_, .f32⟩
  | .hbm, ⟨17, _⟩ => ⟨S4096x4096x2, .f32⟩
  | .hbm, ⟨18, _⟩ => ⟨S4096x4096x2, .f32⟩
  | .hbm, ⟨19, _⟩ => ⟨S_, .f32⟩
  | .hbm, ⟨20, _⟩ => ⟨S4096x4096x2, .f32⟩
  | .hbm, ⟨21, _⟩ => ⟨S4096x4096x2, .f32⟩
  | .hbm, ⟨22, _⟩ => ⟨S4096x4096x2, .f32⟩
  | .hbm, ⟨23, _⟩ => ⟨S4096x4096x2, .i32⟩
  | .hbm, ⟨24, _⟩ => ⟨S_, .i32⟩
  | .hbm, ⟨25, _⟩ => ⟨S4096x4096x2, .i32⟩
  | .hbm, ⟨26, _⟩ => ⟨S4096x4096x2, .i1⟩
  | .hbm, ⟨27, _⟩ => ⟨S_, .i32⟩
  | .hbm, ⟨28, _⟩ => ⟨S4096x4096x2, .i32⟩
  | .hbm, ⟨29, _⟩ => ⟨S4096x4096x2, .i1⟩
  | .hbm, ⟨30, _⟩ => ⟨S4096x4096x2, .i1⟩
  | .hbm, ⟨31, _⟩ => ⟨S_, .i1⟩
  | .hbm, ⟨32, _⟩ => ⟨S4096x4096, .i1⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .i1⟩
  | .hbm, ⟨40, _⟩ => ⟨S4096x4096, .i1⟩
  | .hbm, ⟨41, _⟩ => ⟨S4096x4096x1, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096x1, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S_, .i32⟩
  | .hbm, ⟨51, _⟩ => ⟨S4096x4096, .i32⟩
  | .hbm, ⟨52, _⟩ => ⟨S4096x4096, .i32⟩
  | .hbm, ⟨53, _⟩ => ⟨S4096x4096x1, .i1⟩
  | .hbm, ⟨54, _⟩ => ⟨S_, .f32⟩
  | .hbm, ⟨55, _⟩ => ⟨S_, .f32⟩
  | .hbm, ⟨56, _⟩ => ⟨S4096x4096x2, .i1⟩
  | .hbm, ⟨57, _⟩ => ⟨S4096x4096x2, .f32⟩
  | .hbm, ⟨58, _⟩ => ⟨S4096x4096x2, .f32⟩
  | .hbm, ⟨59, _⟩ => ⟨S4096, .i32⟩
  | .hbm, ⟨60, _⟩ => ⟨S4096x1, .i32⟩
  | .hbm, ⟨61, _⟩ => ⟨S_, .f32⟩
  | .hbm, ⟨62, _⟩ => ⟨S4096x256x2, .f32⟩
  | .hbm, ⟨63, _⟩ => ⟨S_, .i32⟩
  | .hbm, ⟨64, _⟩ => ⟨S4096x1, .i32⟩
  | .hbm, ⟨65, _⟩ => ⟨S4096x1, .i1⟩
  | .hbm, ⟨66, _⟩ => ⟨S_, .i32⟩
  | .hbm, ⟨67, _⟩ => ⟨S4096x1, .i32⟩
  | .hbm, ⟨68, _⟩ => ⟨S4096x1, .i32⟩
  | .hbm, ⟨69, _⟩ => ⟨S4096x1, .i32⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096, .i32⟩
  | .hbm, ⟨78, _⟩ => ⟨S4096x4096x1, .i32⟩
  | .hbm, ⟨79, _⟩ => ⟨S4096x4096x1, .i32⟩
  | .hbm, ⟨80, _⟩ => ⟨S4096x4096x2, .i32⟩
  | .hbm, ⟨81, _⟩ => ⟨S4096x256x2, .f32⟩
  | .hbm, ⟨82, _⟩ => ⟨S_, .f32⟩
  | .hbm, ⟨83, _⟩ => ⟨S4096x256, .f32⟩
  | .hbm, ⟨84, _⟩ => ⟨S4096x4096, .f32⟩
  | .hbm, ⟨85, _⟩ => ⟨S_, .i32⟩
  | .hbm, ⟨86, _⟩ => ⟨S4096x1, .i32⟩
  | .hbm, ⟨87, _⟩ => ⟨S4096x1, .i1⟩
  | .hbm, ⟨88, _⟩ => ⟨S_, .i32⟩
  | .hbm, ⟨89, _⟩ => ⟨S4096x1, .i32⟩
  | .hbm, ⟨90, _⟩ => ⟨S4096x1, .i32⟩
  | .hbm, ⟨91, _⟩ => ⟨S4096x1, .i32⟩
  | .hbm, ⟨92, _⟩ => ⟨S_, .i32⟩
  | .hbm, ⟨93, _⟩ => ⟨S4096x4096, .i32⟩
  | .hbm, ⟨94, _⟩ => ⟨S4096x4096, .i1⟩
  | .hbm, ⟨95, _⟩ => ⟨S_, .i32⟩
  | .hbm, ⟨96, _⟩ => ⟨S4096x4096, .i32⟩
  | .hbm, ⟨97, _⟩ => ⟨S4096x4096, .i32⟩
  | .hbm, ⟨98, _⟩ => ⟨S4096x4096, .i32⟩
  | .hbm, ⟨99, _⟩ => ⟨S4096x4096, .i32⟩
  | .hbm, ⟨100, _⟩ => ⟨S4096x4096x1, .i32⟩
  | .hbm, ⟨101, _⟩ => ⟨S4096x4096x1, .i32⟩
  | .hbm, ⟨102, _⟩ => ⟨S4096x4096x2, .i32⟩
  | .hbm, ⟨103, _⟩ => ⟨S4096x256, .f32⟩
  | .hbm, ⟨104, _⟩ => ⟨S_, .f32⟩
  | .hbm, ⟨105, _⟩ => ⟨S4096x256, .f32⟩
  | .hbm, ⟨106, _⟩ => ⟨S4096x256, .f32⟩
  | .hbm, ⟨107, _⟩ => ⟨S4096x256x1, .f32⟩
  | .hbm, ⟨108, _⟩ => ⟨S4096x256x2, .f32⟩
  | .hbm, ⟨109, _⟩ => ⟨S4096x256x2, .f32⟩
  | .hbm, ⟨110, _⟩ => ⟨S4096x512, .f32⟩
  | .hbm, ⟨111, _⟩ => ⟨S512x256, .f32⟩
  | .hbm, ⟨112, _⟩ => ⟨S4096x256, .f32⟩
  | .hbm, ⟨113, _⟩ => ⟨S1x256, .f32⟩
  | .hbm, ⟨114, _⟩ => ⟨S4096x256, .f32⟩
  | .hbm, ⟨115, _⟩ => ⟨S4096x256, .f32⟩
  | .hbm, ⟨116, _⟩ => ⟨S_, .f32⟩
  | .hbm, ⟨117, _⟩ => ⟨S4096x256, .f32⟩
  | .hbm, ⟨118, _⟩ => ⟨S4096x256, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call2_cst : Ref sig .tc := ⟨.hbm, 116, rfl⟩
abbrev main_call2_v0 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  bcast_S4096x2_S1x4096x2_1_2 : S4096x2.BroadcastsInDim S1x4096x2 (![1, 2] : Fin 2 → Fin S1x4096x2.rank)
  bcast_S4096x2_S4096x1x2_0_2 : S4096x2.BroadcastsInDim S4096x1x2 (![0, 2] : Fin 2 → Fin S4096x1x2.rank)
  bcast_S1x4096x2_S4096x4096x2_0_1_2 : S1x4096x2.BroadcastsInDim S4096x4096x2 (![0, 1, 2] : Fin 3 → Fin S4096x4096x2.rank)
  bcast_S4096x1x2_S4096x4096x2_0_1_2 : S4096x1x2.BroadcastsInDim S4096x4096x2 (![0, 1, 2] : Fin 3 → Fin S4096x4096x2.rank)
  bcast_S_S4096x4096x2 : S_.BroadcastsInDim S4096x4096x2 (![] : Fin 0 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  slices_S4096x4096x2_S4096x4096x1_0_0_0 : S4096x4096x2.Slices ![0, 0, 0] S4096x4096x1
  shapeCasts_S4096x4096x1_S4096x4096 : S4096x4096x1.ShapeCasts S4096x4096
  slices_S4096x4096x2_S4096x4096x1_0_0_1 : S4096x4096x2.Slices ![0, 0, 1] S4096x4096x1
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  bcast_S4096_S4096x1_0 : S4096.BroadcastsInDim S4096x1 (![0] : Fin 1 → Fin S4096x1.rank)
  bcast_S_S4096x256x2 : S_.BroadcastsInDim S4096x256x2 (![] : Fin 0 → Fin S4096x256x2.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  concatenates_S4096x4096x1_S4096x4096x1_S4096x4096x2_d2 : Shape.Concatenates [S4096x4096x1, S4096x4096x1] S4096x4096x2 2
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x2_0_1_2 : S4096x256x1.BroadcastsInDim S4096x256x2 (![0, 1, 2] : Fin 3 → Fin S4096x256x2.rank)
  shapeCasts_S4096x256x2_S4096x512 : S4096x256x2.ShapeCasts S4096x512
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  scatter_S4096x256x2_S4096x4096x2_S4096x4096x2_2_01_01_2_wf : ScatterDims.WF S4096x256x2 S4096x4096x2 S4096x4096x2 [2] [0, 1] [0, 1] 2
  scatter_S4096x256_S4096x4096x2_S4096x4096_n_01_01_2_wf : ScatterDims.WF S4096x256 S4096x4096x2 S4096x4096 [] [0, 1] [0, 1] 2
  dot_S4096x512_S512x256_S4096x256_1_0_0_1_n_n_wf : DotDims.WF S4096x512 S512x256 S4096x256 [1] [0] [0] [1] [] []

variable [Facts₀]

def scatter_S4096x256x2_S4096x4096x2_S4096x4096x2_2_01_01_2 : ScatterDims S4096x256x2 S4096x4096x2 S4096x4096x2 where
  updateWindowDims := [2]
  insertedWindowDims := [0, 1]
  scatterDimsToOperandDims := [0, 1]
  indexVectorDim := 2
  wf := scatter_S4096x256x2_S4096x4096x2_S4096x4096x2_2_01_01_2_wf
def scatter_S4096x256_S4096x4096x2_S4096x4096_n_01_01_2 : ScatterDims S4096x256 S4096x4096x2 S4096x4096 where
  updateWindowDims := []
  insertedWindowDims := [0, 1]
  scatterDimsToOperandDims := [0, 1]
  indexVectorDim := 2
  wf := scatter_S4096x256_S4096x4096x2_S4096x4096_n_01_01_2_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.K.Step.lean ====
/-
  The accumulation step of the binning kernel, as pure functions of the four input blocks.
  At a grid point (i, j) the kernel reads a block of 128 "query" positions and velocities (rows i) and a block of
  128 "neighbour" positions and velocities (rows j), and adds to three 128×16×16 accumulators: the binned relative
  x-velocities, the binned relative y-velocities and the per-cell counts. These are those three updates, and the
  normalised output the kernel stores at the last j.
-/
import proofs.«109977_j37271726195508_1_alg».proof.Proof.Gen.Kernel.Skeleton

noncomputable section

namespace Cert.Kernel.Hand

open Idealize.ShloMosaic Idealize.SL.Sem Cert.Kernel Cert.Kernel.Gen

variable {F : FTy → Type} [FloatOps F]

/-- The three accumulators: binned x-velocities, binned y-velocities, counts. -/
abbrev Acc (F : FTy → Type) : Type := Vec F S128x16x16 .f32 × Vec F S128x16x16 .f32 × Vec F S128x16x16 .f32

/-- Relative x-position of neighbour column against query row, over the 128×128 pairs of the two blocks. -/
def relX (xi xj : Vec F S128x2 .f32) : FVec F S128x128 .f32 := k0_pay7 xi xj
/-- Relative y-position. -/
def relY (xi xj : Vec F S128x2 .f32) : FVec F S128x128 .f32 := k0_pay8 xi xj
/-- Relative x-velocity. -/
def relVX (vi vj : Vec F S128x2 .f32) : FVec F S128x128 .f32 := k0_pay9 vi vj
/-- Relative y-velocity. -/
def relVY (vi vj : Vec F S128x2 .f32) : FVec F S128x128 .f32 := k0_pay10 vi vj
/-- The pair's validity as a float 0/1: both cell coordinates inside the 16×16 grid and the pair not a pedestrian with itself. -/
def validF (i : grid0.Coords) (xi xj : Vec F S128x2 .f32) : FVec F S128x128 .f32 :=
  k0_pay14 (BitVec.ofNat 32 (i 0).val) (BitVec.ofNat 32 (i 1).val) (relX xi xj) (relY xi xj) (k0_pay11 (F := F))
/-- The clamped y cell coordinate. -/
def cellYc (xi xj : Vec F S128x2 .f32) : IVec S128x128 32 := k0_pay15 (relY xi xj)
/-- The clamped x cell coordinate, laid along the 16 candidate rows. -/
def cellXb (xi xj : Vec F S128x2 .f32) : IVec S128x16x128 32 := k0_pay16 (relX xi xj) (k0_pay11 (F := F))
/-- The candidate cell row 0..15 along axis 1. -/
def rowIota : IVec S128x16x128 32 := iota .tc S128x16x128 32 [1] iota_S128x16x128_d1_w32

/-- One grid point's update of the binned x-velocities. -/
def stepVX (i : grid0.Coords) (xi vi xj vj : Vec F S128x2 .f32) (s : Vec F S128x16x16 .f32) : Vec F S128x16x16 .f32 :=
  k0_pay19 (relVX vi vj) (validF i xi xj) (cellYc xi xj) rowIota (cellXb xi xj) s
/-- One grid point's update of the binned y-velocities. -/
def stepVY (i : grid0.Coords) (xi vi xj vj : Vec F S128x2 .f32) (s : Vec F S128x16x16 .f32) : Vec F S128x16x16 .f32 :=
  k0_pay20 (relVY vi vj) (validF i xi xj) (cellYc xi xj) rowIota (cellXb xi xj) s
/-- One grid point's update of the counts. -/
def stepCnt (i : grid0.Coords) (xi xj : Vec F S128x2 .f32) (s : Vec F S128x16x16 .f32) : Vec F S128x16x16 .f32 :=
  k0_pay21 (validF i xi xj) (cellYc xi xj) rowIota (cellXb xi xj) s

/-- All three at once. -/
def step (i : grid0.Coords) (xi vi xj vj : Vec F S128x2 .f32) (s : Acc F) : Acc F :=
  (stepVX i xi vi xj vj s.1, stepVY i xi vi xj vj s.2.1, stepCnt i xi xj s.2.2)

/-- The accumulators as the kernel resets them at j = 0. -/
def accZero : Acc F := (k0_pay2 (F := F), k0_pay3 (F := F), k0_pay4 (F := F))

/-- The kernel's first branch: it resets the accumulators when the neighbour-block coordinate j is 0. -/
abbrev condFirst (i : grid0.Coords) : Prop :=
  (Scalar.cmpi .ne (Scalar.extui (Scalar.cmpi .eq (BitVec.ofNat 32 (i 1).val) 0#32)) 0#32) = 1#1
/-- The kernel's second branch: it normalises and stores when j is the last neighbour block, 31. -/
abbrev condLast (i : grid0.Coords) : Prop := k0_cond2 i = 1#1

/-- The block the kernel stores at the last j: each cell's sums over max(count, 1), the two channels interleaved. -/
def outOf (s : Acc F) : Vec F S128x256x2 .f32 := k0_pay1 s.2.2 s.1 s.2.1

end Cert.Kernel.Hand

end
-- ==== Proof.K.BinData.lean ====
/-
  Region 0 (the binning kernel) as the pipeline rule sees it: what the three accumulators hold after each grid
  point, and the proof data of the region.
  The grid is 32 × 32, walked row-major: point t has query block t / 32 and neighbour block t % 32. The accumulators
  are reset at neighbour block 0 and updated at every point, so after point t they hold the sums over neighbour
  blocks 0 … t % 32 of query block t / 32; at neighbour block 31 the kernel stores their normalised quotient into
  the output block, which the pipeline writes back then and only then.
-/
import proofs.«109977_j37271726195508_1_alg».proof.Proof.K.Step
import proofs.«109977_j37271726195508_1_alg».proof.Proof.Gen.Kernel.Launch
import proofs.«109977_j37271726195508_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The schedule -/

/-- The accumulators are reset exactly at the points with neighbour block 0. -/
theorem hcondFirst : ∀ t : Fin cfg0.N, condFirst (grid0.coords t) ↔ t.val % 32 = 0 :=
  (by decide +kernel : ∀ t : Fin grid0.N, condFirst (grid0.coords t) ↔ t.val % 32 = 0)
/-- The output block is stored exactly at the points with neighbour block 31. -/
theorem hcondLast : ∀ t : Fin cfg0.N, condLast (grid0.coords t) ↔ t.val % 32 = 31 :=
  (by decide +kernel : ∀ t : Fin grid0.N, condLast (grid0.coords t) ↔ t.val % 32 = 31)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal type: the 128 query positions and velocities (rows of block
    t / 32) and the 128 neighbour positions and velocities (rows of block t % 32). -/
abbrev qpos (c : Dev nD) (t : Fin cfg0.N) : Vec F S128x2 .f32 := iblk0 V c 0 t
abbrev qvel (c : Dev nD) (t : Fin cfg0.N) : Vec F S128x2 .f32 := iblk0 V c 1 t
abbrev npos (c : Dev nD) (t : Fin cfg0.N) : Vec F S128x2 .f32 := iblk0 V c 2 t
abbrev nvel (c : Dev nD) (t : Fin cfg0.N) : Vec F S128x2 .f32 := iblk0 V c 3 t

/-- One point's update of the accumulators, from that point's blocks. -/
def stepAt (c : Dev nD) (t : Fin cfg0.N) (s : Acc F) : Acc F :=
  step (grid0.coords t) (qpos V c t) (qvel V c t) (npos V c t) (nvel V c t) s

/-! ## The accumulators after each point -/

/-- What the three accumulators hold after the body at point `n`: that point's update of zero at a neighbour
    block 0, of what the point before left otherwise. -/
def accAt (c : Dev nD) : (n : ℕ) → n < cfg0.N → Acc F
  | 0, h => stepAt V c ⟨0, h⟩ accZero
  | n + 1, h => stepAt V c ⟨n + 1, h⟩ (if (n + 1) % 32 = 0 then accZero else accAt c n (Nat.lt_of_succ_lt h))

theorem accAt_first (c : Dev nD) (t : Fin cfg0.N) (h : t.val % 32 = 0) :
    accAt V c t.val t.isLt = stepAt V c t accZero := by
  obtain ⟨n, hn⟩ := t
  cases n with
  | zero => rfl
  | succ n => simp only [accAt]; rw [if_pos h]

theorem accAt_next (c : Dev nD) (t : Fin cfg0.N) (h : ¬ t.val % 32 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The region invariant -/

/-- The kernel's three scratch accumulators. -/
abbrev scr0 : Memref sig .tc .vmem S128x16x16 .f32 := Memref.whole cc0_scratch0
abbrev scr1 : Memref sig .tc .vmem S128x16x16 .f32 := Memref.whole cc0_scratch1
abbrev scr2 : Memref sig .tc .vmem S128x16x16 .f32 := Memref.whole cc0_scratch2

/-- The core's other scoped buffers that this region does not stage (the second kernel's staging buffers), each
    whole at some contents: they ride along untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point every scoped buffer the region does not stage
    at anything; afterwards the three accumulators at what the point before left, the rest at anything; the
    generator register at some state throughout. -/
def PhiS (c : Dev nD) : (n : ℕ) → n ≤ cfg0.N → sProp 𝕄
  | 0, _ => Pipeline.ΦA spec0 c
  | n + 1, hn => iprop(owns (c : Thread nD τ) scr0 fullShare (accAt V c n hn).1
      ∗ owns (c : Thread nD τ) scr1 fullShare (accAt V c n hn).2.1
      ∗ owns (c : Thread nD τ) scr2 fullShare (accAt V c n hn).2.2
      ∗ otherScoped c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scr0 fullShare (accAt V c n hn).1
      ∗ owns (c : Thread nD τ) scr1 fullShare (accAt V c n hn).2.1
      ∗ owns (c : Thread nD τ) scr2 fullShare (accAt V c n hn).2.2
      ∗ otherScoped c ∗ (∃ r, prngReg c r)) := rfl

theorem PhiS_pos (c : Dev nD) (n : ℕ) (h : n ≤ cfg0.N) (hz : n ≠ 0) :
    PhiS V c n h = iprop(owns (c : Thread nD τ) scr0 fullShare (accAt V c (n - 1) (by omega)).1
      ∗ owns (c : Thread nD τ) scr1 fullShare (accAt V c (n - 1) (by omega)).2.1
      ∗ owns (c : Thread nD τ) scr2 fullShare (accAt V c (n - 1) (by omega)).2.2
      ∗ otherScoped c ∗ (∃ r, prngReg c r)) := by
  cases n with
  | zero => exact absurd rfl hz
  | succ n => rfl

/-! ## The proof data -/

/-- The proof data of pipeline 0 on core `c`: the arrays as the region finds them; after the body each input's
    buffer at its block and the output's at the normalised accumulators; the invariant `PhiS`; nothing owed. The
    positions' array and the velocities' array are each read through two windows (the query block and the
    neighbour block), which hold one half of the array's share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outOf (accAt V c t.val t.isLt)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outOf (accAt V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.Kernel.Hand

end
-- ==== Proof.K.Head.lean ====
/-
  The head kernel's region, its frame half, at any float instance.
  The grid has 8 points. At point i the kernel is handed rows 512·i … 512·i+511 of the activations x (512 columns),
  the whole weight matrix W (256 × 512) and the whole bias row b (1 × 256); it reads the three whole, and stores
  max(x·Wᵀ + b, 0) over the whole 512 × 256 block of the result it is handed, rows 512·i … 512·i+511.
  Here: each window's block as a function of the arrays' contents at the region's entry (a parameter V), what the body
  leaves in the result's block, the body's triple, the pipeline's proof data and its body obligation — and that what
  the body leaves IS the payload of the three blocks, the loads and the store being of whole blocks.
-/
import proofs.«109977_j37271726195508_1_alg».proof.Proof.Gen.Kernel.Launch
import proofs.«109977_j37271726195508_1_alg».proof.Proof.Gen.Kernel.Skeleton
import proofs.«109977_j37271726195508_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window holds its block at every point: for any proof data whose array is the entry contents and whose
    body leaves the block in place. -/
theorem beforeX_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds the whole matrix at every point, though it is brought in at the first only: its block
    never moves. -/
theorem beforeW_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's window likewise. -/
theorem beforeB_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

/-- The whole 512 × 512 block of activations. -/
abbrev rX : Rect S512x512 := Rect.unit (s := S512x512) ![0, 0] S512x512.size inb_S512x512_S512x512_0_0
/-- The whole 256 × 512 weight matrix. -/
abbrev rW : Rect S256x512 := Rect.unit (s := S256x512) ![0, 0] S256x512.size inb_S256x512_S256x512_0_0
/-- The whole 1 × 256 bias row. -/
abbrev rB : Rect S1x256 := Rect.unit (s := S1x256) ![0, 0] S1x256.size inb_S1x256_S1x256_0_0
/-- The whole 512 × 256 block of the result. -/
abbrev rOut : Rect S512x256 := Rect.unit (s := S512x256) ![0, 0] S512x256.size inb_S512x256_S512x256_0_0

/-- The offsets of a whole block are zero. -/
theorem offsets_zero : (![0, 0] : Fin 2 → Nat) = fun _ => 0 := funext fun a => by fin_cases a <;> rfl

/-! ## What the body leaves in the result's block -/

/-- The result's block after the body, from the three input blocks: its one store, of max(x·Wᵀ + b, 0) of what the
    three loads read. -/
def out1 (x0 : Vec F S512x512 .f32) (x1 : Vec F S256x512 .f32) (x2 : Vec F S1x256 .f32) : Vec F S512x256 .f32 :=
  View.canon [⟨rOut, k1_pay1 (View.ld x0 rX) (View.ld x1 rW) (View.ld x2 rB)⟩]

/-- The one store covers the block. -/
theorem coverOut (p0 : Vec F S512x256 .f32) (y : S512x256.Idx) :
    ∃ pc ∈ ([⟨rOut, p0⟩] : List (View.Piece (Elt F) S512x256 .f32)), y ∈ pc.1.set :=
  ⟨_, List.mem_singleton_self _, View.mem_set_unit_zero (S := S512x256) offsets_zero inb_S512x256_S512x256_0_0 y⟩

/-- The store and the loads being of whole blocks, what the body leaves is the payload of the blocks themselves. -/
theorem out1_eq (x0 : Vec F S512x512 .f32) (x1 : Vec F S256x512 .f32) (x2 : Vec F S1x256 .f32) :
    out1 x0 x1 x2 = Gen.k1_pay1 x0 x1 x2 := by
  unfold out1
  rw [View.canon_unit_zero offsets_zero, View.ld_unit_zero offsets_zero, View.ld_unit_zero offsets_zero,
    View.ld_unit_zero offsets_zero]

/-! ## The body's triple -/

set_option maxHeartbeats 1000000 in
/-- The body on whole staging memrefs, the inputs' at contents x0, x1, x2 and the result's at anything, runs to the
    continuation holding the inputs' as they were and the result's at out1 of them. -/
theorem sound_kernel1 (c : Dev nD) (E : Set ℕ) (i : grid1.Coords)
    (arg1 : Memref sig .tc .vmem S512x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (x0 : Vec F S512x512 .f32) (x1 : Vec F S256x512 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__head_kernel i arg1 harg1 arg2 harg2 arg3 harg3 arg4 harg4) K := by
  simp only [cc1__head_kernel_eq_skeleton]; unfold cc1__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data of the head kernel's pipeline on core c: the arrays as the region finds them; after the body at
    point t each input's buffer at its block and the result's at out1 of the three blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  beforeX_of V (dat1 V c) (A_eq1 V c 0) (after1_0 V c) t d
theorem before1_1 (c : Dev nD) (t : Fin cfg1.N) (d) : (dat1 V c).before 1 t d = iblk1 V c 1 t :=
  beforeW_of V (dat1 V c) (A_eq1 V c 1) (after1_1 V c) t d
theorem before1_2 (c : Dev nD) (t : Fin cfg1.N) (d) : (dat1 V c).before 2 t d = iblk1 V c 2 t :=
  beforeB_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.BinBody.lean ====
/-
  The binning kernel at one grid point (i, j), as a statement about the eight blocks it is handed.

  At every point the kernel reads the four 128×2 input blocks — query positions and velocities (rows of block i),
  neighbour positions and velocities (rows of block j) — and replaces each of the three 128×16×16 accumulators by its
  update `step`: the accumulator plus the binned contribution of the 128×128 pairs of the two blocks. Two things depend
  on j alone. At j = 0 the accumulators are first reset to zero, so the update is applied to `accZero` whatever they
  held. At the last j the normalised accumulators, `outOf` of the UPDATED triple, are written to the output block; at
  every other j the output block is left as it was.

  Every read and every write is of a whole block, at offset zero in every axis: a read returns the block's contents, a
  write replaces them by what is written, and a read after a write returns what was written. So in each of the three
  cases the blocks after the point are closed expressions in the blocks before it, and these are the three theorems:
  `sound_bin_first` (j = 0, not last), `sound_bin_mid` (neither), `sound_bin_last` (last, not j = 0). The inputs are
  returned unchanged in all three.
-/
import proofs.«109977_j37271726195508_1_alg».proof.Proof.K.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every access of a rank-2 block starts at offset zero in both axes. -/
private theorem zero2 : (![0, 0] : Fin 2 → Nat) = fun _ => 0 := funext fun a => by fin_cases a <;> rfl
/-- Every access of a rank-3 block starts at offset zero in all three axes. -/
private theorem zero3 : (![0, 0, 0] : Fin 3 → Nat) = fun _ => 0 := funext fun a => by fin_cases a <;> rfl

set_option maxHeartbeats 4000000 in
/-- A point with 0 < j < last: the accumulators come in at a known triple `s` and go out at `step … s`, component by
    component; the output block is not written. Each accumulator is read (its contents, `s`'s component) and then
    overwritten whole by its update, so what it holds afterwards is the update itself; the update's arguments are the
    four input blocks as read, the point's two coordinates as 32-bit words, and the accumulator's component. -/
theorem sound_bin_mid (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : ¬ condFirst i) (hl : ¬ condLast i) (s : Acc F) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare xi ∗ owns (c : Thread nD τ) arg3 fullShare vi ∗ owns (c : Thread nD τ) arg4 fullShare xj ∗ owns (c : Thread nD τ) arg5 fullShare vj
              ∗ (∃ d, owns (c : Thread nD τ) arg6 fullShare d)
              ∗ owns (c : Thread nD τ) arg7 fullShare (step i xi vi xj vj s).1 ∗ owns (c : Thread nD τ) arg8 fullShare (step i xi vi xj vj s).2.1 ∗ owns (c : Thread nD τ) arg9 fullShare (step i xi vi xj vj s).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _; isplitr; · ipureintro; exact hf6
    iexact H6
  isplitl [H7]
  · iexists _; isplitr
    swap; · iexact H7
    ipureintro
    rw [View.read_writes_eq_canon _ _ _ (fun y => ⟨_, List.mem_singleton_self _, View.mem_set_unit_zero zero3 inb_S128x16x16_S128x16x16_0_0_0 y⟩)]
    sl_unfold_words
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  isplitl [H8]
  · iexists _; isplitr
    swap; · iexact H8
    ipureintro
    rw [View.read_writes_eq_canon _ _ _ (fun y => ⟨_, List.mem_singleton_self _, View.mem_set_unit_zero zero3 inb_S128x16x16_S128x16x16_0_0_0 y⟩)]
    sl_unfold_words
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  iexists _; isplitr
  swap; · iexact H9
  ipureintro
  rw [View.read_writes_eq_canon _ _ _ (fun y => ⟨_, List.mem_singleton_self _, View.mem_set_unit_zero zero3 inb_S128x16x16_S128x16x16_0_0_0 y⟩)]
  sl_unfold_words
  rw [View.canon_unit_zero zero3]
  simp only [View.readAt_eq_ld, harg2.read_unread, harg3.read_unread, harg4.read_unread, harg5.read_unread,
    harg7.read_unread, harg8.read_unread, harg9.read_unread,
    View.ld_unit_zero (S := S128x2) zero2, View.ld_unit_zero (S := S128x16x16) zero3]
  rfl

set_option maxHeartbeats 4000000 in
/-- The point j = 0 (not the last j): whatever the accumulators held, they go out at `step … accZero`. Each is
    overwritten whole by zeros, read back — which returns the zeros just written — and overwritten whole by its update
    of those zeros; of the two writes only the later one is seen afterwards. The output block is not written. -/
theorem sound_bin_first (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : condFirst i) (hl : ¬ condLast i) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare xi ∗ owns (c : Thread nD τ) arg3 fullShare vi ∗ owns (c : Thread nD τ) arg4 fullShare xj ∗ owns (c : Thread nD τ) arg5 fullShare vj
              ∗ (∃ d, owns (c : Thread nD τ) arg6 fullShare d)
              ∗ owns (c : Thread nD τ) arg7 fullShare (step i xi vi xj vj accZero).1 ∗ owns (c : Thread nD τ) arg8 fullShare (step i xi vi xj vj accZero).2.1 ∗ owns (c : Thread nD τ) arg9 fullShare (step i xi vi xj vj accZero).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _; isplitr; · ipureintro; exact hf6
    iexact H6
  isplitl [H7]
  · iexists _; isplitr
    swap; · iexact H7
    ipureintro
    sl_unfold_words
    rw [View.read_writes_eq_canon _ _ _ (fun y => ⟨_, List.mem_cons.2 (Or.inl rfl), View.mem_set_unit_zero zero3 inb_S128x16x16_S128x16x16_0_0_0 y⟩)]
    rw [View.canon_cons_unit_zero (S := S128x16x16) zero3]
    simp only [View.readAt_eq_ld, harg2.read_unread, harg3.read_unread, harg4.read_unread, harg5.read_unread,
      View.ld_unit_zero (S := S128x2) zero2, View.ld_unit_zero (S := S128x16x16) zero3,
      View.readCov_unit_zero (S := S128x16x16) _ zero3]
    rfl
  isplitl [H8]
  · iexists _; isplitr
    swap; · iexact H8
    ipureintro
    sl_unfold_words
    rw [View.read_writes_eq_canon _ _ _ (fun y => ⟨_, List.mem_cons.2 (Or.inl rfl), View.mem_set_unit_zero zero3 inb_S128x16x16_S128x16x16_0_0_0 y⟩)]
    rw [View.canon_cons_unit_zero (S := S128x16x16) zero3]
    simp only [View.readAt_eq_ld, harg2.read_unread, harg3.read_unread, harg4.read_unread, harg5.read_unread,
      View.ld_unit_zero (S := S128x2) zero2, View.ld_unit_zero (S := S128x16x16) zero3,
      View.readCov_unit_zero (S := S128x16x16) _ zero3]
    rfl
  iexists _; isplitr
  swap; · iexact H9
  ipureintro
  sl_unfold_words
  rw [View.read_writes_eq_canon _ _ _ (fun y => ⟨_, List.mem_cons.2 (Or.inl rfl), View.mem_set_unit_zero zero3 inb_S128x16x16_S128x16x16_0_0_0 y⟩)]
  rw [View.canon_cons_unit_zero (S := S128x16x16) zero3]
  simp only [View.readAt_eq_ld, harg2.read_unread, harg3.read_unread, harg4.read_unread, harg5.read_unread,
    View.ld_unit_zero (S := S128x2) zero2, View.ld_unit_zero (S := S128x16x16) zero3,
    View.readCov_unit_zero (S := S128x16x16) _ zero3]
  rfl

set_option maxHeartbeats 4000000 in
/-- The last j (not j = 0): the accumulators go from `s` to `step … s` as at a middle point, and are then read back
    — each read returns the update just written — to form the normalised output `outOf (step … s)`, which overwrites
    the whole output block, whatever it held. -/
theorem sound_bin_last (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : ¬ condFirst i) (hl : condLast i) (s : Acc F) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare xi ∗ owns (c : Thread nD τ) arg3 fullShare vi ∗ owns (c : Thread nD τ) arg4 fullShare xj ∗ owns (c : Thread nD τ) arg5 fullShare vj
              ∗ owns (c : Thread nD τ) arg6 fullShare (outOf (step i xi vi xj vj s))
              ∗ owns (c : Thread nD τ) arg7 fullShare (step i xi vi xj vj s).1 ∗ owns (c : Thread nD τ) arg8 fullShare (step i xi vi xj vj s).2.1 ∗ owns (c : Thread nD τ) arg9 fullShare (step i xi vi xj vj s).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero (S := S128x256x2) zero3 inb_S128x256x2_S128x256x2_0_0_0 y⟩)]
    rw [View.canon_unit_zero (S := S128x256x2) zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3,
      View.readCov_unit_zero (S := S128x16x16) _ zero3]
    rfl
  isplitl [H7]
  · iexists _; isplitr
    swap; · iexact H7
    ipureintro
    sl_unfold_words
    rw [View.read_writes_eq_canon _ _ _ (fun y => ⟨_, List.mem_singleton_self _, View.mem_set_unit_zero zero3 inb_S128x16x16_S128x16x16_0_0_0 y⟩)]
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  isplitl [H8]
  · iexists _; isplitr
    swap; · iexact H8
    ipureintro
    sl_unfold_words
    rw [View.read_writes_eq_canon _ _ _ (fun y => ⟨_, List.mem_singleton_self _, View.mem_set_unit_zero zero3 inb_S128x16x16_S128x16x16_0_0_0 y⟩)]
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  iexists _; isplitr
  swap; · iexact H9
  ipureintro
  sl_unfold_words
  rw [View.read_writes_eq_canon _ _ _ (fun y => ⟨_, List.mem_singleton_self _, View.mem_set_unit_zero zero3 inb_S128x16x16_S128x16x16_0_0_0 y⟩)]
  rw [View.canon_unit_zero zero3]
  simp only [View.readAt_eq_ld, harg2.read_unread, harg3.read_unread, harg4.read_unread, harg5.read_unread,
    harg7.read_unread, harg8.read_unread, harg9.read_unread,
    View.ld_unit_zero (S := S128x2) zero2, View.ld_unit_zero (S := S128x16x16) zero3]
  rfl

end Cert.Kernel.Hand

end
-- ==== Proof.K.BinOblig.lean ====
/-
  Region 0 (the binning kernel): the body obligation of its pipeline.
  At a grid point t = 32·(query block) + (neighbour block) the body is handed the four input blocks, the output
  block's staging buffer and the three accumulators. The accumulators are reset where the neighbour block is 0,
  updated at every point, and where the neighbour block is 31 their normalised quotient is stored into the output
  block, which is written back there and only there: at every other point the output window is idle, and its
  buffer is handed back at anything, which is all the pipeline asks of a buffer it neither writes back nor reads.
-/
import proofs.«109977_j37271726195508_1_alg».proof.Proof.K.BinData
import proofs.«109977_j37271726195508_1_alg».proof.Proof.K.BinBody
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## Where the windows are idle, and where the output is written back -/

/-- The output window is idle wherever the neighbour block is not the last. -/
theorem idleAt0_4 (i : grid0.Coords) (h : ¬ condLast i) : cfg0.idle 4 i = true := by
  show (!(k0_cond2 i == 1#1)) = true
  rw [Bool.not_eq_true', beq_eq_false_iff_ne]; exact h
/-- It is live at the last neighbour block. -/
theorem liveAt0_4 (i : grid0.Coords) (h : condLast i) : cfg0.idle 4 i = false := by
  show (!(k0_cond2 i == 1#1)) = false
  rw [Bool.not_eq_false', beq_iff_eq]; exact h
/-- Away from the last neighbour block the output block is not written back. -/
theorem noFlush0_4 (t : Fin cfg0.N) (h : ¬ t.val % 32 = 31) : (cfg0.win 4).flush t = false := by
  rw [← Bool.not_eq_true]; exact fun e => h ((flush0_4 t).mp e)

/-! ## What the body finds in each window's buffer -/

/-- Each input's current staging buffer holds its block at every point, fetched there or not: unfetched, the
    block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The output's current staging buffer holds anything at every point: since the region began, or since the last
    write-back (at the point before a neighbour block 0), every point has been idle for it, so it holds what it
    held then, which is arbitrary. -/
theorem before0_4 (c : Dev nD) (t : Fin cfg0.N) (d) : (dat0 V c).before 4 t d = d := by
  have hN : t.val < 1024 := lt_of_lt_of_eq t.isLt (show cfg0.N = 1024 from N_0)
  have hfetch : ∀ t, (cfg0.win 4).fetch t = false := (cfg0.win 4).fetch_out rfl
  rw [(dat0 V c).before_idle_run 4 hfetch d (t.val % 32) t (Nat.mod_le _ _) (fun j h1 h2 => by
    have hj : ¬ j.val % 32 = 31 := by omega
    exact ⟨idleAt0_4 _ (fun h => hj ((hcondLast j).mp h)), noFlush0_4 j hj⟩)]
  refine (dat0 V c).before_out_reset 4 rfl _ ?_ d
  by_cases hz : t.val - t.val % 32 = 0
  · exact .inl hz
  · exact .inr ⟨hz, (flush0_4 _).mpr (by simp only; omega)⟩

/-! ## The memrefs the body is called with -/

/-- Each window's current staging memref at point t, as the pipeline passes it, and its wholeness. -/
abbrev ms0_0 (t : Fin cfg0.N) : Memref sig .tc .vmem S128x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256x2 .f32 := win0_4.stage (cfg0.slots t 4)
abbrev hs0_4 (t : Fin cfg0.N) : (ms0_4 t).IsWhole := hstage0_4 ((cfg0.slots t 4).cast nbuf0_4)

/-- The inputs are never idle. -/
theorem liveAt0_in (w : Fin cfg0.W) (hw : w.val < 4) (i : grid0.Coords) : cfg0.idle w i = false := by
  obtain ⟨w, h⟩ := w
  match w, h, hw with
  | 0, _, _ => rfl
  | 1, _, _ => rfl
  | 2, _, _ => rfl
  | 3, _, _ => rfl

/-- The invariant the launch hands the region, with the three accumulators as memrefs owned at some contents. -/
theorem PhiA0_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d) ∗ otherScoped c) ∗ (∃ r, prngReg c r)) := by
  unfold Pipeline.ΦA otherScoped; rw [scopedRest0_eq]; simp only [scr0, scr1, scr2, owns_whole]; try rfl

/-! ## The body obligation, at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- The body at any point. The inputs' memrefs hold their blocks and the output's holds anything; the point's
    neighbour block says which of the three triples applies: 0 (the accumulators, at anything when the region
    begins and at the last query block's sums afterwards, are reset), 1 … 30 (they hold what the point before
    left), 31 (the same, and the output block is stored). The invariant takes the accumulators back at this
    point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_in 0 (by decide)], after0_0]
  rw [show (dat0 V c).leavesExact 1 t = owns (c : Thread nD τ) (ms0_1 t) fullShare ((dat0 V c).after 1 t) from by
    unfold Dat.leavesExact; rw [liveAt0_in 1 (by decide)], after0_1]
  rw [show (dat0 V c).leavesExact 2 t = owns (c : Thread nD τ) (ms0_2 t) fullShare ((dat0 V c).after 2 t) from by
    unfold Dat.leavesExact; rw [liveAt0_in 2 (by decide)], after0_2]
  rw [show (dat0 V c).leavesExact 3 t = owns (c : Thread nD τ) (ms0_3 t) fullShare ((dat0 V c).after 3 t) from by
    unfold Dat.leavesExact; rw [liveAt0_in 3 (by decide)], after0_3]
  have hN : t.val < 1024 := lt_of_lt_of_eq t.isLt (show cfg0.N = 1024 from N_0)
  by_cases h0 : t.val % 32 = 0
  · have h1 : ¬ t.val % 32 = 31 := by omega
    have hf : condFirst (grid0.coords t) := (hcondFirst t).mpr h0
    have hl : ¬ condLast (grid0.coords t) := fun h => h1 ((hcondLast t).mp h)
    rw [Dat.leavesExact_idle (dat0 V c) 4 t (idleAt0_4 _ hl) (noFlush0_4 t h1)]
    simp only [before0_4]
    rw [accAt_first V c t h0]; unfold stepAt
    by_cases hz : t.val = 0
    · rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩, ⟨%d3, H3⟩, H4⟩
      iapply (sound_bin_first c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_first c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
  · have hf : ¬ condFirst (grid0.coords t) := fun h => h0 ((hcondFirst t).mp h)
    have hz : t.val ≠ 0 := fun e => h0 (by rw [e])
    by_cases h1 : t.val % 32 = 31
    · have hl : condLast (grid0.coords t) := (hcondLast t).mpr h1
      rw [show (dat0 V c).leavesExact 4 t = owns (c : Thread nD τ) (ms0_4 t) fullShare ((dat0 V c).after 4 t) from by
        unfold Dat.leavesExact; rw [liveAt0_4 _ hl], after0_4]
      rw [accAt_next V c t h0]; unfold stepAt
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_last c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl (accAt V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hl : ¬ condLast (grid0.coords t) := fun h => h1 ((hcondLast t).mp h)
      rw [Dat.leavesExact_idle (dat0 V c) 4 t (idleAt0_4 _ hl) (noFlush0_4 t h1)]
      simp only [before0_4]
      rw [accAt_next V c t h0]; unfold stepAt
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_mid c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl (accAt V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## Entering and leaving the region -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, HS2, Hoth, Hg⟩
  isplitl [HS0 HS1 HS2 Hoth]
  · isplitl [HS0]; · iexists _; iexact HS0
    isplitl [HS1]; · iexists _; iexact HS1
    isplitl [HS2]; · iexists _; iexact HS2
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 1024 := N_0; omega)

end Cert.Kernel.Hand

end
-- ==== Proof.K.Run.lean ====
/-
  The launch of the kernel program: @main as four segments — the subtraction, the binning region, the two reshapes,
  the head region — and what every unscoped buffer holds at each boundary between them.
  The binning region reads the positions' array and the velocities' array through two windows each (the query block
  and the neighbour block): at its entry each of the two arrays' points-to is split in two halves, one per window, and
  at its exit the halves, both still at the entry contents, are joined again.
-/
import proofs.«109977_j37271726195508_1_alg».proof.Proof.K.BinData
import proofs.«109977_j37271726195508_1_alg».proof.Proof.K.Head
import proofs.«109977_j37271726195508_1_alg».proof.Proof.K.BinOblig
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.StableHlo.Run
import Idealize.ShloMosaic.Rules.PointsTo
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev W0 : Dev nD → Valuation τ sig (Elt F) := fun c b => (s₀ m ρ).mem ((c : Dev nD), b)
/-- After the subtraction (the binning region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the binning region's exit: the binned field's buffer at what the region's write-backs leave, every other
    buffer as entered (the region's four input windows read two arrays and write none). -/
def W2 (c : Dev nD) : Valuation τ sig (Elt F) :=
  Function.update (W1 m ρ c) (Proc.devRef .tc main_v1) ((dat0 (V1 m ρ) c).arrAt 4 cfg0.N)
/-- The same read at the TensorCore's references. -/
abbrev V2 : (c : Dev nD) → (b : Ref sig .tc) → Buf (Elt F) ((c : Thread nD τ).loc b) := fun c b => W2 m ρ c b
/-- After the two reshapes (the head region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the head region's exit: its arrays at what the pipeline leaves, every other buffer as entered. -/
def W4 (c : Dev nD) : Valuation τ sig (Elt F) :=
  Pipeline.withArrays spec1 c (W3 m ρ c) fun w => (dat1 (V3 m ρ) c).arrAt w cfg1.N
/-- The same read at the TensorCore's references. -/
abbrev V4 : (c : Dev nD) → (b : Ref sig .tc) → Buf (Elt F) ((c : Thread nD τ).loc b) := fun c b => W4 m ρ c b

theorem W2_main_v1 (c : Dev nD) : W2 m ρ c (Proc.devRef .tc main_v1) = (dat0 (V1 m ρ) c).arrAt 4 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The subtraction writes its result's buffer only. -/
theorem hostOps0_writes : (hostOps0 : List (HloOp τ sig (Elt F))).Forall fun op =>
    op.writes ⊆ (([main_v0] : List (Ref sig .tc)).map (Proc.devRef (τ := τ) .tc)).toFinset := by
  simp only [List.Forall, StableHlo.binary_writes, Finset.singleton_subset_iff, List.mem_toFinset]
  exact List.mem_map_of_mem (by decide)
/-- The reshapes write their results' buffers only. -/
theorem hostOps1_writes : (hostOps1 : List (HloOp τ sig (Elt F))).Forall fun op =>
    op.writes ⊆ (([main_v2, main_v3] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide)⟩

theorem W1_of (c : Dev nD) (r : Ref sig .tc) (h : r ∉ ([main_v0] : List (Ref sig .tc))) :
    W1 m ρ c (Proc.devRef .tc r) = m ((c : Thread nD τ).loc r) :=
  StableHlo.after_of_writes_sub hostOps0 _ hostOps0_writes h
theorem W3_of (c : Dev nD) (r : Ref sig .tc) (h : r ∉ ([main_v2, main_v3] : List (Ref sig .tc))) :
    W3 m ρ c (Proc.devRef .tc r) = W2 m ρ c (Proc.devRef .tc r) :=
  StableHlo.after_of_writes_sub hostOps1 _ hostOps1_writes h

/-! ## What the boundaries hold where the regions and the result read them -/

theorem V1_main_arg1 (c : Dev nD) : V1 m ρ c main_arg1 = m ((c : Thread nD τ).loc main_arg1) :=
  W1_of m ρ c main_arg1 (by decide)
theorem V1_main_v0 (c : Dev nD) :
    V1 m ρ c main_v0 = subf (m ((c : Thread nD τ).loc main_arg1)) (m ((c : Thread nD τ).loc main_arg2)) := by
  show StableHlo.after hostOps0 (W0 m ρ c) (Proc.devRef .tc main_v0) = _
  after_results
theorem V3_main_v2 (c : Dev nD) :
    V3 m ρ c main_v2 = shapeCast S4096x512 ((dat0 (V1 m ρ) c).arrAt 4 cfg0.N) shapeCasts_S4096x256x2_S4096x512 := by
  show StableHlo.after hostOps1 (W2 m ρ c) (Proc.devRef .tc main_v2) = _
  after_results
  rw [W2_main_v1]
  rfl
theorem V3_main_v3 (c : Dev nD) :
    V3 m ρ c main_v3 = shapeCast S1x256 (m ((c : Thread nD τ).loc main_arg4)) shapeCasts_S256_S1x256 := by
  show StableHlo.after hostOps1 (W2 m ρ c) (Proc.devRef .tc main_v3) = _
  after_results
  rw [W2_of_ne m ρ c main_arg4 (by decide), W1_of m ρ c main_arg4 (by decide)]
  rfl
theorem V3_main_arg3 (c : Dev nD) : V3 m ρ c main_arg3 = m ((c : Thread nD τ).loc main_arg3) :=
  (W3_of m ρ c main_arg3 (by decide)).trans <| (W2_of_ne m ρ c main_arg3 (by decide)).trans (W1_of m ρ c main_arg3 (by decide))

/-- An argument no region's window writes ends as launched. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans (W1_of m ρ c main_arg0 (by decide))
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans (W1_of m ρ c main_arg1 (by decide))
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans (W1_of m ρ c main_arg2 (by decide))
/-- The weights are the head region's second window, an input: the region leaves them as it found them. -/
theorem W4_main_arg3 (c : Dev nD) : W4 m ρ c (Proc.devRef .tc main_arg3) = m ((c : Thread nD τ).loc main_arg3) :=
  (W4_arr m ρ c 1).trans <| ((dat1 (V3 m ρ) c).arrAt_in 1 rfl _).trans <| (A_eq1 (V3 m ρ) c 1).trans (V3_main_arg3 m ρ c)
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans (W1_of m ρ c main_arg4 (by decide))
/-- The result's buffer ends at what the head region's write-backs leave. -/
theorem W4_main_v4 (c : Dev nD) : W4 m ρ c (Proc.devRef .tc main_v4) = (dat1 (V3 m ρ) c).arrAt 3 cfg1.N :=
  W4_arr m ρ c 3

/-! ## The proof data family and what rides beside the buffers -/

/-- The prefetched tables' admissible contents: neither pipeline has a table. -/
abbrev adm : (p : Fin 2) → (pcfgs (F := F) p).Adm := fun p => (cfgs p).toPCfg_adm
/-- Each pipeline's proof data at its region's entry contents, as a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- The core owes nothing, whatever pairs it has recorded. -/
abbrev owesNone (c : Dev nD) : sProp 𝕄 := iprop(∃ W, owes (c : Thread nD τ) (0 : CellTallies nD τ sig Unit) W)
/-- The generator register at some state. -/
abbrev someReg (c : Dev nD) : sProp 𝕄 := iprop(∃ r, prngReg c r)
/-- What every segment carries beside the buffers: the generator register and nothing owed. -/
abbrev R (c : Dev nD) : sProp 𝕄 := iprop(someReg (F := F) c ∗ owesNone (F := F) c)
/-- Every unscoped buffer of core c at the valuation W. -/
abbrev heldAt (W : Dev nD → Valuation τ sig (Elt F)) (c : Dev nD) : sProp 𝕄 :=
  StableHlo.held (c : Thread nD τ) (Pipeline.ucRefs τ sig) (W c)
/-- The last thread state, the owing apart. -/
abbrev Tₙ (c : Dev nD) : sProp 𝕄 := iprop(heldAt (W4 m ρ) c ∗ someReg (F := F) c)

/-- Owing nothing is owing nothing within a bound that admits every pair. -/
theorem within_of_owesNone (c : Dev nD) (B : Set (SemLoc sig × Unit)) (hB : ∀ x, x ∈ B) :
    (owesNone (F := F) c) ⊢ (Pipeline.owesWithin c (0 : CellTallies nD τ sig Unit) B : sProp 𝕄) := by
  iintro ⟨%W, H⟩
  iexists W
  isplitr
  · ipureintro; exact fun x _ => hB x
  iexact H
/-- and conversely, forgetting the bound. -/
theorem owesNone_of_within (c : Dev nD) (B : Set (SemLoc sig × Unit)) :
    (Pipeline.owesWithin c (0 : CellTallies nD τ sig Unit) B : sProp 𝕄) ⊢ owesNone (F := F) c := by
  iintro ⟨%W, -, H⟩
  iexists W
  iexact H

/-- A host stretch as a segment over every unscoped buffer from the valuation W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The head region as a segment -/

set_option backward.isDefEq.respectTransparency.types false in
/-- The head region: entered from every unscoped buffer at W3, left at W4. Its four arrays are distinct buffers, each
    held whole: they are taken out of the unscoped buffers at entry and put back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(heldAt (W3 m ρ) c ∗ R (F := F) c)
  post c := iprop(Tₙ m ρ c ∗ owesNone (F := F) c)
  X c := someReg (F := F) c
  Y c := someReg (F := F) c
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    have hpf : (Pipeline.prefHeld (pcfgs (F := F) 1).pre c (fun _ => fullShare) (adm (F := F) 1).1 : sProp 𝕄) = BI.emp := by
      unfold Pipeline.prefHeld; exact BI.bigSep_empty
    rw [hpf]
    iintro ⟨⟨Hbufs, Hreg, Howe⟩, -, -⟩
    ihave Hparts := hsplit $$ Hbufs
    icases Hparts with ⟨Harr, Hrest⟩
    ihave Howe' := (within_of_owesNone c ((pdats m ρ 1 c).bound () 0) fun _ => Or.inl trivial) $$ Howe
    imodintro
    isplitl [Harr]; · iexact Harr
    isplitr; · iempintro
    isplitl [Howe']; · iexact Howe'
    isplitl [Hreg]; · iexact Hreg
    iexact Hrest
  hin c := by
    rw [show (pdats m ρ 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m ρ 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hlast : (pdats m ρ 1 c).owesAt () (Fin.last cfg1.N) ⊢ owesNone (F := F) c := owesNone_of_within c _
    iintro ⟨Harr, Howe, Hreg, Hrest⟩
    ihave Hbufs := hjoin $$ [Harr Hrest]
    · isplitl [Harr]; · iexact Harr
      iexact Hrest
    ihave Howe' := hlast $$ Howe
    imodintro
    isplitr [Howe']
    · isplitl [Hbufs]; · iexact Hbufs
      iexact Hreg
    iexact Howe'

/-! ## The binning region's arrays: two buffers, each read through two windows -/

section Shared

variable (Vd : (c : Dev nD) → (b : Ref sig .tc) → Buf (Elt F) ((c : Thread nD τ).loc b))

/-- The distinct buffers behind the binning region's five windows are three: the positions, the velocities, the binned
    field. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1)) := by
  unfold Pipeline.arrBufs
  exact bigSep_eq_bigSepL_of_eq [main_arg1, main_v0, main_v1] (by decide) (by decide) _

/-- The region's arrays, window by window: the query windows hold the left half of their array's share, the neighbour
    windows the right half, the output window its array whole. -/
theorem arrays0_eq (c : Dev nD) (G : (w : Fin cfg0.W) → Buf (Elt F) ((cfg0.win w).arr.view.loc (c : Thread nD τ))) :
    (dat0 Vd c).arrays G
      = iprop((((c : Thread nD τ).loc main_arg1) ↦{fullShare.left} G 0) ∗ (((c : Thread nD τ).loc main_v0) ↦{fullShare.left} G 1)
          ∗ (((c : Thread nD τ).loc main_arg1) ↦{fullShare.right} G 2) ∗ (((c : Thread nD τ).loc main_v0) ↦{fullShare.right} G 3)
          ∗ (((c : Thread nD τ).loc main_v1) ↦{fullShare} G 4)) := by
  unfold Dat.arrays
  rw [bigSep_W0, (arr_whole0 0).set_eq_univ, (arr_whole0 1).set_eq_univ, (arr_whole0 4).set_eq_univ]
  rfl

/-- ENTRY: the three buffers, whole, make the five windows' arrays — the positions' and the velocities' points-to
    each split along the share into the query window's half and the neighbour window's. -/
theorem arrays0_of_arrBufs (c : Dev nD) (V : (b : Ref sig .tc) → Buf (Elt F) ((c : Thread nD τ).loc b))
    (G : (w : Fin cfg0.W) → Buf (Elt F) ((cfg0.win w).arr.view.loc (c : Thread nD τ)))
    (h0 : G 0 = V main_arg1) (h1 : G 1 = V main_v0) (h2 : G 2 = V main_arg1) (h3 : G 3 = V main_v0) (h4 : G 4 = V main_v1) :
    (Pipeline.arrBufs (Ix := Unit) (Name := ℕ) (U := UR sig nD τ) (Lvl := ℕ) spec0 c V : sProp 𝕄) ⊢ (dat0 Vd c).arrays G := by
  rw [arrBufs0_eq, arrays0_eq, h0, h1, h2, h3, h4]
  iintro ⟨Hpos, Hvel, Hout⟩
  ihave Hpos' := (pointsTo_share (PosShare.mem_left_op_right fullShare)).1 $$ Hpos
  ihave Hvel' := (pointsTo_share (PosShare.mem_left_op_right fullShare)).1 $$ Hvel
  icases Hpos' with ⟨HposL, HposR⟩
  icases Hvel' with ⟨HvelL, HvelR⟩
  isplitl [HposL]; · iexact HposL
  isplitl [HvelL]; · iexact HvelL
  isplitl [HposR]; · iexact HposR
  isplitl [HvelR]; · iexact HvelR
  iexact Hout

/-- EXIT: the five windows' arrays, the two windows on one buffer agreeing on its contents, make the three buffers
    whole again — the halves joined along the share. -/
theorem arrBufs_of_arrays0 (c : Dev nD) (V : (b : Ref sig .tc) → Buf (Elt F) ((c : Thread nD τ).loc b))
    (G : (w : Fin cfg0.W) → Buf (Elt F) ((cfg0.win w).arr.view.loc (c : Thread nD τ)))
    (h0 : G 0 = V main_arg1) (h1 : G 1 = V main_v0) (h2 : G 2 = V main_arg1) (h3 : G 3 = V main_v0) (h4 : G 4 = V main_v1) :
    (dat0 Vd c).arrays G ⊢ (Pipeline.arrBufs (Ix := Unit) (Name := ℕ) (U := UR sig nD τ) (Lvl := ℕ) spec0 c V : sProp 𝕄) := by
  rw [arrBufs0_eq, arrays0_eq, h0, h1, h2, h3, h4]
  iintro ⟨HposL, HvelL, HposR, HvelR, Hout⟩
  isplitl [HposL HposR]
  · iapply (pointsTo_share (PosShare.mem_left_op_right fullShare)).2
    isplitl [HposL]; · iexact HposL
    iexact HposR
  isplitl [HvelL HvelR]
  · iapply (pointsTo_share (PosShare.mem_left_op_right fullShare)).2
    isplitl [HvelL]; · iexact HvelL
    iexact HvelR
  iexact Hout

end Shared

/-! ## The binning region as a segment -/

/-- A core's unscoped buffers at a valuation: the three buffers behind the binning region's windows and the rest. -/
theorem held_split0 (W : Dev nD → Valuation τ sig (Elt F)) (c : Dev nD) :
    heldAt W c = iprop((Pipeline.arrBufs (Ix := Unit) (Name := ℕ) (U := UR sig nD τ) (Lvl := ℕ) spec0 c (fun b => W c b) : sProp 𝕄)
      ∗ Pipeline.unscopedRest (Ix := Unit) (Name := ℕ) (U := UR sig nD τ) (Lvl := ℕ) spec0 c (fun b => W c b)) :=
  (Pipeline.unscopedBufs_held (Ix := Unit) (Name := ℕ) (U := UR sig nD τ) (Lvl := ℕ) c (W c)).symm.trans
    (Pipeline.unscopedBufs_split₀ cfgs 0 winFacts₀0.arr_unscoped c (fun b => W c b))

/-- ENTRY, the buffers' part: every unscoped buffer at W1 gives the region's arrays at the proof data's entry contents
    and the rest. -/
theorem entry0_bufs (c : Dev nD) :
    heldAt (W1 m ρ) c ⊢ iprop((dat0 (V1 m ρ) c).arrays ((dat0 (V1 m ρ) c).arrAt · 0)
      ∗ Pipeline.unscopedRest (Ix := Unit) (Name := ℕ) (U := UR sig nD τ) (Lvl := ℕ) spec0 c (V1 m ρ c)) := by
  rw [held_split0]
  exact sep_mono (arrays0_of_arrBufs (V1 m ρ) c (V1 m ρ c) ((dat0 (V1 m ρ) c).arrAt · 0) rfl rfl rfl rfl rfl) .rfl

/-- The region writes no buffer but the binned field's: off it the exit valuation is the entry one. -/
theorem rest0_exit (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  unfold Pipeline.unscopedRest
  refine bigSep_congr fun b hb => ?_
  have hne : b ≠ main_v1 := fun e =>
    (Finset.mem_sdiff.mp hb).2 (e ▸ Finset.mem_image.mpr ⟨(4 : Fin 5), Finset.mem_univ _, rfl⟩)
  rw [show V2 m ρ c b = V1 m ρ c b from W2_of_ne m ρ c b hne]

/-- EXIT, the buffers' part: the region's arrays at what the pipeline leaves — each input window's at its entry
    contents, so that the two windows on one buffer agree — and the rest make every unscoped buffer at W2. -/
theorem exit0_bufs (c : Dev nD) :
    iprop((dat0 (V1 m ρ) c).arrays ((dat0 (V1 m ρ) c).arrAt · cfg0.N)
      ∗ Pipeline.unscopedRest (Ix := Unit) (Name := ℕ) (U := UR sig nD τ) (Lvl := ℕ) spec0 c (V1 m ρ c)) ⊢ heldAt (W2 m ρ) c := by
  rw [held_split0, rest0_exit]
  refine sep_mono (arrBufs_of_arrays0 (V1 m ρ) c (V2 m ρ c) ((dat0 (V1 m ρ) c).arrAt · cfg0.N) ?_ ?_ ?_ ?_ ?_) .rfl
  · exact ((dat0 (V1 m ρ) c).arrAt_in 0 rfl _).trans ((A_eq0 (V1 m ρ) c 0).trans (W2_of_ne m ρ c main_arg1 (by decide)).symm)
  · exact ((dat0 (V1 m ρ) c).arrAt_in 1 rfl _).trans ((A_eq0 (V1 m ρ) c 1).trans (W2_of_ne m ρ c main_v0 (by decide)).symm)
  · exact ((dat0 (V1 m ρ) c).arrAt_in 2 rfl _).trans ((A_eq0 (V1 m ρ) c 2).trans (W2_of_ne m ρ c main_arg1 (by decide)).symm)
  · exact ((dat0 (V1 m ρ) c).arrAt_in 3 rfl _).trans ((A_eq0 (V1 m ρ) c 3).trans (W2_of_ne m ρ c main_v0 (by decide)).symm)
  · exact (W2_main_v1 m ρ c).symm

set_option backward.isDefEq.respectTransparency.types false in
/-- The binning region: entered from every unscoped buffer at W1, left at W2. The generator register goes into the
    region's invariant and comes back; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(heldAt (W1 m ρ) c ∗ R (F := F) c)
  post c := iprop(heldAt (W2 m ρ) c ∗ R (F := F) c)
  X c := someReg (F := F) c
  Y c := someReg (F := F) c
  Z c := Pipeline.unscopedRest (Ix := Unit) (Name := ℕ) (U := UR sig nD τ) (Lvl := ℕ) spec0 c (V1 m ρ c)
  hentry c := by
    have hpf : (Pipeline.prefHeld (pcfgs (F := F) 0).pre c (fun _ => fullShare) (adm (F := F) 0).1 : sProp 𝕄) = BI.emp := by
      unfold Pipeline.prefHeld; exact BI.bigSep_empty
    rw [hpf]
    iintro ⟨⟨Hbufs, Hreg, Howe⟩, -, -⟩
    ihave Hparts := (entry0_bufs m ρ c) $$ Hbufs
    icases Hparts with ⟨Harr, Hrest⟩
    ihave Howe' := (within_of_owesNone c ((pdats m ρ 0 c).bound () 0) fun _ => Or.inl trivial) $$ Howe
    imodintro
    isplitl [Harr]; · iexact Harr
    isplitr; · iempintro
    isplitl [Howe']; · iexact Howe'
    isplitl [Hreg]; · iexact Hreg
    iexact Hrest
  hin c := by
    refine (show _ ⊢ Pipeline.ΦA spec0 c from ?_).trans (hin0 (V1 m ρ) c)
    unfold Pipeline.ΦA
    iintro ⟨Hreg, -, Hsc⟩
    isplitl [Hsc]; · iexact Hsc
    iexact Hreg
  hout c := by
    rw [Pipeline.ownSems0_none]
    refine (hout0 (V1 m ρ) c).trans ?_
    unfold Pipeline.ΦA
    iintro ⟨Hsc, Hreg⟩
    isplitl [Hreg]; · iexact Hreg
    isplitr; · iempintro
    iexact Hsc
  hexit c := by
    have hlast : (pdats m ρ 0 c).owesAt () (Fin.last cfg0.N) ⊢ owesNone (F := F) c := owesNone_of_within c _
    iintro ⟨Harr, Howe, Hreg, Hrest⟩
    ihave Hbufs := (exit0_bufs m ρ c) $$ [Harr Hrest]
    · isplitl [Harr]; · iexact Harr
      iexact Hrest
    ihave Howe' := hlast $$ Howe
    imodintro
    isplitl [Hbufs]; · iexact Hbufs
    isplitl [Hreg]; · iexact Hreg
    iexact Howe'

/-! ## @main as segments, and the launch -/

/-- @main's four segments in order: the subtraction, the binning region, the reshapes, the head region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- @main is the run of its segments. -/
theorem main_run (c : Dev nD) : main (F := F) c = Pipeline.Seg.run (segs m ρ) := (main_chain c).trans (by chain_rfl)

/-- The first thread state on a core, from what the launch deals it: its unscoped buffers at the launch memory, its
    generator register, and that it owes nothing. -/
theorem init_core (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> iprop(heldAt (W0 m ρ) c ∗ R (F := F) c) := by
  rw [show unscopedBufs c (fun b => m ((c : Thread nD τ).loc b)) = heldAt (W0 m ρ) c
    from Pipeline.unscopedBufs_held c (W0 m ρ c)]
  iintro ⟨⟨Hbufs, -, Howe, -, Hreg, -⟩, -⟩
  imodintro
  isplitl [Hbufs]; · iexact Hbufs
  isplitl [Hreg]
  · iexists (ρ c); iexact Hreg
  iexists ∅; iexact Howe

/-- The last thread state read against a final state: the memory holds every unscoped buffer at W4. -/
theorem fin_core (c : Dev nD) (s' : Phys nD τ sig (Elt F)) :
    iprop(Tₙ m ρ c ∗ SI s') ⊢ (|={Set.univ}=> iprop(⌜∀ b ∈ Pipeline.ucRefs τ sig, s'.mem.mem (((c : Thread nD τ)).1, b) = W4 m ρ c b⌝ ∗ SI s') : sProp 𝕄) := by
  have hb : heldAt (W4 m ρ) c ⊢ (bigSep (Pipeline.ucRefs τ sig) fun b => (((c : Thread nD τ)).1, b) ↦{fullShare} W4 m ρ c b : sProp 𝕄) :=
    Entails.of_eq rfl
  iintro ⟨⟨Hbufs, -⟩, HSI⟩
  imodintro
  iapply (pointsTo_read_all (Pipeline.ucRefs τ sig) (fun b => (((c : Thread nD τ)).1, b)) (W4 m ρ c) s')
  isplitl [Hbufs]
  · iapply hb; iexact Hbufs
  iexact HSI

set_option backward.isDefEq.respectTransparency.types false in
/-- THE RUN: from any memory with zero counters every weakly fair execution of @main terminates, nothing faulting,
    and every final memory holds every unscoped buffer of every core at W4. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hG : (BI.emp : sProp 𝕄) ⊢ bigSep Finset.univ (fun _ : Dev nD => (BI.emp : sProp 𝕄)) := by rw [BI.bigSep_emp_const]
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu
      ihave Hu' := hown $$ Hu
      imodintro
      isplitl [Hu']; · iexact Hu'
      iapply hG
      iempintro)
    (T₀ := fun c => iprop(heldAt (W0 m ρ) c ∗ R (F := F) c)) (Tₙ := Tₙ m ρ)
    (hch := ⟨fun _ => .rfl, fun _ => .rfl, fun _ => .rfl, fun _ => .rfl, fun _ => .rfl⟩)
    (hinit := Pipeline.initEach L lv fun c => init_core m ρ c)
    (QY := fun c s => ∀ b ∈ Pipeline.ucRefs τ sig, s.mem (((c : Thread nD τ)).1, b) = W4 m ρ c b)
    (hfin := fun c s' => fin_core m ρ c s')
    (hQ := fun s h c => h c)

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- THE RESULT: @main runs, the result's buffer ends at what the head region's write-backs leave, and every argument
    array ends holding its launch contents. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.Kernel.Hand

end
-- ==== Proof.KI.Step.lean ====
/-
  The accumulation step of the binning kernel, as pure functions of the four input blocks.
  At a grid point (i, j) the kernel reads a block of 128 "query" positions and velocities (rows i) and a block of
  128 "neighbour" positions and velocities (rows j), and adds to three 128×16×16 accumulators: the binned relative
  x-velocities, the binned relative y-velocities and the per-cell counts. These are those three updates, and the
  normalised output the kernel stores at the last j.
-/
import proofs.«109977_j37271726195508_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- The three accumulators: binned x-velocities, binned y-velocities, counts. -/
abbrev Acc (F : FTy → Type) : Type := Vec F S128x16x16 .f32 × Vec F S128x16x16 .f32 × Vec F S128x16x16 .f32

/-- Relative x-position of neighbour column against query row, over the 128×128 pairs of the two blocks. -/
def relX (xi xj : Vec F S128x2 .f32) : FVec F S128x128 .f32 := k0_pay7 xi xj
/-- Relative y-position. -/
def relY (xi xj : Vec F S128x2 .f32) : FVec F S128x128 .f32 := k0_pay8 xi xj
/-- Relative x-velocity. -/
def relVX (vi vj : Vec F S128x2 .f32) : FVec F S128x128 .f32 := k0_pay9 vi vj
/-- Relative y-velocity. -/
def relVY (vi vj : Vec F S128x2 .f32) : FVec F S128x128 .f32 := k0_pay10 vi vj
/-- The pair's validity as a float 0/1: both cell coordinates inside the 16×16 grid and the pair not a pedestrian with itself. -/
def validF (i : grid0.Coords) (xi xj : Vec F S128x2 .f32) : FVec F S128x128 .f32 :=
  k0_pay14 (BitVec.ofNat 32 (i 0).val) (BitVec.ofNat 32 (i 1).val) (relX xi xj) (relY xi xj) (k0_pay11 (F := F))
/-- The clamped y cell coordinate. -/
def cellYc (xi xj : Vec F S128x2 .f32) : IVec S128x128 32 := k0_pay15 (relY xi xj)
/-- The clamped x cell coordinate, laid along the 16 candidate rows. -/
def cellXb (xi xj : Vec F S128x2 .f32) : IVec S128x16x128 32 := k0_pay16 (relX xi xj) (k0_pay11 (F := F))
/-- The candidate cell row 0..15 along axis 1. -/
def rowIota : IVec S128x16x128 32 := iota .tc S128x16x128 32 [1] iota_S128x16x128_d1_w32

/-- One grid point's update of the binned x-velocities. -/
def stepVX (i : grid0.Coords) (xi vi xj vj : Vec F S128x2 .f32) (s : Vec F S128x16x16 .f32) : Vec F S128x16x16 .f32 :=
  k0_pay19 (relVX vi vj) (validF i xi xj) (cellYc xi xj) rowIota (cellXb xi xj) s
/-- One grid point's update of the binned y-velocities. -/
def stepVY (i : grid0.Coords) (xi vi xj vj : Vec F S128x2 .f32) (s : Vec F S128x16x16 .f32) : Vec F S128x16x16 .f32 :=
  k0_pay20 (relVY vi vj) (validF i xi xj) (cellYc xi xj) rowIota (cellXb xi xj) s
/-- One grid point's update of the counts. -/
def stepCnt (i : grid0.Coords) (xi xj : Vec F S128x2 .f32) (s : Vec F S128x16x16 .f32) : Vec F S128x16x16 .f32 :=
  k0_pay21 (validF i xi xj) (cellYc xi xj) rowIota (cellXb xi xj) s

/-- All three at once. -/
def step (i : grid0.Coords) (xi vi xj vj : Vec F S128x2 .f32) (s : Acc F) : Acc F :=
  (stepVX i xi vi xj vj s.1, stepVY i xi vi xj vj s.2.1, stepCnt i xi xj s.2.2)

/-- The accumulators as the kernel resets them at j = 0. -/
def accZero : Acc F := (k0_pay2 (F := F), k0_pay3 (F := F), k0_pay4 (F := F))

/-- The kernel's first branch: it resets the accumulators when the neighbour-block coordinate j is 0. -/
abbrev condFirst (i : grid0.Coords) : Prop :=
  (Scalar.cmpi .ne (Scalar.extui (Scalar.cmpi .eq (BitVec.ofNat 32 (i 1).val) 0#32)) 0#32) = 1#1
/-- The kernel's second branch: it normalises and stores when j is the last neighbour block, 31. -/
abbrev condLast (i : grid0.Coords) : Prop := k0_cond2 i = 1#1

/-- The block the kernel stores at the last j: each cell's sums over max(count, 1), the two channels interleaved. -/
def outOf (s : Acc F) : Vec F S128x256x2 .f32 := k0_pay1 s.2.2 s.1 s.2.1

end Cert.KernelIdeal.Hand

end
-- ==== Proof.KI.BinData.lean ====
/-
  Region 0 (the binning kernel) as the pipeline rule sees it: what the three accumulators hold after each grid
  point, and the proof data of the region.
  The grid is 32 × 32, walked row-major: point t has query block t / 32 and neighbour block t % 32. The accumulators
  are reset at neighbour block 0 and updated at every point, so after point t they hold the sums over neighbour
  blocks 0 … t % 32 of query block t / 32; at neighbour block 31 the kernel stores their normalised quotient into
  the output block, which the pipeline writes back then and only then.
-/
import proofs.«109977_j37271726195508_1_alg».proof.Proof.KI.Step
import proofs.«109977_j37271726195508_1_alg».proof.Proof.Gen.KernelIdeal.Launch
import proofs.«109977_j37271726195508_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The schedule -/

/-- The accumulators are reset exactly at the points with neighbour block 0. -/
theorem hcondFirst : ∀ t : Fin cfg0.N, condFirst (grid0.coords t) ↔ t.val % 32 = 0 :=
  (by decide +kernel : ∀ t : Fin grid0.N, condFirst (grid0.coords t) ↔ t.val % 32 = 0)
/-- The output block is stored exactly at the points with neighbour block 31. -/
theorem hcondLast : ∀ t : Fin cfg0.N, condLast (grid0.coords t) ↔ t.val % 32 = 31 :=
  (by decide +kernel : ∀ t : Fin grid0.N, condLast (grid0.coords t) ↔ t.val % 32 = 31)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal type: the 128 query positions and velocities (rows of block
    t / 32) and the 128 neighbour positions and velocities (rows of block t % 32). -/
abbrev qpos (c : Dev nD) (t : Fin cfg0.N) : Vec F S128x2 .f32 := iblk0 V c 0 t
abbrev qvel (c : Dev nD) (t : Fin cfg0.N) : Vec F S128x2 .f32 := iblk0 V c 1 t
abbrev npos (c : Dev nD) (t : Fin cfg0.N) : Vec F S128x2 .f32 := iblk0 V c 2 t
abbrev nvel (c : Dev nD) (t : Fin cfg0.N) : Vec F S128x2 .f32 := iblk0 V c 3 t

/-- One point's update of the accumulators, from that point's blocks. -/
def stepAt (c : Dev nD) (t : Fin cfg0.N) (s : Acc F) : Acc F :=
  step (grid0.coords t) (qpos V c t) (qvel V c t) (npos V c t) (nvel V c t) s

/-! ## The accumulators after each point -/

/-- What the three accumulators hold after the body at point `n`: that point's update of zero at a neighbour
    block 0, of what the point before left otherwise. -/
def accAt (c : Dev nD) : (n : ℕ) → n < cfg0.N → Acc F
  | 0, h => stepAt V c ⟨0, h⟩ accZero
  | n + 1, h => stepAt V c ⟨n + 1, h⟩ (if (n + 1) % 32 = 0 then accZero else accAt c n (Nat.lt_of_succ_lt h))

theorem accAt_first (c : Dev nD) (t : Fin cfg0.N) (h : t.val % 32 = 0) :
    accAt V c t.val t.isLt = stepAt V c t accZero := by
  obtain ⟨n, hn⟩ := t
  cases n with
  | zero => rfl
  | succ n => simp only [accAt]; rw [if_pos h]

theorem accAt_next (c : Dev nD) (t : Fin cfg0.N) (h : ¬ t.val % 32 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => simp only [accAt]; rw [if_neg h]; rfl

/-! ## The region invariant -/

/-- The kernel's three scratch accumulators. -/
abbrev scr0 : Memref sig .tc .vmem S128x16x16 .f32 := Memref.whole cc0_scratch0
abbrev scr1 : Memref sig .tc .vmem S128x16x16 .f32 := Memref.whole cc0_scratch1
abbrev scr2 : Memref sig .tc .vmem S128x16x16 .f32 := Memref.whole cc0_scratch2

/-- The core's other scoped buffers that this region does not stage (the second kernel's staging buffers), each
    whole at some contents: they ride along untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before position `n`: before the first point every scoped buffer the region does not stage
    at anything; afterwards the three accumulators at what the point before left, the rest at anything; the
    generator register at some state throughout. -/
def PhiS (c : Dev nD) : (n : ℕ) → n ≤ cfg0.N → sProp 𝕄
  | 0, _ => Pipeline.ΦA spec0 c
  | n + 1, hn => iprop(owns (c : Thread nD τ) scr0 fullShare (accAt V c n hn).1
      ∗ owns (c : Thread nD τ) scr1 fullShare (accAt V c n hn).2.1
      ∗ owns (c : Thread nD τ) scr2 fullShare (accAt V c n hn).2.2
      ∗ otherScoped c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scr0 fullShare (accAt V c n hn).1
      ∗ owns (c : Thread nD τ) scr1 fullShare (accAt V c n hn).2.1
      ∗ owns (c : Thread nD τ) scr2 fullShare (accAt V c n hn).2.2
      ∗ otherScoped c ∗ (∃ r, prngReg c r)) := rfl

theorem PhiS_pos (c : Dev nD) (n : ℕ) (h : n ≤ cfg0.N) (hz : n ≠ 0) :
    PhiS V c n h = iprop(owns (c : Thread nD τ) scr0 fullShare (accAt V c (n - 1) (by omega)).1
      ∗ owns (c : Thread nD τ) scr1 fullShare (accAt V c (n - 1) (by omega)).2.1
      ∗ owns (c : Thread nD τ) scr2 fullShare (accAt V c (n - 1) (by omega)).2.2
      ∗ otherScoped c ∗ (∃ r, prngReg c r)) := by
  cases n with
  | zero => exact absurd rfl hz
  | succ n => rfl

/-! ## The proof data -/

/-- The proof data of pipeline 0 on core `c`: the arrays as the region finds them; after the body each input's
    buffer at its block and the output's at the normalised accumulators; the invariant `PhiS`; nothing owed. The
    positions' array and the velocities' array are each read through two windows (the query block and the
    neighbour block), which hold one half of the array's share each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outOf (accAt V c t.val t.isLt)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outOf (accAt V c t.val t.isLt) := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

end Cert.KernelIdeal.Hand

end
-- ==== Proof.KI.Head.lean ====
/-
  The head kernel's region, its frame half, at any float instance.
  The grid has 8 points. At point i the kernel is handed rows 512·i … 512·i+511 of the activations x (512 columns),
  the whole weight matrix W (256 × 512) and the whole bias row b (1 × 256); it reads the three whole, and stores
  max(x·Wᵀ + b, 0) over the whole 512 × 256 block of the result it is handed, rows 512·i … 512·i+511.
  Here: each window's block as a function of the arrays' contents at the region's entry (a parameter V), what the body
  leaves in the result's block, the body's triple, the pipeline's proof data and its body obligation — and that what
  the body leaves IS the payload of the three blocks, the loads and the store being of whole blocks.
-/
import proofs.«109977_j37271726195508_1_alg».proof.Proof.Gen.KernelIdeal.Launch
import proofs.«109977_j37271726195508_1_alg».proof.Proof.Gen.KernelIdeal.Skeleton
import proofs.«109977_j37271726195508_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array's contents at the region's entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window holds its block at every point: for any proof data whose array is the entry contents and whose
    body leaves the block in place. -/
theorem beforeX_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window holds the whole matrix at every point, though it is brought in at the first only: its block
    never moves. -/
theorem beforeW_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's window likewise. -/
theorem beforeB_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each block whole -/

/-- The whole 512 × 512 block of activations. -/
abbrev rX : Rect S512x512 := Rect.unit (s := S512x512) ![0, 0] S512x512.size inb_S512x512_S512x512_0_0
/-- The whole 256 × 512 weight matrix. -/
abbrev rW : Rect S256x512 := Rect.unit (s := S256x512) ![0, 0] S256x512.size inb_S256x512_S256x512_0_0
/-- The whole 1 × 256 bias row. -/
abbrev rB : Rect S1x256 := Rect.unit (s := S1x256) ![0, 0] S1x256.size inb_S1x256_S1x256_0_0
/-- The whole 512 × 256 block of the result. -/
abbrev rOut : Rect S512x256 := Rect.unit (s := S512x256) ![0, 0] S512x256.size inb_S512x256_S512x256_0_0

/-- The offsets of a whole block are zero. -/
theorem offsets_zero : (![0, 0] : Fin 2 → Nat) = fun _ => 0 := funext fun a => by fin_cases a <;> rfl

/-! ## What the body leaves in the result's block -/

/-- The result's block after the body, from the three input blocks: its one store, of max(x·Wᵀ + b, 0) of what the
    three loads read. -/
def out1 (x0 : Vec F S512x512 .f32) (x1 : Vec F S256x512 .f32) (x2 : Vec F S1x256 .f32) : Vec F S512x256 .f32 :=
  View.canon [⟨rOut, k1_pay1 (View.ld x0 rX) (View.ld x1 rW) (View.ld x2 rB)⟩]

/-- The one store covers the block. -/
theorem coverOut (p0 : Vec F S512x256 .f32) (y : S512x256.Idx) :
    ∃ pc ∈ ([⟨rOut, p0⟩] : List (View.Piece (Elt F) S512x256 .f32)), y ∈ pc.1.set :=
  ⟨_, List.mem_singleton_self _, View.mem_set_unit_zero (S := S512x256) offsets_zero inb_S512x256_S512x256_0_0 y⟩

/-- The store and the loads being of whole blocks, what the body leaves is the payload of the blocks themselves. -/
theorem out1_eq (x0 : Vec F S512x512 .f32) (x1 : Vec F S256x512 .f32) (x2 : Vec F S1x256 .f32) :
    out1 x0 x1 x2 = Gen.k1_pay1 x0 x1 x2 := by
  unfold out1
  rw [View.canon_unit_zero offsets_zero, View.ld_unit_zero offsets_zero, View.ld_unit_zero offsets_zero,
    View.ld_unit_zero offsets_zero]

/-! ## The body's triple -/

set_option maxHeartbeats 1000000 in
/-- The body on whole staging memrefs, the inputs' at contents x0, x1, x2 and the result's at anything, runs to the
    continuation holding the inputs' as they were and the result's at out1 of them. -/
theorem sound_kernel1 (c : Dev nD) (E : Set ℕ) (i : grid1.Coords)
    (arg1 : Memref sig .tc .vmem S512x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (x0 : Vec F S512x512 .f32) (x1 : Vec F S256x512 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__head_kernel i arg1 harg1 arg2 harg2 arg3 harg3 arg4 harg4) K := by
  simp only [cc1__head_kernel_eq_skeleton]; unfold cc1__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The pipeline's proof data -/

/-- The proof data of the head kernel's pipeline on core c: the arrays as the region finds them; after the body at
    point t each input's buffer at its block and the result's at out1 of the three blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  beforeX_of V (dat1 V c) (A_eq1 V c 0) (after1_0 V c) t d
theorem before1_1 (c : Dev nD) (t : Fin cfg1.N) (d) : (dat1 V c).before 1 t d = iblk1 V c 1 t :=
  beforeW_of V (dat1 V c) (A_eq1 V c 1) (after1_1 V c) t d
theorem before1_2 (c : Dev nD) (t : Fin cfg1.N) (d) : (dat1 V c).before 2 t d = iblk1 V c 2 t :=
  beforeB_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.BinBody.lean ====
/-
  The binning kernel at one grid point (i, j), as a statement about the eight blocks it is handed.

  At every point the kernel reads the four 128×2 input blocks — query positions and velocities (rows of block i),
  neighbour positions and velocities (rows of block j) — and replaces each of the three 128×16×16 accumulators by its
  update `step`: the accumulator plus the binned contribution of the 128×128 pairs of the two blocks. Two things depend
  on j alone. At j = 0 the accumulators are first reset to zero, so the update is applied to `accZero` whatever they
  held. At the last j the normalised accumulators, `outOf` of the UPDATED triple, are written to the output block; at
  every other j the output block is left as it was.

  Every read and every write is of a whole block, at offset zero in every axis: a read returns the block's contents, a
  write replaces them by what is written, and a read after a write returns what was written. So in each of the three
  cases the blocks after the point are closed expressions in the blocks before it, and these are the three theorems:
  `sound_bin_first` (j = 0, not last), `sound_bin_mid` (neither), `sound_bin_last` (last, not j = 0). The inputs are
  returned unchanged in all three.
-/
import proofs.«109977_j37271726195508_1_alg».proof.Proof.KI.Step
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Every access of a rank-2 block starts at offset zero in both axes. -/
private theorem zero2 : (![0, 0] : Fin 2 → Nat) = fun _ => 0 := funext fun a => by fin_cases a <;> rfl
/-- Every access of a rank-3 block starts at offset zero in all three axes. -/
private theorem zero3 : (![0, 0, 0] : Fin 3 → Nat) = fun _ => 0 := funext fun a => by fin_cases a <;> rfl

set_option maxHeartbeats 4000000 in
/-- A point with 0 < j < last: the accumulators come in at a known triple `s` and go out at `step … s`, component by
    component; the output block is not written. Each accumulator is read (its contents, `s`'s component) and then
    overwritten whole by its update, so what it holds afterwards is the update itself; the update's arguments are the
    four input blocks as read, the point's two coordinates as 32-bit words, and the accumulator's component. -/
theorem sound_bin_mid (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : ¬ condFirst i) (hl : ¬ condLast i) (s : Acc F) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare xi ∗ owns (c : Thread nD τ) arg3 fullShare vi ∗ owns (c : Thread nD τ) arg4 fullShare xj ∗ owns (c : Thread nD τ) arg5 fullShare vj
              ∗ (∃ d, owns (c : Thread nD τ) arg6 fullShare d)
              ∗ owns (c : Thread nD τ) arg7 fullShare (step i xi vi xj vj s).1 ∗ owns (c : Thread nD τ) arg8 fullShare (step i xi vi xj vj s).2.1 ∗ owns (c : Thread nD τ) arg9 fullShare (step i xi vi xj vj s).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _; isplitr; · ipureintro; exact hf6
    iexact H6
  isplitl [H7]
  · iexists _; isplitr
    swap; · iexact H7
    ipureintro
    rw [View.read_writes_eq_canon _ _ _ (fun y => ⟨_, List.mem_singleton_self _, View.mem_set_unit_zero zero3 inb_S128x16x16_S128x16x16_0_0_0 y⟩)]
    sl_unfold_words
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  isplitl [H8]
  · iexists _; isplitr
    swap; · iexact H8
    ipureintro
    rw [View.read_writes_eq_canon _ _ _ (fun y => ⟨_, List.mem_singleton_self _, View.mem_set_unit_zero zero3 inb_S128x16x16_S128x16x16_0_0_0 y⟩)]
    sl_unfold_words
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  iexists _; isplitr
  swap; · iexact H9
  ipureintro
  rw [View.read_writes_eq_canon _ _ _ (fun y => ⟨_, List.mem_singleton_self _, View.mem_set_unit_zero zero3 inb_S128x16x16_S128x16x16_0_0_0 y⟩)]
  sl_unfold_words
  rw [View.canon_unit_zero zero3]
  simp only [View.readAt_eq_ld, harg2.read_unread, harg3.read_unread, harg4.read_unread, harg5.read_unread,
    harg7.read_unread, harg8.read_unread, harg9.read_unread,
    View.ld_unit_zero (S := S128x2) zero2, View.ld_unit_zero (S := S128x16x16) zero3]
  rfl

set_option maxHeartbeats 4000000 in
/-- The point j = 0 (not the last j): whatever the accumulators held, they go out at `step … accZero`. Each is
    overwritten whole by zeros, read back — which returns the zeros just written — and overwritten whole by its update
    of those zeros; of the two writes only the later one is seen afterwards. The output block is not written. -/
theorem sound_bin_first (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : condFirst i) (hl : ¬ condLast i) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare xi ∗ owns (c : Thread nD τ) arg3 fullShare vi ∗ owns (c : Thread nD τ) arg4 fullShare xj ∗ owns (c : Thread nD τ) arg5 fullShare vj
              ∗ (∃ d, owns (c : Thread nD τ) arg6 fullShare d)
              ∗ owns (c : Thread nD τ) arg7 fullShare (step i xi vi xj vj accZero).1 ∗ owns (c : Thread nD τ) arg8 fullShare (step i xi vi xj vj accZero).2.1 ∗ owns (c : Thread nD τ) arg9 fullShare (step i xi vi xj vj accZero).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _; isplitr; · ipureintro; exact hf6
    iexact H6
  isplitl [H7]
  · iexists _; isplitr
    swap; · iexact H7
    ipureintro
    sl_unfold_words
    rw [View.read_writes_eq_canon _ _ _ (fun y => ⟨_, List.mem_cons.2 (Or.inl rfl), View.mem_set_unit_zero zero3 inb_S128x16x16_S128x16x16_0_0_0 y⟩)]
    rw [View.canon_cons_unit_zero (S := S128x16x16) zero3]
    simp only [View.readAt_eq_ld, harg2.read_unread, harg3.read_unread, harg4.read_unread, harg5.read_unread,
      View.ld_unit_zero (S := S128x2) zero2, View.ld_unit_zero (S := S128x16x16) zero3,
      View.readCov_unit_zero (S := S128x16x16) _ zero3]
    rfl
  isplitl [H8]
  · iexists _; isplitr
    swap; · iexact H8
    ipureintro
    sl_unfold_words
    rw [View.read_writes_eq_canon _ _ _ (fun y => ⟨_, List.mem_cons.2 (Or.inl rfl), View.mem_set_unit_zero zero3 inb_S128x16x16_S128x16x16_0_0_0 y⟩)]
    rw [View.canon_cons_unit_zero (S := S128x16x16) zero3]
    simp only [View.readAt_eq_ld, harg2.read_unread, harg3.read_unread, harg4.read_unread, harg5.read_unread,
      View.ld_unit_zero (S := S128x2) zero2, View.ld_unit_zero (S := S128x16x16) zero3,
      View.readCov_unit_zero (S := S128x16x16) _ zero3]
    rfl
  iexists _; isplitr
  swap; · iexact H9
  ipureintro
  sl_unfold_words
  rw [View.read_writes_eq_canon _ _ _ (fun y => ⟨_, List.mem_cons.2 (Or.inl rfl), View.mem_set_unit_zero zero3 inb_S128x16x16_S128x16x16_0_0_0 y⟩)]
  rw [View.canon_cons_unit_zero (S := S128x16x16) zero3]
  simp only [View.readAt_eq_ld, harg2.read_unread, harg3.read_unread, harg4.read_unread, harg5.read_unread,
    View.ld_unit_zero (S := S128x2) zero2, View.ld_unit_zero (S := S128x16x16) zero3,
    View.readCov_unit_zero (S := S128x16x16) _ zero3]
  rfl

set_option maxHeartbeats 4000000 in
/-- The last j (not j = 0): the accumulators go from `s` to `step … s` as at a middle point, and are then read back
    — each read returns the update just written — to form the normalised output `outOf (step … s)`, which overwrites
    the whole output block, whatever it held. -/
theorem sound_bin_last (c : Dev nD) (E : Set ℕ) (i : grid0.Coords)
    (arg2 : Memref sig .tc .vmem S128x2 .f32) (harg2 : arg2.IsWhole) (arg3 : Memref sig .tc .vmem S128x2 .f32) (harg3 : arg3.IsWhole)
    (arg4 : Memref sig .tc .vmem S128x2 .f32) (harg4 : arg4.IsWhole) (arg5 : Memref sig .tc .vmem S128x2 .f32) (harg5 : arg5.IsWhole)
    (arg6 : Memref sig .tc .vmem S128x256x2 .f32) (harg6 : arg6.IsWhole)
    (arg7 arg8 arg9 : Memref sig .tc .vmem S128x16x16 .f32) (harg7 : arg7.IsWhole) (harg8 : arg8.IsWhole) (harg9 : arg9.IsWhole)
    (xi vi xj vj : Vec F S128x2 .f32) (K : PUnit → sProp 𝕄) (hf : ¬ condFirst i) (hl : condLast i) (s : Acc F) :
    iprop(owns (c : Thread nD τ) arg2 fullShare xi ∗ owns (c : Thread nD τ) arg3 fullShare vi ∗ owns (c : Thread nD τ) arg4 fullShare xj ∗ owns (c : Thread nD τ) arg5 fullShare vj
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg2 fullShare xi ∗ owns (c : Thread nD τ) arg3 fullShare vi ∗ owns (c : Thread nD τ) arg4 fullShare xj ∗ owns (c : Thread nD τ) arg5 fullShare vj
              ∗ owns (c : Thread nD τ) arg6 fullShare (outOf (step i xi vi xj vj s))
              ∗ owns (c : Thread nD τ) arg7 fullShare (step i xi vi xj vj s).1 ∗ owns (c : Thread nD τ) arg8 fullShare (step i xi vi xj vj s).2.1 ∗ owns (c : Thread nD τ) arg9 fullShare (step i xi vi xj vj s).2.2) -∗ K ⟨⟩))
      ⊢ wp frame (wpE (defs₀ (F := F)) Variants.none c none) E (cc0__binning_kernel i arg2 harg2 arg3 harg3 arg4 harg4 arg5 harg5 arg6 harg6 arg7 harg7 arg8 harg8 arg9 harg9) K := by
  simp only [cc0__binning_kernel_eq_skeleton]; unfold cc0__binning_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hf | exact hl)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [View.read_writes_eq_canon _ _ _ (fun y => ⟨_, List.mem_singleton_self _, View.mem_set_unit_zero (S := S128x256x2) zero3 inb_S128x256x2_S128x256x2_0_0_0 y⟩)]
    rw [View.canon_unit_zero (S := S128x256x2) zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3,
      View.readCov_unit_zero (S := S128x16x16) _ zero3]
    rfl
  isplitl [H7]
  · iexists _; isplitr
    swap; · iexact H7
    ipureintro
    sl_unfold_words
    rw [View.read_writes_eq_canon _ _ _ (fun y => ⟨_, List.mem_singleton_self _, View.mem_set_unit_zero zero3 inb_S128x16x16_S128x16x16_0_0_0 y⟩)]
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  isplitl [H8]
  · iexists _; isplitr
    swap; · iexact H8
    ipureintro
    sl_unfold_words
    rw [View.read_writes_eq_canon _ _ _ (fun y => ⟨_, List.mem_singleton_self _, View.mem_set_unit_zero zero3 inb_S128x16x16_S128x16x16_0_0_0 y⟩)]
    rw [View.canon_unit_zero zero3]
    simp only [View.readAt_eq_ld, harg2.read_unread, harg3.read_unread, harg4.read_unread, harg5.read_unread,
      harg7.read_unread, harg8.read_unread, harg9.read_unread,
      View.ld_unit_zero (S := S128x2) zero2, View.ld_unit_zero (S := S128x16x16) zero3]
    rfl
  iexists _; isplitr
  swap; · iexact H9
  ipureintro
  sl_unfold_words
  rw [View.read_writes_eq_canon _ _ _ (fun y => ⟨_, List.mem_singleton_self _, View.mem_set_unit_zero zero3 inb_S128x16x16_S128x16x16_0_0_0 y⟩)]
  rw [View.canon_unit_zero zero3]
  simp only [View.readAt_eq_ld, harg2.read_unread, harg3.read_unread, harg4.read_unread, harg5.read_unread,
    harg7.read_unread, harg8.read_unread, harg9.read_unread,
    View.ld_unit_zero (S := S128x2) zero2, View.ld_unit_zero (S := S128x16x16) zero3]
  rfl

end Cert.KernelIdeal.Hand

end
-- ==== Proof.KI.BinOblig.lean ====
/-
  Region 0 (the binning kernel): the body obligation of its pipeline.
  At a grid point t = 32·(query block) + (neighbour block) the body is handed the four input blocks, the output
  block's staging buffer and the three accumulators. The accumulators are reset where the neighbour block is 0,
  updated at every point, and where the neighbour block is 31 their normalised quotient is stored into the output
  block, which is written back there and only there: at every other point the output window is idle, and its
  buffer is handed back at anything, which is all the pipeline asks of a buffer it neither writes back nor reads.
-/
import proofs.«109977_j37271726195508_1_alg».proof.Proof.KI.BinData
import proofs.«109977_j37271726195508_1_alg».proof.Proof.KI.BinBody
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## Where the windows are idle, and where the output is written back -/

/-- The output window is idle wherever the neighbour block is not the last. -/
theorem idleAt0_4 (i : grid0.Coords) (h : ¬ condLast i) : cfg0.idle 4 i = true := by
  show (!(k0_cond2 i == 1#1)) = true
  rw [Bool.not_eq_true', beq_eq_false_iff_ne]; exact h
/-- It is live at the last neighbour block. -/
theorem liveAt0_4 (i : grid0.Coords) (h : condLast i) : cfg0.idle 4 i = false := by
  show (!(k0_cond2 i == 1#1)) = false
  rw [Bool.not_eq_false', beq_iff_eq]; exact h
/-- Away from the last neighbour block the output block is not written back. -/
theorem noFlush0_4 (t : Fin cfg0.N) (h : ¬ t.val % 32 = 31) : (cfg0.win 4).flush t = false := by
  rw [← Bool.not_eq_true]; exact fun e => h ((flush0_4 t).mp e)

/-! ## What the body finds in each window's buffer -/

/-- Each input's current staging buffer holds its block at every point, fetched there or not: unfetched, the
    block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The output's current staging buffer holds anything at every point: since the region began, or since the last
    write-back (at the point before a neighbour block 0), every point has been idle for it, so it holds what it
    held then, which is arbitrary. -/
theorem before0_4 (c : Dev nD) (t : Fin cfg0.N) (d) : (dat0 V c).before 4 t d = d := by
  have hN : t.val < 1024 := lt_of_lt_of_eq t.isLt (show cfg0.N = 1024 from N_0)
  have hfetch : ∀ t, (cfg0.win 4).fetch t = false := (cfg0.win 4).fetch_out rfl
  rw [(dat0 V c).before_idle_run 4 hfetch d (t.val % 32) t (Nat.mod_le _ _) (fun j h1 h2 => by
    have hj : ¬ j.val % 32 = 31 := by omega
    exact ⟨idleAt0_4 _ (fun h => hj ((hcondLast j).mp h)), noFlush0_4 j hj⟩)]
  refine (dat0 V c).before_out_reset 4 rfl _ ?_ d
  by_cases hz : t.val - t.val % 32 = 0
  · exact .inl hz
  · exact .inr ⟨hz, (flush0_4 _).mpr (by simp only; omega)⟩

/-! ## The memrefs the body is called with -/

/-- Each window's current staging memref at point t, as the pipeline passes it, and its wholeness. -/
abbrev ms0_0 (t : Fin cfg0.N) : Memref sig .tc .vmem S128x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256x2 .f32 := win0_4.stage (cfg0.slots t 4)
abbrev hs0_4 (t : Fin cfg0.N) : (ms0_4 t).IsWhole := hstage0_4 ((cfg0.slots t 4).cast nbuf0_4)

/-- The inputs are never idle. -/
theorem liveAt0_in (w : Fin cfg0.W) (hw : w.val < 4) (i : grid0.Coords) : cfg0.idle w i = false := by
  obtain ⟨w, h⟩ := w
  match w, h, hw with
  | 0, _, _ => rfl
  | 1, _, _ => rfl
  | 2, _, _ => rfl
  | 3, _, _ => rfl

/-- The invariant the launch hands the region, with the three accumulators as memrefs owned at some contents. -/
theorem PhiA0_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d) ∗ otherScoped c) ∗ (∃ r, prngReg c r)) := by
  unfold Pipeline.ΦA otherScoped; rw [scopedRest0_eq]; simp only [scr0, scr1, scr2, owns_whole]; try rfl

/-! ## The body obligation, at a generic point -/

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- The body at any point. The inputs' memrefs hold their blocks and the output's holds anything; the point's
    neighbour block says which of the three triples applies: 0 (the accumulators, at anything when the region
    begins and at the last query block's sums afterwards, are reset), 1 … 30 (they hold what the point before
    left), 31 (the same, and the output block is stored). The invariant takes the accumulators back at this
    point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_in 0 (by decide)], after0_0]
  rw [show (dat0 V c).leavesExact 1 t = owns (c : Thread nD τ) (ms0_1 t) fullShare ((dat0 V c).after 1 t) from by
    unfold Dat.leavesExact; rw [liveAt0_in 1 (by decide)], after0_1]
  rw [show (dat0 V c).leavesExact 2 t = owns (c : Thread nD τ) (ms0_2 t) fullShare ((dat0 V c).after 2 t) from by
    unfold Dat.leavesExact; rw [liveAt0_in 2 (by decide)], after0_2]
  rw [show (dat0 V c).leavesExact 3 t = owns (c : Thread nD τ) (ms0_3 t) fullShare ((dat0 V c).after 3 t) from by
    unfold Dat.leavesExact; rw [liveAt0_in 3 (by decide)], after0_3]
  have hN : t.val < 1024 := lt_of_lt_of_eq t.isLt (show cfg0.N = 1024 from N_0)
  by_cases h0 : t.val % 32 = 0
  · have h1 : ¬ t.val % 32 = 31 := by omega
    have hf : condFirst (grid0.coords t) := (hcondFirst t).mpr h0
    have hl : ¬ condLast (grid0.coords t) := fun h => h1 ((hcondLast t).mp h)
    rw [Dat.leavesExact_idle (dat0 V c) 4 t (idleAt0_4 _ hl) (noFlush0_4 t h1)]
    simp only [before0_4]
    rw [accAt_first V c t h0]; unfold stepAt
    by_cases hz : t.val = 0
    · rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩, ⟨%d3, H3⟩, H4⟩
      iapply (sound_bin_first c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_first c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
  · have hf : ¬ condFirst (grid0.coords t) := fun h => h0 ((hcondFirst t).mp h)
    have hz : t.val ≠ 0 := fun e => h0 (by rw [e])
    by_cases h1 : t.val % 32 = 31
    · have hl : condLast (grid0.coords t) := (hcondLast t).mpr h1
      rw [show (dat0 V c).leavesExact 4 t = owns (c : Thread nD τ) (ms0_4 t) fullShare ((dat0 V c).after 4 t) from by
        unfold Dat.leavesExact; rw [liveAt0_4 _ hl], after0_4]
      rw [accAt_next V c t h0]; unfold stepAt
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_last c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl (accAt V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hl : ¬ condLast (grid0.coords t) := fun h => h1 ((hcondLast t).mp h)
      rw [Dat.leavesExact_idle (dat0 V c) 4 t (idleAt0_4 _ hl) (noFlush0_4 t h1)]
      simp only [before0_4]
      rw [accAt_next V c t h0]; unfold stepAt
      rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, H4⟩
      iapply (sound_bin_mid c Set.univ (grid0.coords t) (ms0_0 t) (hs0_0 t) (ms0_1 t) (hs0_1 t) (ms0_2 t) (hs0_2 t) (ms0_3 t) (hs0_3 t) (ms0_4 t) (hs0_4 t) scr0 scr1 scr2 (Memref.isWhole_whole _) (Memref.isWhole_whole _) (Memref.isWhole_whole _) (qpos V c t) (qvel V c t) (npos V c t) (nvel V c t) _ hf hl (accAt V c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-! ## Entering and leaving the region -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, HS2, Hoth, Hg⟩
  isplitl [HS0 HS1 HS2 Hoth]
  · isplitl [HS0]; · iexists _; iexact HS0
    isplitl [HS1]; · iexists _; iexact HS1
    isplitl [HS2]; · iexists _; iexact HS2
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 1024 := N_0; omega)

end Cert.KernelIdeal.Hand

end
-- ==== Proof.KI.Run.lean ====
/-
  The launch of the kernel program: @main as four segments — the subtraction, the binning region, the two reshapes,
  the head region — and what every unscoped buffer holds at each boundary between them.
  The binning region reads the positions' array and the velocities' array through two windows each (the query block
  and the neighbour block): at its entry each of the two arrays' points-to is split in two halves, one per window, and
  at its exit the halves, both still at the entry contents, are joined again.
-/
import proofs.«109977_j37271726195508_1_alg».proof.Proof.KI.BinData
import proofs.«109977_j37271726195508_1_alg».proof.Proof.KI.Head
import proofs.«109977_j37271726195508_1_alg».proof.Proof.KI.BinOblig
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Pipeline.Kit
import Idealize.ShloMosaic.Lib.StableHlo.Run
import Idealize.ShloMosaic.Rules.PointsTo
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core c's buffers at launch. -/
abbrev W0 : Dev nD → Valuation τ sig (Elt F) := fun c b => (s₀ m ρ).mem ((c : Dev nD), b)
/-- After the subtraction (the binning region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the binning region's exit: the binned field's buffer at what the region's write-backs leave, every other
    buffer as entered (the region's four input windows read two arrays and write none). -/
def W2 (c : Dev nD) : Valuation τ sig (Elt F) :=
  Function.update (W1 m ρ c) (Proc.devRef .tc main_v1) ((dat0 (V1 m ρ) c).arrAt 4 cfg0.N)
/-- The same read at the TensorCore's references. -/
abbrev V2 : (c : Dev nD) → (b : Ref sig .tc) → Buf (Elt F) ((c : Thread nD τ).loc b) := fun c b => W2 m ρ c b
/-- After the two reshapes (the head region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the head region's exit: its arrays at what the pipeline leaves, every other buffer as entered. -/
def W4 (c : Dev nD) : Valuation τ sig (Elt F) :=
  Pipeline.withArrays spec1 c (W3 m ρ c) fun w => (dat1 (V3 m ρ) c).arrAt w cfg1.N
/-- The same read at the TensorCore's references. -/
abbrev V4 : (c : Dev nD) → (b : Ref sig .tc) → Buf (Elt F) ((c : Thread nD τ).loc b) := fun c b => W4 m ρ c b

theorem W2_main_v1 (c : Dev nD) : W2 m ρ c (Proc.devRef .tc main_v1) = (dat0 (V1 m ρ) c).arrAt 4 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The subtraction writes its result's buffer only. -/
theorem hostOps0_writes : (hostOps0 : List (HloOp τ sig (Elt F))).Forall fun op =>
    op.writes ⊆ (([main_v0] : List (Ref sig .tc)).map (Proc.devRef (τ := τ) .tc)).toFinset := by
  simp only [List.Forall, StableHlo.binary_writes, Finset.singleton_subset_iff, List.mem_toFinset]
  exact List.mem_map_of_mem (by decide)
/-- The reshapes write their results' buffers only. -/
theorem hostOps1_writes : (hostOps1 : List (HloOp τ sig (Elt F))).Forall fun op =>
    op.writes ⊆ (([main_v2, main_v3] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide)⟩

theorem W1_of (c : Dev nD) (r : Ref sig .tc) (h : r ∉ ([main_v0] : List (Ref sig .tc))) :
    W1 m ρ c (Proc.devRef .tc r) = m ((c : Thread nD τ).loc r) :=
  StableHlo.after_of_writes_sub hostOps0 _ hostOps0_writes h
theorem W3_of (c : Dev nD) (r : Ref sig .tc) (h : r ∉ ([main_v2, main_v3] : List (Ref sig .tc))) :
    W3 m ρ c (Proc.devRef .tc r) = W2 m ρ c (Proc.devRef .tc r) :=
  StableHlo.after_of_writes_sub hostOps1 _ hostOps1_writes h

/-! ## What the boundaries hold where the regions and the result read them -/

theorem V1_main_arg1 (c : Dev nD) : V1 m ρ c main_arg1 = m ((c : Thread nD τ).loc main_arg1) :=
  W1_of m ρ c main_arg1 (by decide)
theorem V1_main_v0 (c : Dev nD) :
    V1 m ρ c main_v0 = subf (m ((c : Thread nD τ).loc main_arg1)) (m ((c : Thread nD τ).loc main_arg2)) := by
  show StableHlo.after hostOps0 (W0 m ρ c) (Proc.devRef .tc main_v0) = _
  after_results
theorem V3_main_v2 (c : Dev nD) :
    V3 m ρ c main_v2 = shapeCast S4096x512 ((dat0 (V1 m ρ) c).arrAt 4 cfg0.N) shapeCasts_S4096x256x2_S4096x512 := by
  show StableHlo.after hostOps1 (W2 m ρ c) (Proc.devRef .tc main_v2) = _
  after_results
  rw [W2_main_v1]
  rfl
theorem V3_main_v3 (c : Dev nD) :
    V3 m ρ c main_v3 = shapeCast S1x256 (m ((c : Thread nD τ).loc main_arg4)) shapeCasts_S256_S1x256 := by
  show StableHlo.after hostOps1 (W2 m ρ c) (Proc.devRef .tc main_v3) = _
  after_results
  rw [W2_of_ne m ρ c main_arg4 (by decide), W1_of m ρ c main_arg4 (by decide)]
  rfl
theorem V3_main_arg3 (c : Dev nD) : V3 m ρ c main_arg3 = m ((c : Thread nD τ).loc main_arg3) :=
  (W3_of m ρ c main_arg3 (by decide)).trans <| (W2_of_ne m ρ c main_arg3 (by decide)).trans (W1_of m ρ c main_arg3 (by decide))

/-- An argument no region's window writes ends as launched. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans (W1_of m ρ c main_arg0 (by decide))
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans (W1_of m ρ c main_arg1 (by decide))
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans (W1_of m ρ c main_arg2 (by decide))
/-- The weights are the head region's second window, an input: the region leaves them as it found them. -/
theorem W4_main_arg3 (c : Dev nD) : W4 m ρ c (Proc.devRef .tc main_arg3) = m ((c : Thread nD τ).loc main_arg3) :=
  (W4_arr m ρ c 1).trans <| ((dat1 (V3 m ρ) c).arrAt_in 1 rfl _).trans <| (A_eq1 (V3 m ρ) c 1).trans (V3_main_arg3 m ρ c)
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <|
    (W2_of_ne m ρ c main_arg4 (by decide)).trans (W1_of m ρ c main_arg4 (by decide))
/-- The result's buffer ends at what the head region's write-backs leave. -/
theorem W4_main_v4 (c : Dev nD) : W4 m ρ c (Proc.devRef .tc main_v4) = (dat1 (V3 m ρ) c).arrAt 3 cfg1.N :=
  W4_arr m ρ c 3

/-! ## The proof data family and what rides beside the buffers -/

/-- The prefetched tables' admissible contents: neither pipeline has a table. -/
abbrev adm : (p : Fin 2) → (pcfgs (F := F) p).Adm := fun p => (cfgs p).toPCfg_adm
/-- Each pipeline's proof data at its region's entry contents, as a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- The core owes nothing, whatever pairs it has recorded. -/
abbrev owesNone (c : Dev nD) : sProp 𝕄 := iprop(∃ W, owes (c : Thread nD τ) (0 : CellTallies nD τ sig Unit) W)
/-- The generator register at some state. -/
abbrev someReg (c : Dev nD) : sProp 𝕄 := iprop(∃ r, prngReg c r)
/-- What every segment carries beside the buffers: the generator register and nothing owed. -/
abbrev R (c : Dev nD) : sProp 𝕄 := iprop(someReg (F := F) c ∗ owesNone (F := F) c)
/-- Every unscoped buffer of core c at the valuation W. -/
abbrev heldAt (W : Dev nD → Valuation τ sig (Elt F)) (c : Dev nD) : sProp 𝕄 :=
  StableHlo.held (c : Thread nD τ) (Pipeline.ucRefs τ sig) (W c)
/-- The last thread state, the owing apart. -/
abbrev Tₙ (c : Dev nD) : sProp 𝕄 := iprop(heldAt (W4 m ρ) c ∗ someReg (F := F) c)

/-- Owing nothing is owing nothing within a bound that admits every pair. -/
theorem within_of_owesNone (c : Dev nD) (B : Set (SemLoc sig × Unit)) (hB : ∀ x, x ∈ B) :
    (owesNone (F := F) c) ⊢ (Pipeline.owesWithin c (0 : CellTallies nD τ sig Unit) B : sProp 𝕄) := by
  iintro ⟨%W, H⟩
  iexists W
  isplitr
  · ipureintro; exact fun x _ => hB x
  iexact H
/-- and conversely, forgetting the bound. -/
theorem owesNone_of_within (c : Dev nD) (B : Set (SemLoc sig × Unit)) :
    (Pipeline.owesWithin c (0 : CellTallies nD τ sig Unit) B : sProp 𝕄) ⊢ owesNone (F := F) c := by
  iintro ⟨%W, -, H⟩
  iexists W
  iexact H

/-- A host stretch as a segment over every unscoped buffer from the valuation W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The head region as a segment -/

set_option backward.isDefEq.respectTransparency.types false in
/-- The head region: entered from every unscoped buffer at W3, left at W4. Its four arrays are distinct buffers, each
    held whole: they are taken out of the unscoped buffers at entry and put back at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(heldAt (W3 m ρ) c ∗ R (F := F) c)
  post c := iprop(Tₙ m ρ c ∗ owesNone (F := F) c)
  X c := someReg (F := F) c
  Y c := someReg (F := F) c
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    have hpf : (Pipeline.prefHeld (pcfgs (F := F) 1).pre c (fun _ => fullShare) (adm (F := F) 1).1 : sProp 𝕄) = BI.emp := by
      unfold Pipeline.prefHeld; exact BI.bigSep_empty
    rw [hpf]
    iintro ⟨⟨Hbufs, Hreg, Howe⟩, -, -⟩
    ihave Hparts := hsplit $$ Hbufs
    icases Hparts with ⟨Harr, Hrest⟩
    ihave Howe' := (within_of_owesNone c ((pdats m ρ 1 c).bound () 0) fun _ => Or.inl trivial) $$ Howe
    imodintro
    isplitl [Harr]; · iexact Harr
    isplitr; · iempintro
    isplitl [Howe']; · iexact Howe'
    isplitl [Hreg]; · iexact Hreg
    iexact Hrest
  hin c := by
    rw [show (pdats m ρ 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m ρ 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hlast : (pdats m ρ 1 c).owesAt () (Fin.last cfg1.N) ⊢ owesNone (F := F) c := owesNone_of_within c _
    iintro ⟨Harr, Howe, Hreg, Hrest⟩
    ihave Hbufs := hjoin $$ [Harr Hrest]
    · isplitl [Harr]; · iexact Harr
      iexact Hrest
    ihave Howe' := hlast $$ Howe
    imodintro
    isplitr [Howe']
    · isplitl [Hbufs]; · iexact Hbufs
      iexact Hreg
    iexact Howe'

/-! ## The binning region's arrays: two buffers, each read through two windows -/

section Shared

variable (Vd : (c : Dev nD) → (b : Ref sig .tc) → Buf (Elt F) ((c : Thread nD τ).loc b))

/-- The distinct buffers behind the binning region's five windows are three: the positions, the velocities, the binned
    field. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1)) := by
  unfold Pipeline.arrBufs
  exact bigSep_eq_bigSepL_of_eq [main_arg1, main_v0, main_v1] (by decide) (by decide) _

/-- The region's arrays, window by window: the query windows hold the left half of their array's share, the neighbour
    windows the right half, the output window its array whole. -/
theorem arrays0_eq (c : Dev nD) (G : (w : Fin cfg0.W) → Buf (Elt F) ((cfg0.win w).arr.view.loc (c : Thread nD τ))) :
    (dat0 Vd c).arrays G
      = iprop((((c : Thread nD τ).loc main_arg1) ↦{fullShare.left} G 0) ∗ (((c : Thread nD τ).loc main_v0) ↦{fullShare.left} G 1)
          ∗ (((c : Thread nD τ).loc main_arg1) ↦{fullShare.right} G 2) ∗ (((c : Thread nD τ).loc main_v0) ↦{fullShare.right} G 3)
          ∗ (((c : Thread nD τ).loc main_v1) ↦{fullShare} G 4)) := by
  unfold Dat.arrays
  rw [bigSep_W0, (arr_whole0 0).set_eq_univ, (arr_whole0 1).set_eq_univ, (arr_whole0 4).set_eq_univ]
  rfl

/-- ENTRY: the three buffers, whole, make the five windows' arrays — the positions' and the velocities' points-to
    each split along the share into the query window's half and the neighbour window's. -/
theorem arrays0_of_arrBufs (c : Dev nD) (V : (b : Ref sig .tc) → Buf (Elt F) ((c : Thread nD τ).loc b))
    (G : (w : Fin cfg0.W) → Buf (Elt F) ((cfg0.win w).arr.view.loc (c : Thread nD τ)))
    (h0 : G 0 = V main_arg1) (h1 : G 1 = V main_v0) (h2 : G 2 = V main_arg1) (h3 : G 3 = V main_v0) (h4 : G 4 = V main_v1) :
    (Pipeline.arrBufs (Ix := Unit) (Name := ℕ) (U := UR sig nD τ) (Lvl := ℕ) spec0 c V : sProp 𝕄) ⊢ (dat0 Vd c).arrays G := by
  rw [arrBufs0_eq, arrays0_eq, h0, h1, h2, h3, h4]
  iintro ⟨Hpos, Hvel, Hout⟩
  ihave Hpos' := (pointsTo_share (PosShare.mem_left_op_right fullShare)).1 $$ Hpos
  ihave Hvel' := (pointsTo_share (PosShare.mem_left_op_right fullShare)).1 $$ Hvel
  icases Hpos' with ⟨HposL, HposR⟩
  icases Hvel' with ⟨HvelL, HvelR⟩
  isplitl [HposL]; · iexact HposL
  isplitl [HvelL]; · iexact HvelL
  isplitl [HposR]; · iexact HposR
  isplitl [HvelR]; · iexact HvelR
  iexact Hout

/-- EXIT: the five windows' arrays, the two windows on one buffer agreeing on its contents, make the three buffers
    whole again — the halves joined along the share. -/
theorem arrBufs_of_arrays0 (c : Dev nD) (V : (b : Ref sig .tc) → Buf (Elt F) ((c : Thread nD τ).loc b))
    (G : (w : Fin cfg0.W) → Buf (Elt F) ((cfg0.win w).arr.view.loc (c : Thread nD τ)))
    (h0 : G 0 = V main_arg1) (h1 : G 1 = V main_v0) (h2 : G 2 = V main_arg1) (h3 : G 3 = V main_v0) (h4 : G 4 = V main_v1) :
    (dat0 Vd c).arrays G ⊢ (Pipeline.arrBufs (Ix := Unit) (Name := ℕ) (U := UR sig nD τ) (Lvl := ℕ) spec0 c V : sProp 𝕄) := by
  rw [arrBufs0_eq, arrays0_eq, h0, h1, h2, h3, h4]
  iintro ⟨HposL, HvelL, HposR, HvelR, Hout⟩
  isplitl [HposL HposR]
  · iapply (pointsTo_share (PosShare.mem_left_op_right fullShare)).2
    isplitl [HposL]; · iexact HposL
    iexact HposR
  isplitl [HvelL HvelR]
  · iapply (pointsTo_share (PosShare.mem_left_op_right fullShare)).2
    isplitl [HvelL]; · iexact HvelL
    iexact HvelR
  iexact Hout

end Shared

/-! ## The binning region as a segment -/

/-- A core's unscoped buffers at a valuation: the three buffers behind the binning region's windows and the rest. -/
theorem held_split0 (W : Dev nD → Valuation τ sig (Elt F)) (c : Dev nD) :
    heldAt W c = iprop((Pipeline.arrBufs (Ix := Unit) (Name := ℕ) (U := UR sig nD τ) (Lvl := ℕ) spec0 c (fun b => W c b) : sProp 𝕄)
      ∗ Pipeline.unscopedRest (Ix := Unit) (Name := ℕ) (U := UR sig nD τ) (Lvl := ℕ) spec0 c (fun b => W c b)) :=
  (Pipeline.unscopedBufs_held (Ix := Unit) (Name := ℕ) (U := UR sig nD τ) (Lvl := ℕ) c (W c)).symm.trans
    (Pipeline.unscopedBufs_split₀ cfgs 0 winFacts₀0.arr_unscoped c (fun b => W c b))

/-- ENTRY, the buffers' part: every unscoped buffer at W1 gives the region's arrays at the proof data's entry contents
    and the rest. -/
theorem entry0_bufs (c : Dev nD) :
    heldAt (W1 m ρ) c ⊢ iprop((dat0 (V1 m ρ) c).arrays ((dat0 (V1 m ρ) c).arrAt · 0)
      ∗ Pipeline.unscopedRest (Ix := Unit) (Name := ℕ) (U := UR sig nD τ) (Lvl := ℕ) spec0 c (V1 m ρ c)) := by
  rw [held_split0]
  exact sep_mono (arrays0_of_arrBufs (V1 m ρ) c (V1 m ρ c) ((dat0 (V1 m ρ) c).arrAt · 0) rfl rfl rfl rfl rfl) .rfl

/-- The region writes no buffer but the binned field's: off it the exit valuation is the entry one. -/
theorem rest0_exit (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  unfold Pipeline.unscopedRest
  refine bigSep_congr fun b hb => ?_
  have hne : b ≠ main_v1 := fun e =>
    (Finset.mem_sdiff.mp hb).2 (e ▸ Finset.mem_image.mpr ⟨(4 : Fin 5), Finset.mem_univ _, rfl⟩)
  rw [show V2 m ρ c b = V1 m ρ c b from W2_of_ne m ρ c b hne]

/-- EXIT, the buffers' part: the region's arrays at what the pipeline leaves — each input window's at its entry
    contents, so that the two windows on one buffer agree — and the rest make every unscoped buffer at W2. -/
theorem exit0_bufs (c : Dev nD) :
    iprop((dat0 (V1 m ρ) c).arrays ((dat0 (V1 m ρ) c).arrAt · cfg0.N)
      ∗ Pipeline.unscopedRest (Ix := Unit) (Name := ℕ) (U := UR sig nD τ) (Lvl := ℕ) spec0 c (V1 m ρ c)) ⊢ heldAt (W2 m ρ) c := by
  rw [held_split0, rest0_exit]
  refine sep_mono (arrBufs_of_arrays0 (V1 m ρ) c (V2 m ρ c) ((dat0 (V1 m ρ) c).arrAt · cfg0.N) ?_ ?_ ?_ ?_ ?_) .rfl
  · exact ((dat0 (V1 m ρ) c).arrAt_in 0 rfl _).trans ((A_eq0 (V1 m ρ) c 0).trans (W2_of_ne m ρ c main_arg1 (by decide)).symm)
  · exact ((dat0 (V1 m ρ) c).arrAt_in 1 rfl _).trans ((A_eq0 (V1 m ρ) c 1).trans (W2_of_ne m ρ c main_v0 (by decide)).symm)
  · exact ((dat0 (V1 m ρ) c).arrAt_in 2 rfl _).trans ((A_eq0 (V1 m ρ) c 2).trans (W2_of_ne m ρ c main_arg1 (by decide)).symm)
  · exact ((dat0 (V1 m ρ) c).arrAt_in 3 rfl _).trans ((A_eq0 (V1 m ρ) c 3).trans (W2_of_ne m ρ c main_v0 (by decide)).symm)
  · exact (W2_main_v1 m ρ c).symm

set_option backward.isDefEq.respectTransparency.types false in
/-- The binning region: entered from every unscoped buffer at W1, left at W2. The generator register goes into the
    region's invariant and comes back; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(heldAt (W1 m ρ) c ∗ R (F := F) c)
  post c := iprop(heldAt (W2 m ρ) c ∗ R (F := F) c)
  X c := someReg (F := F) c
  Y c := someReg (F := F) c
  Z c := Pipeline.unscopedRest (Ix := Unit) (Name := ℕ) (U := UR sig nD τ) (Lvl := ℕ) spec0 c (V1 m ρ c)
  hentry c := by
    have hpf : (Pipeline.prefHeld (pcfgs (F := F) 0).pre c (fun _ => fullShare) (adm (F := F) 0).1 : sProp 𝕄) = BI.emp := by
      unfold Pipeline.prefHeld; exact BI.bigSep_empty
    rw [hpf]
    iintro ⟨⟨Hbufs, Hreg, Howe⟩, -, -⟩
    ihave Hparts := (entry0_bufs m ρ c) $$ Hbufs
    icases Hparts with ⟨Harr, Hrest⟩
    ihave Howe' := (within_of_owesNone c ((pdats m ρ 0 c).bound () 0) fun _ => Or.inl trivial) $$ Howe
    imodintro
    isplitl [Harr]; · iexact Harr
    isplitr; · iempintro
    isplitl [Howe']; · iexact Howe'
    isplitl [Hreg]; · iexact Hreg
    iexact Hrest
  hin c := by
    refine (show _ ⊢ Pipeline.ΦA spec0 c from ?_).trans (hin0 (V1 m ρ) c)
    unfold Pipeline.ΦA
    iintro ⟨Hreg, -, Hsc⟩
    isplitl [Hsc]; · iexact Hsc
    iexact Hreg
  hout c := by
    rw [Pipeline.ownSems0_none]
    refine (hout0 (V1 m ρ) c).trans ?_
    unfold Pipeline.ΦA
    iintro ⟨Hsc, Hreg⟩
    isplitl [Hreg]; · iexact Hreg
    isplitr; · iempintro
    iexact Hsc
  hexit c := by
    have hlast : (pdats m ρ 0 c).owesAt () (Fin.last cfg0.N) ⊢ owesNone (F := F) c := owesNone_of_within c _
    iintro ⟨Harr, Howe, Hreg, Hrest⟩
    ihave Hbufs := (exit0_bufs m ρ c) $$ [Harr Hrest]
    · isplitl [Harr]; · iexact Harr
      iexact Hrest
    ihave Howe' := hlast $$ Howe
    imodintro
    isplitl [Hbufs]; · iexact Hbufs
    isplitl [Hreg]; · iexact Hreg
    iexact Howe'

/-! ## @main as segments, and the launch -/

/-- @main's four segments in order: the subtraction, the binning region, the reshapes, the head region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- @main is the run of its segments. -/
theorem main_run (c : Dev nD) : main (F := F) c = Pipeline.Seg.run (segs m ρ) := (main_chain c).trans (by chain_rfl)

/-- The first thread state on a core, from what the launch deals it: its unscoped buffers at the launch memory, its
    generator register, and that it owes nothing. -/
theorem init_core (c : Dev nD) :
    iprop((unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> iprop(heldAt (W0 m ρ) c ∗ R (F := F) c) := by
  rw [show unscopedBufs c (fun b => m ((c : Thread nD τ).loc b)) = heldAt (W0 m ρ) c
    from Pipeline.unscopedBufs_held c (W0 m ρ c)]
  iintro ⟨⟨Hbufs, -, Howe, -, Hreg, -⟩, -⟩
  imodintro
  isplitl [Hbufs]; · iexact Hbufs
  isplitl [Hreg]
  · iexists (ρ c); iexact Hreg
  iexists ∅; iexact Howe

/-- The last thread state read against a final state: the memory holds every unscoped buffer at W4. -/
theorem fin_core (c : Dev nD) (s' : Phys nD τ sig (Elt F)) :
    iprop(Tₙ m ρ c ∗ SI s') ⊢ (|={Set.univ}=> iprop(⌜∀ b ∈ Pipeline.ucRefs τ sig, s'.mem.mem (((c : Thread nD τ)).1, b) = W4 m ρ c b⌝ ∗ SI s') : sProp 𝕄) := by
  have hb : heldAt (W4 m ρ) c ⊢ (bigSep (Pipeline.ucRefs τ sig) fun b => (((c : Thread nD τ)).1, b) ↦{fullShare} W4 m ρ c b : sProp 𝕄) :=
    Entails.of_eq rfl
  iintro ⟨⟨Hbufs, -⟩, HSI⟩
  imodintro
  iapply (pointsTo_read_all (Pipeline.ucRefs τ sig) (fun b => (((c : Thread nD τ)).1, b)) (W4 m ρ c) s')
  isplitl [Hbufs]
  · iapply hb; iexact Hbufs
  iexact HSI

set_option backward.isDefEq.respectTransparency.types false in
/-- THE RUN: from any memory with zero counters every weakly fair execution of @main terminates, nothing faulting,
    and every final memory holds every unscoped buffer of every core at W4. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hG : (BI.emp : sProp 𝕄) ⊢ bigSep Finset.univ (fun _ : Dev nD => (BI.emp : sProp 𝕄)) := by rw [BI.bigSep_emp_const]
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu
      ihave Hu' := hown $$ Hu
      imodintro
      isplitl [Hu']; · iexact Hu'
      iapply hG
      iempintro)
    (T₀ := fun c => iprop(heldAt (W0 m ρ) c ∗ R (F := F) c)) (Tₙ := Tₙ m ρ)
    (hch := ⟨fun _ => .rfl, fun _ => .rfl, fun _ => .rfl, fun _ => .rfl, fun _ => .rfl⟩)
    (hinit := Pipeline.initEach L lv fun c => init_core m ρ c)
    (QY := fun c s => ∀ b ∈ Pipeline.ucRefs τ sig, s.mem (((c : Thread nD τ)).1, b) = W4 m ρ c b)
    (hfin := fun c s' => fin_core m ρ c s')
    (hQ := fun s h c => h c)

/-- THE FRAME: @main runs, and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

/-- THE RESULT: @main runs, the result's buffer ends at what the head region's write-backs leave, and every argument
    array ends holding its launch contents. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.KernelIdeal.Hand

end
-- ==== Proof.Spec.lean ====
/-
  What both programs compute, as one function of the argument arrays over the extended reals.

  For pedestrians i, j (4096 of them) with positions P and velocities Vl = P − Q (current minus past position),
  the relative position P j − P i is scaled by 1/c (c the cell side) and shifted by 8, and its floor, converted
  to a 32-bit integer, is the cell coordinate of j in the 16 × 16 grid centred on i, one coordinate per axis.
  Pair (i, j) is valid when both coordinates are in 0..15 and i ≠ j. Cell (a, b) of pedestrian i collects the
  relative velocities of the valid j whose coordinates are (a, b), and their number; the grid's entry is the sum
  over max(number, 1). Flattened to 512 features per pedestrian it goes through a linear layer and a relu.
-/
import Idealize.ShloMosaic.PureOps.Ideal
import Idealize.ShloMosaic.Lib.ValueIdx

noncomputable section

namespace Cert.Spec

open Idealize.ShloMosaic Idealize.ShloMosaic.ValueIdx

abbrev S4096x2 : Shape := ⟨2, ![4096, 2]⟩
abbrev S256x512 : Shape := ⟨2, ![256, 512]⟩
abbrev S256 : Shape := ⟨1, ![256]⟩
abbrev S1x256 : Shape := ⟨2, ![1, 256]⟩
abbrev S4096x256x2 : Shape := ⟨3, ![4096, 256, 2]⟩
abbrev S4096x512 : Shape := ⟨2, ![4096, 512]⟩
abbrev S4096x256 : Shape := ⟨2, ![4096, 256]⟩

/-- The reciprocal of the cell side, the cell side being the binary32 value 5033165/8388608 nearest 0.6. -/
def invCell : EReal := ((8388608 / 5033165 : ℝ) : EReal)

/-- The cell coordinate of a scaled relative position `w`: the floor of `w + 8` as a 32-bit integer. -/
def cellI (w : EReal) : BitVec 32 :=
  Ideal.fptosi 32 (Ideal.liftRound Int.floor (w + Ideal.ofBits .f32 0x41000000#32))

/-- The cell coordinate, along one axis, of a pedestrian at `pj` seen from one at `pi`. -/
def cellOf (pi pj : EReal) : BitVec 32 := cellI ((pj - pi) * invCell)

/-- A coordinate inside the grid: 0 ≤ a < 16, read signed. -/
def inGrid (a : BitVec 32) : Prop := (0#32).sle a = true ∧ a.slt 16#32 = true

instance (a : BitVec 32) : Decidable (inGrid a) := by unfold inGrid; infer_instance

/-- A neighbour at (xj, yj) falls in cell (a, b) of the grid centred on (xi, yi), and the two are not one
    pedestrian (`self`). -/
def hitOf (xi yi xj yj : EReal) (self : Prop) (a b : Fin 16) : Prop :=
  inGrid (cellOf xi xj) ∧ inGrid (cellOf yi yj) ∧ ¬ self
    ∧ cellOf xi xj = BitVec.ofNat 32 a.val ∧ cellOf yi yj = BitVec.ofNat 32 b.val

instance (xi yi xj yj : EReal) (self : Prop) [Decidable self] (a b : Fin 16) : Decidable (hitOf xi yi xj yj self a b) := by
  unfold hitOf; infer_instance

/-- Pedestrian `j` falls in cell (a, b) of pedestrian `i`'s grid, and is not `i` itself. -/
def hit (P : S4096x2.Idx → EReal) (i j : Fin 4096) (a b : Fin 16) : Prop :=
  hitOf (P (ix2 i 0)) (P (ix2 i 1)) (P (ix2 j 0)) (P (ix2 j 1)) (i = j) a b

instance (P : S4096x2.Idx → EReal) (i j : Fin 4096) (a b : Fin 16) : Decidable (hit P i j a b) := by
  unfold hit; infer_instance

/-- The velocities: current minus past position. -/
def vel (P Q : S4096x2.Idx → EReal) : S4096x2.Idx → EReal := fun x => P x - Q x

/-- Cell (a, b) of pedestrian `i`: the summed relative velocities along axis `d` of those that hit it. -/
def num (P Vl : S4096x2.Idx → EReal) (i : Fin 4096) (a b : Fin 16) (d : Fin 2) : EReal :=
  ∑ j : Fin 4096, if hit P i j a b then Vl (ix2 j d) - Vl (ix2 i d) else 0

/-- How many hit it. -/
def cnt (P : S4096x2.Idx → EReal) (i : Fin 4096) (a b : Fin 16) : EReal :=
  ∑ j : Fin 4096, if hit P i j a b then 1 else 0

/-- A flattened cell index k = a·16 + b split into its row a and column b. -/
def hi16 (k : Fin 256) : Fin 16 := ⟨k.val / 16, by have := k.isLt; omega⟩
def lo16 (k : Fin 256) : Fin 16 := ⟨k.val % 16, Nat.mod_lt _ (by decide)⟩
/-- A flattened feature index f = k·2 + d split into its cell k and axis d. -/
def hi2 (f : Fin 512) : Fin 256 := ⟨f.val / 2, by have := f.isLt; omega⟩
def lo2 (f : Fin 512) : Fin 2 := ⟨f.val % 2, Nat.mod_lt _ (by decide)⟩

/-- One entry of the pooled grid: pedestrian `i`, cell (a, b), axis `d`: the mean relative velocity of the cell
    (the sum over max(count, 1)). -/
def gridAt (P Vl : S4096x2.Idx → EReal) (i : Fin 4096) (a b : Fin 16) (d : Fin 2) : EReal :=
  Ideal.div (num P Vl i a b d) (max (cnt P i a b) (Ideal.ofBits .f32 0x3F800000#32))

/-- The pooled grid, cells row-major (k = a·16 + b). -/
def grid (P Vl : S4096x2.Idx → EReal) : S4096x256x2.Idx → EReal := fun x =>
  gridAt P Vl (x 0) (hi16 (x 1)) (lo16 (x 1)) (x 2)

/-- The grid flattened to 512 features per pedestrian (cell-major, the axis last). -/
def flat (g : S4096x256x2.Idx → EReal) : S4096x512.Idx → EReal := fun x =>
  g (ix3 (x 0) (hi2 (x 1)) (lo2 (x 1)))

/-- The linear layer and the relu: max(Σₖ x[n, k] · W[o, k] + B[o], 0). -/
def head (x : S4096x512.Idx → EReal) (W : S256x512.Idx → EReal) (B : S256.Idx → EReal) : S4096x256.Idx → EReal :=
  fun y => max ((∑ k : Fin 512, x (ix2 (y 0) k) * W (ix2 (y 1) k)) + B (ix1 (y 1))) (Ideal.ofBits .f32 0x00000000#32)

/-- The same with the bias given as a one-row matrix. -/
def headRow (x : S4096x512.Idx → EReal) (W : S256x512.Idx → EReal) (B : S1x256.Idx → EReal) : S4096x256.Idx → EReal :=
  fun y => max ((∑ k : Fin 512, x (ix2 (y 0) k) * W (ix2 (y 1) k)) + B (ix2 0 (y 1))) (Ideal.ofBits .f32 0x00000000#32)

/-- The whole computation. -/
def result (P Q : S4096x2.Idx → EReal) (W : S256x512.Idx → EReal) (B : S256.Idx → EReal) : S4096x256.Idx → EReal :=
  head (flat (grid P (vel P Q))) W B

end Cert.Spec

end
-- ==== Proof.KI.HeadValue.lean ====
/-
  The head kernel's region at the extended reals: the result array after the region is, entry by entry,
  max(Σₖ x[n, k] · W[o, k] + b[0, o], 0) of the arrays the region finds.
  First the kernel's stored value at one entry of a block (rounding to bf16 is the identity at the extended reals, the
  matrix product into a zero accumulator is the plain sum over the 512 columns, the transposed weights read W[o, k],
  the bias row is repeated down the 512 rows); then each block the kernel is handed, as rows of its array; then what
  point t writes back is rows 512·t … 512·t+511 of that function; and the 8 blocks cover the 4096 rows.
-/
import proofs.«109977_j37271726195508_1_alg».proof.Proof.KI.Head
import proofs.«109977_j37271726195508_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The stored value at one entry -/

/-- The left factor's index in the product, at result entry i and column k: (row of i, k). -/
abbrev lidxHead (i : S512x256.Idx) (k : Fin 512) : S512x512.Idx := fun a => match a with
  | ⟨0, _⟩ => ⟨(i 0).val, (i 0).isLt⟩
  | ⟨1, _⟩ => ⟨k.val, k.isLt⟩
/-- The right factor's: (k, column of i). -/
abbrev ridxHead (i : S512x256.Idx) (k : Fin 512) : S512x256.Idx := fun a => match a with
  | ⟨0, _⟩ => ⟨k.val, k.isLt⟩
  | ⟨1, _⟩ => ⟨(i 1).val, (i 1).isLt⟩

theorem lhs_head_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_head_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_head_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_head_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The matrix product into the zero accumulator, at an entry: the sum over the 512 columns. -/
theorem matmul_head_apply (a : FVec Ideal S512x512 .bf16) (b : FVec Ideal S512x256 .bf16) (i : S512x256.Idx) :
    matmul dot_S512x512_S512x256_S512x256_1_0_0_1_n_n none a b (constant (F := Ideal) S512x256 .f32 0x00000000#32) i
      = ∑ k : Fin 512, a (lidxHead i k) * b (ridxHead i k) := by
  simp only [matmul]
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx i ((ValueIdx.contrEquiv1 dot_S512x512_S512x256_S512x256_1_0_0_1_n_n 512 rfl rfl).symm k) = lidxHead i k := funext fun a => Fin.ext (by
    match a with
    | ⟨0, _⟩ => exact lhs_head_0 _ _
    | ⟨1, _⟩ => exact (lhs_head_1 _ _).trans hk)
  have er : dot_S512x512_S512x256_S512x256_1_0_0_1_n_n.rhsIdx i ((ValueIdx.contrEquiv1 dot_S512x512_S512x256_S512x256_1_0_0_1_n_n 512 rfl rfl).symm k) = ridxHead i k := funext fun a => Fin.ext (by
    match a with
    | ⟨0, _⟩ => exact (rhs_head_0 _ _).trans hk
    | ⟨1, _⟩ => exact rhs_head_1 _ _)
  rw [el, er]

/-- The transposed weights at (k, o) are the weights at (o, k). -/
theorem transpose_head_apply {α : Type} (w : S256x512.Idx → α) (k : Fin 512) (o : Fin 256) :
    transpose S512x256 [1, 0] w transposes_S256x512_p1_0_S512x256 (ix2 k o) = w (ix2 o k) :=
  transpose_apply [1, 0] w transposes_S256x512_p1_0_S512x256 (ix2 k o) (ix2 o k) (fun b => match b with
    | ⟨0, _⟩ => rfl
    | ⟨1, _⟩ => rfl)

/-- The bias row repeated down the rows, at (p, o), is the row at (0, o). -/
theorem broadcast_head_apply {α : Type} (r : S1x256.Idx → α) (p : Fin 512) (o : Fin 256) :
    broadcastTo S512x256 r broadcasts_S1x256_S512x256 (ix2 p o) = r (ix2 0 o) :=
  broadcastTo_apply r broadcasts_S1x256_S512x256 (ix2 p o) (ix2 0 o) (fun a => match a with
    | ⟨0, _⟩ => rfl
    | ⟨1, _⟩ => rfl)

/-- The kernel's stored value at entry (p, o) of a block: max(Σₖ x[p, k] · W[o, k] + b[0, o], 0). -/
theorem pay_apply (x0 : Vec Ideal S512x512 .f32) (x1 : Vec Ideal S256x512 .f32) (x2 : Vec Ideal S1x256 .f32)
    (p : Fin 512) (o : Fin 256) :
    Gen.k1_pay1 (F := Ideal) x0 x1 x2 (ix2 p o)
      = max ((∑ k : Fin 512, x0 (ix2 p k) * x1 (ix2 o k)) + x2 (ix2 0 o)) (Ideal.ofBits .f32 0x00000000#32) := by
  unfold Gen.k1_pay1
  simp only [shapeCast_self]
  rw [maximumf_apply, addf_apply, broadcast_apply, matmul_head_apply, broadcast_head_apply]
  refine congrArg (fun s => max (s + x2 (ix2 0 o)) _) (Finset.sum_congr rfl fun k _ => ?_)
  rw [truncf_apply, show ridxHead (ix2 p o) k = ix2 k o from funext fun a => by match a with | ⟨0, _⟩ => rfl | ⟨1, _⟩ => rfl,
    transpose_head_apply, truncf_apply]
  exact congrArg (fun j => x0 j * x1 (ix2 o k)) (funext fun a => by match a with | ⟨0, _⟩ => rfl | ⟨1, _⟩ => rfl)

/-! ## The blocks the kernel is handed, as rows of their arrays -/

variable (V : (c : Dev nD) → (b : Ref sig .tc) → Buf (Elt Ideal) ((c : Thread nD τ).loc b))

/-- Where each window's block sits at point t: the activations' and the result's at block row t, the weights' and the
    bias row's at the origin (decided over the 8 points). -/
theorem block_origin : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activations' block at point t is rows 512·t … 512·t+511 of the array. -/
theorem iblkX_apply (c : Dev nD) (t : Fin cfg1.N) (x : S512x512.Idx) (k : S4096x512.Idx)
    (hk0 : (k 0).val = 512 * t.val + (x 0).val) (hk1 : (k 1).val = (x 1).val) :
    (iblk1 V c 0 t : Vec Ideal S512x512 .f32) x = (V c main_v2 : S4096x512.Idx → Elt Ideal .f32) k := by
  obtain ⟨e0, e1, -⟩ := block_origin t
  unfold iblk1
  rw [View.read_apply]
  show V c main_v2 _ = V c main_v2 _
  congr 1
  funext a
  apply Fin.ext
  match a with
  | ⟨0, _⟩ => show win1_0.index t 0 * 512 + 1 * (x 0).val = (k 0).val; rw [e0, hk0]; omega
  | ⟨1, _⟩ => show win1_0.index t 1 * 512 + 1 * (x 1).val = (k 1).val; rw [e1, hk1]; omega

/-- The weights' block at every point is the whole matrix. -/
theorem iblkW_apply (c : Dev nD) (t : Fin cfg1.N) (x : S256x512.Idx) :
    (iblk1 V c 1 t : Vec Ideal S256x512 .f32) x = (V c main_arg3 : S256x512.Idx → Elt Ideal .f32) x := by
  obtain ⟨-, -, e0, e1, -⟩ := block_origin t
  unfold iblk1
  rw [View.read_apply]
  show V c main_arg3 _ = V c main_arg3 _
  congr 1
  funext a
  apply Fin.ext
  match a with
  | ⟨0, _⟩ => show win1_1.index t 0 * 256 + 1 * (x 0).val = (x 0).val; rw [e0]; omega
  | ⟨1, _⟩ => show win1_1.index t 1 * 512 + 1 * (x 1).val = (x 1).val; rw [e1]; omega

/-- The bias row's block at every point is the whole row. -/
theorem iblkB_apply (c : Dev nD) (t : Fin cfg1.N) (x : S1x256.Idx) :
    (iblk1 V c 2 t : Vec Ideal S1x256 .f32) x = (V c main_v3 : S1x256.Idx → Elt Ideal .f32) x := by
  obtain ⟨-, -, -, -, e0, e1, -⟩ := block_origin t
  unfold iblk1
  rw [View.read_apply]
  show V c main_v3 _ = V c main_v3 _
  congr 1
  funext a
  apply Fin.ext
  match a with
  | ⟨0, _⟩ => show win1_2.index t 0 * 1 + 1 * (x 0).val = (x 0).val; rw [e0]; omega
  | ⟨1, _⟩ => show win1_2.index t 1 * 256 + 1 * (x 1).val = (x 1).val; rw [e1]; omega

/-! ## From the blocks to the array -/

/-- What the result array is shown to hold: the linear layer and the relu of the arrays the region finds. -/
abbrev headG (c : Dev nD) : S4096x256.Idx → EReal :=
  Cert.Spec.headRow (V c main_v2) (V c main_arg3) (V c main_v3)

/-- What point t writes back is rows 512·t … 512·t+511 of that function. -/
theorem flushed_eq (c : Dev nD) (t : Fin cfg1.N) :
    (dat1 (F := Ideal) V c).flushed 3 t = ((cfg1.win 3).blk t).view.read (Elt Ideal) (headG V c) := by
  show (cfg1.win 3).cut (grid1.coords t) ((dat1 V c).after 3 t) = _
  rw [after1_3, out1_eq]
  obtain ⟨-, -, -, -, -, -, e0, e1⟩ := block_origin t
  funext j
  obtain ⟨p, o, rfl⟩ : ∃ (p : Fin 512) (o : Fin 256), j = ix2 p o := ⟨j 0, j 1, eq_ix2 j⟩
  have hy0 : ((((cfg1.win 3).blk t).view.emb (ix2 p o)) 0).val = 512 * t.val + p.val := by
    show win1_3.index t 0 * 512 + 1 * p.val = _; rw [e0]; omega
  have hy1 : ((((cfg1.win 3).blk t).view.emb (ix2 p o)) 1).val = o.val := by
    show win1_3.index t 1 * 256 + 1 * o.val = _; rw [e1]; omega
  show Gen.k1_pay1 (F := Ideal) (iblk1 V c 0 t) (iblk1 V c 1 t) (iblk1 V c 2 t) (ix2 p o)
    = headG V c (((cfg1.win 3).blk t).view.emb (ix2 p o))
  refine (pay_apply _ _ _ p o).trans ?_
  unfold headG Cert.Spec.headRow
  refine congrArg₂ max (congrArg₂ (· + ·) (Finset.sum_congr rfl fun k _ => congrArg₂ (· * ·) ?_ ?_) ?_) rfl
  · exact iblkX_apply V c t (ix2 p k) _ hy0 rfl
  · rw [iblkW_apply]
    exact congrArg (V c main_arg3 : S256x512.Idx → EReal) (funext fun a => Fin.ext (by
      match a with
      | ⟨0, _⟩ => exact hy1.symm
      | ⟨1, _⟩ => rfl))
  · rw [iblkB_apply]
    exact congrArg (V c main_v3 : S1x256.Idx → EReal) (funext fun a => Fin.ext (by
      match a with
      | ⟨0, _⟩ => rfl
      | ⟨1, _⟩ => exact hy1.symm))

/-- Row r of the result is in the block of point r / 512. -/
theorem covered (i : S4096x256.Idx) :
    ∃ t : Fin cfg1.N, (cfg1.win 3).flush t = true ∧ i ∈ ((cfg1.win 3).blk t).view.set := by
  have hN : cfg1.N = 8 := N_1
  have h0 : (i 0).val < 4096 := idx2_lt0 i
  have h1 : (i 1).val < 256 := idx2_lt1 i
  let t : Fin cfg1.N := ⟨(i 0).val / 512, by omega⟩
  obtain ⟨-, -, -, -, -, -, e0, e1⟩ := block_origin t
  have ht : t.val = (i 0).val / 512 := rfl
  refine ⟨t, flush1_3 t, ?_⟩
  show i ∈ ((View.whole main_v4).slice (win1_3.rect t)).set
  rw [View.set_slice_whole, Rect.mem_set_unit]
  intro a
  match a with
  | ⟨0, _⟩ => show win1_3.index t 0 * 512 ≤ (i 0).val ∧ (i 0).val < win1_3.index t 0 * 512 + 512; omega
  | ⟨1, _⟩ => show win1_3.index t 1 * 256 ≤ (i 1).val ∧ (i 1).val < win1_3.index t 1 * 256 + 256; omega

/-- The result array after the region: the linear layer and the relu of the arrays the region finds. -/
theorem head_value (c : Dev nD) :
    (dat1 (F := Ideal) V c).arrAt 3 cfg1.N = Cert.Spec.headRow (V c main_v2) (V c main_arg3) (V c main_v3) :=
  (dat1 (F := Ideal) V c).arrAt_eq_of_cover 3 (headG V c) (fun t _ => flushed_eq V c t) covered

end Cert.KernelIdeal.Hand

end
-- ==== Proof.KI.StepValue.lean ====
/-
  One accumulation step of the binning kernel, read index by index at the ideal values.

  For a block of 128 query pedestrians (rows r) and a block of 128 neighbours (rows jj) at grid point (i0, j0), the
  step adds to cell (a, b) of query r the sum over jj of the relative velocity (resp. of 1) of those neighbours that
  hit the cell: both cell coordinates floor((p_jj − p_r) / c + 8) inside 0..15, the pair not one pedestrian
  (i0·128 + r ≠ j0·128 + jj), and the coordinates equal to (a, b). The kernel writes this as a batched product of two
  one-hot arrays over the clamped coordinates, the first carrying the validity factor; on a valid pair the clamp is
  the identity and on an invalid one the factor 0 removes the term, so each product term is the value on a hit and 0
  elsewhere. The reset writes zeros, and the stored block is each cell's sums over max(count, 1).
-/
import proofs.«109977_j37271726195508_1_alg».proof.Proof.KI.Step
import proofs.«109977_j37271726195508_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Idealize.ShloMosaic Idealize.SL.Sem Cert.KernelIdeal Cert.KernelIdeal.Gen
open Cert.Spec Idealize.ShloMosaic.ValueIdx
open scoped BigOperators

/-! ## The batched product read at an index -/

theorem dd_lhs_0 (j : S128x16x16.Idx) (q : dot_S128x16x128_S128x16x128_S128x16x16_2_2_1_1_0_0.contr.Idx) : (dot_S128x16x128_S128x16x128_S128x16x16_2_2_1_1_0_0.lhsIdx j q 0).val = (j 0).val := by
  unfold DotDims.lhsIdx
  rw [dif_pos (show (0 : Fin S128x16x128.rank) ∈ dot_S128x16x128_S128x16x128_S128x16x16_2_2_1_1_0_0.lhsBatch by decide)]
  rfl
theorem dd_lhs_1 (j : S128x16x16.Idx) (q : dot_S128x16x128_S128x16x128_S128x16x16_2_2_1_1_0_0.contr.Idx) : (dot_S128x16x128_S128x16x128_S128x16x16_2_2_1_1_0_0.lhsIdx j q 1).val = (j 1).val := by
  unfold DotDims.lhsIdx
  rw [dif_neg (show ¬(1 : Fin S128x16x128.rank) ∈ dot_S128x16x128_S128x16x128_S128x16x16_2_2_1_1_0_0.lhsBatch by decide), dif_pos (show (1 : Fin S128x16x128.rank) ∈ dot_S128x16x128_S128x16x128_S128x16x16_2_2_1_1_0_0.lhsNonContracting by decide)]
  rfl
theorem dd_lhs_2 (j : S128x16x16.Idx) (q : dot_S128x16x128_S128x16x128_S128x16x16_2_2_1_1_0_0.contr.Idx) : (dot_S128x16x128_S128x16x128_S128x16x16_2_2_1_1_0_0.lhsIdx j q 2).val = (q ⟨0, by decide⟩).val :=
  dot_S128x16x128_S128x16x128_S128x16x16_2_2_1_1_0_0.lhsIdx_val_of_single rfl j q
theorem dd_rhs_0 (j : S128x16x16.Idx) (q : dot_S128x16x128_S128x16x128_S128x16x16_2_2_1_1_0_0.contr.Idx) : (dot_S128x16x128_S128x16x128_S128x16x16_2_2_1_1_0_0.rhsIdx j q 0).val = (j 0).val := by
  unfold DotDims.rhsIdx
  rw [dif_pos (show (0 : Fin S128x16x128.rank) ∈ dot_S128x16x128_S128x16x128_S128x16x16_2_2_1_1_0_0.rhsBatch by decide)]
  rfl
theorem dd_rhs_1 (j : S128x16x16.Idx) (q : dot_S128x16x128_S128x16x128_S128x16x16_2_2_1_1_0_0.contr.Idx) : (dot_S128x16x128_S128x16x128_S128x16x16_2_2_1_1_0_0.rhsIdx j q 1).val = (j 2).val := by
  unfold DotDims.rhsIdx
  rw [dif_neg (show ¬(1 : Fin S128x16x128.rank) ∈ dot_S128x16x128_S128x16x128_S128x16x16_2_2_1_1_0_0.rhsBatch by decide), dif_pos (show (1 : Fin S128x16x128.rank) ∈ dot_S128x16x128_S128x16x128_S128x16x16_2_2_1_1_0_0.rhsNonContracting by decide)]
  rfl
theorem dd_rhs_2 (j : S128x16x16.Idx) (q : dot_S128x16x128_S128x16x128_S128x16x16_2_2_1_1_0_0.contr.Idx) : (dot_S128x16x128_S128x16x128_S128x16x16_2_2_1_1_0_0.rhsIdx j q 2).val = (q ⟨0, by decide⟩).val :=
  dot_S128x16x128_S128x16x128_S128x16x16_2_2_1_1_0_0.rhsIdx_val_of_single rfl j q

/-- The batched product into the zero accumulator, read at (r, a, b): the sum over the contracted coordinate. -/
theorem mm_apply (lhs rhs : FVec Ideal S128x16x128 .f32) (r : Fin 128) (a b : Fin 16) :
    FloatOps.matmul dot_S128x16x128_S128x16x128_S128x16x16_2_2_1_1_0_0 none lhs rhs (constant S128x16x16 .f32 0x00000000#32) (ix3 r a b)
      = ∑ jj : Fin 128, lhs (ix3 r a jj) * rhs (ix3 r b jj) := by
  rw [Ideal.matmul_constant_zero_apply, ← Equiv.sum_comp (contrEquiv1 dot_S128x16x128_S128x16x128_S128x16x16_2_2_1_1_0_0 128 rfl rfl).symm]
  refine Finset.sum_congr rfl fun k _ => ?_
  have hk := contrEquiv1_symm_val dot_S128x16x128_S128x16x128_S128x16x16_2_2_1_1_0_0 128 rfl rfl k
  have el : dot_S128x16x128_S128x16x128_S128x16x16_2_2_1_1_0_0.lhsIdx (ix3 r a b) ((contrEquiv1 dot_S128x16x128_S128x16x128_S128x16x16_2_2_1_1_0_0 128 rfl rfl).symm k) = ix3 r a k := funext fun x => Fin.ext (by
    match x with
    | ⟨0, _⟩ => exact dd_lhs_0 _ _
    | ⟨1, _⟩ => exact dd_lhs_1 _ _
    | ⟨2, _⟩ => exact (dd_lhs_2 _ _).trans hk)
  have er : dot_S128x16x128_S128x16x128_S128x16x16_2_2_1_1_0_0.rhsIdx (ix3 r a b) ((contrEquiv1 dot_S128x16x128_S128x16x128_S128x16x16_2_2_1_1_0_0 128 rfl rfl).symm k) = ix3 r b k := funext fun x => Fin.ext (by
    match x with
    | ⟨0, _⟩ => exact dd_rhs_0 _ _
    | ⟨1, _⟩ => exact dd_rhs_1 _ _
    | ⟨2, _⟩ => exact (dd_rhs_2 _ _).trans hk)
  rw [el, er]

/-! ## Layout operations on a column or a row, read at coordinates -/

section Layout
variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, q, e)`, the operand at `(p, 0, e)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (e : Fin b) :
    broadcastTo ⟨3, ![a, c, b]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if b = 1 then 0 else e.val
    split
    · have := e.isLt; omega
    · rfl

/-- A matrix spread along a new middle axis of candidates: `(p, q, e)` reads the matrix at `(p, e)`. -/
theorem spread_apply {a c b : ℕ} (x : (⟨2, ![a, b]⟩ : Shape).Idx → α)
    (h1 : (⟨2, ![a, b]⟩ : Shape).ShapeCasts ⟨3, ![a, 1, b]⟩) (h2 : (⟨3, ![a, 1, b]⟩ : Shape).Broadcasts ⟨3, ![a, c, b]⟩)
    (p : Fin a) (q : Fin c) (e : Fin b) :
    broadcastTo ⟨3, ![a, c, b]⟩ (shapeCast ⟨3, ![a, 1, b]⟩ x h1) h2 (ix3 p q e) = x (ix2 p e) := by
  rw [broadcastTo_a1b_acb_apply, shapeCast_ab_a1b_apply]

/-- Column `o` of an `[a, 2]`-like array laid along the rows of a square: `(r, jj)` reads the array at `(jj, o)`. -/
theorem rowOf_apply {a m b : ℕ} (o : ℕ) (X : (⟨2, ![a, m]⟩ : Shape).Idx → α)
    (h1 : (⟨2, ![a, m]⟩ : Shape).Slices ![0, o] ⟨2, ![a, 1]⟩) (h2 : (⟨2, ![a, 1]⟩ : Shape).ShapeCasts ⟨1, ![a]⟩)
    (h3 : (⟨1, ![a]⟩ : Shape).ShapeCasts ⟨2, ![1, a]⟩) (h4 : (⟨2, ![1, a]⟩ : Shape).Broadcasts ⟨2, ![b, a]⟩)
    (c : Fin m) (hc : c.val = o) (r : Fin b) (jj : Fin a) :
    broadcastTo ⟨2, ![b, a]⟩ (shapeCast ⟨2, ![1, a]⟩ (shapeCast ⟨1, ![a]⟩ (extractStridedSlice ⟨2, ![a, 1]⟩ ![0, o] X h1) h2) h3) h4 (ix2 r jj)
      = X (ix2 jj c) := by
  rw [broadcastTo_1b_ab_apply, shapeCast_a_1a_apply, shapeCast_a1_a_apply]
  exact slice2_axis1_apply o X h1 jj 0 c (by rw [hc]; rfl)

/-- Column `o` laid along the columns of a square: `(r, jj)` reads the array at `(r, o)`. -/
theorem colOf_apply {a m b : ℕ} (o : ℕ) (X : (⟨2, ![a, m]⟩ : Shape).Idx → α)
    (h1 : (⟨2, ![a, m]⟩ : Shape).Slices ![0, o] ⟨2, ![a, 1]⟩) (h2 : (⟨2, ![a, 1]⟩ : Shape).ShapeCasts ⟨1, ![a]⟩)
    (h3 : (⟨1, ![a]⟩ : Shape).ShapeCasts ⟨2, ![a, 1]⟩) (h4 : (⟨2, ![a, 1]⟩ : Shape).Broadcasts ⟨2, ![a, b]⟩)
    (c : Fin m) (hc : c.val = o) (r : Fin a) (jj : Fin b) :
    broadcastTo ⟨2, ![a, b]⟩ (shapeCast ⟨2, ![a, 1]⟩ (shapeCast ⟨1, ![a]⟩ (extractStridedSlice ⟨2, ![a, 1]⟩ ![0, o] X h1) h2) h3) h4 (ix2 r jj)
      = X (ix2 r c) := by
  rw [broadcastTo_a1_ab_apply, shapeCast_a_a1_apply, shapeCast_a1_a_apply]
  exact slice2_axis1_apply o X h1 r 0 c (by rw [hc]; rfl)

end Layout

/-! ## The relative positions and velocities of a pair -/

theorem relX_apply (xi xj : Vec Ideal S128x2 .f32) (r jj : Fin 128) :
    relX xi xj (ix2 r jj) = xj (ix2 jj 0) - xi (ix2 r 0) := by
  unfold relX k0_pay7
  rw [subf_apply]
  congr 1
  · exact rowOf_apply 0 xj _ _ _ _ 0 rfl r jj
  · exact colOf_apply 0 xi _ _ _ _ 0 rfl r jj

theorem relY_apply (xi xj : Vec Ideal S128x2 .f32) (r jj : Fin 128) :
    relY xi xj (ix2 r jj) = xj (ix2 jj 1) - xi (ix2 r 1) := by
  unfold relY k0_pay8
  rw [subf_apply]
  congr 1
  · exact rowOf_apply 1 xj _ _ _ _ 1 rfl r jj
  · exact colOf_apply 1 xi _ _ _ _ 1 rfl r jj

theorem relVX_apply (vi vj : Vec Ideal S128x2 .f32) (r jj : Fin 128) :
    relVX vi vj (ix2 r jj) = vj (ix2 jj 0) - vi (ix2 r 0) := by
  unfold relVX k0_pay9 k0_pay5 k0_pay6
  rw [subf_apply, shapeCast_self, shapeCast_self]
  congr 1
  · exact rowOf_apply 0 vj _ _ _ _ 0 rfl r jj
  · exact colOf_apply 0 vi _ _ _ _ 0 rfl r jj

theorem relVY_apply (vi vj : Vec Ideal S128x2 .f32) (r jj : Fin 128) :
    relVY vi vj (ix2 r jj) = vj (ix2 jj 1) - vi (ix2 r 1) := by
  unfold relVY k0_pay10 k0_pay5 k0_pay6
  rw [subf_apply, shapeCast_self, shapeCast_self]
  congr 1
  · exact rowOf_apply 1 vj _ _ _ _ 1 rfl r jj
  · exact colOf_apply 1 vi _ _ _ _ 1 rfl r jj

/-! ## Words: the 0/1 conversions, the clamp, the pedestrian numbers -/

/-- A compared pair as a float: 1 where the words are equal, 0 elsewhere. -/
theorem oneHot_word (x y : BitVec 32) :
    (FloatOps.sitofp .f32 (BitVec.setWidth 32 (IntOp.cmpi .eq x y)) : Ideal .f32) = if x = y then 1 else 0 := by
  show (((BitVec.setWidth 32 (BitVec.ofBool (x == y))).toInt : ℝ) : EReal) = _
  by_cases h : x = y
  · have hb : (x == y) = true := by simp [h]
    have e : (BitVec.setWidth 32 (BitVec.ofBool true)).toInt = 1 := by decide
    rw [hb, e, if_pos h]; simp
  · have hb : (x == y) = false := by simp [h]
    have e : (BitVec.setWidth 32 (BitVec.ofBool false)).toInt = 0 := by decide
    rw [hb, e, if_neg h]; simp

/-- The conjunction of five conditions, the last negated, as a float. -/
theorem valid_word (b1 b2 b3 b4 b5 : Bool) :
    (FloatOps.sitofp .f32 (BitVec.setWidth 32 (IntOp.andi (IntOp.andi (IntOp.andi (IntOp.andi (BitVec.ofBool b1) (BitVec.ofBool b2))
        (BitVec.ofBool b3)) (BitVec.ofBool b4)) (IntOp.xori (BitVec.ofBool b5) 1#1))) : Ideal .f32)
      = if (b1 = true ∧ b2 = true) ∧ (b3 = true ∧ b4 = true) ∧ b5 = false then 1 else 0 := by
  show (((BitVec.setWidth 32 (BitVec.ofBool b1 &&& BitVec.ofBool b2 &&& BitVec.ofBool b3 &&& BitVec.ofBool b4
      &&& (BitVec.ofBool b5 ^^^ 1#1))).toInt : ℝ) : EReal) = _
  cases b1 <;> cases b2 <;> cases b3 <;> cases b4 <;> cases b5 <;> simp

/-- Inside the grid the clamp to 0..15 does nothing. -/
theorem clamp_of_inGrid {c : BitVec 32} (h : inGrid c) : IntOp.minsi 15#32 (IntOp.maxsi 0#32 c) = c := by
  obtain ⟨h0, h1⟩ := h
  simp only [BitVec.sle, BitVec.slt, decide_eq_true_eq] at h0 h1
  have e0 : (0#32).toInt = 0 := by decide
  have e16 : (16#32).toInt = 16 := by decide
  have e15 : (15#32).toInt = 15 := by decide
  rw [e0] at h0; rw [e16] at h1
  unfold IntOp.maxsi
  rw [if_neg (by simp only [BitVec.slt, decide_eq_true_eq, e0]; omega)]
  unfold IntOp.minsi
  rw [if_neg (by simp only [BitVec.slt, decide_eq_true_eq, e15]; omega)]

/-- A block number times 128 plus a row, as a word. -/
theorem pedWord (n r : ℕ) :
    IntOp.addi (Scalar.muli (BitVec.ofNat 32 n) 128#32) (BitVec.ofNat 32 r) = BitVec.ofNat 32 (n * 128 + r) := by
  show BitVec.ofNat 32 n * BitVec.ofNat 32 128 + BitVec.ofNat 32 r = _
  rw [BitVec.ofNat_add, BitVec.ofNat_mul]

/-- Small naturals are equal when their words are. -/
theorem ofNat32_eq_iff (m n : ℕ) (hm : m < 4294967296) (hn : n < 4294967296) :
    BitVec.ofNat 32 m = BitVec.ofNat 32 n ↔ m = n := by
  constructor
  · intro h
    have := congrArg BitVec.toNat h
    simp only [BitVec.toNat_ofNat] at this
    omega
  · rintro rfl; rfl

/-! ## The cell coordinates of a pair -/

theorem inv_cell : Named.named (F := Ideal) κ "inv_cell" (φ := .f32) 0x3FD55555#32 = invCell :=
  IdealRules.named_const.ideal_named_scalar _ _ _ _ rfl

theorem cellX_apply (xi xj : Vec Ideal S128x2 .f32) (r jj : Fin 128) :
    k0_pay12 (relX xi xj) (k0_pay11 (F := Ideal)) (ix2 r jj) = cellOf (xi (ix2 r 0)) (xj (ix2 jj 0)) := by
  show Ideal.fptosi 32 (Ideal.liftRound Int.floor (relX xi xj (ix2 r jj)
    * Named.named (F := Ideal) κ "inv_cell" (φ := .f32) 0x3FD55555#32 + Ideal.ofBits .f32 0x41000000#32)) = _
  rw [relX_apply, inv_cell]; rfl

theorem cellY_apply (xi xj : Vec Ideal S128x2 .f32) (r jj : Fin 128) :
    k0_pay13 (relY xi xj) (ix2 r jj) = cellOf (xi (ix2 r 1)) (xj (ix2 jj 1)) := by
  show Ideal.fptosi 32 (Ideal.liftRound Int.floor (relY xi xj (ix2 r jj)
    * Named.named (F := Ideal) κ "inv_cell" (φ := .f32) 0x3FD55555#32 + Ideal.ofBits .f32 0x41000000#32)) = _
  rw [relY_apply, inv_cell]; rfl

/-! ## The validity of a pair, and the one-hot rows -/

theorem validF_apply (i : grid0.Coords) (xi xj : Vec Ideal S128x2 .f32) (r jj : Fin 128) :
    validF i xi xj (ix2 r jj)
      = if inGrid (cellOf (xi (ix2 r 0)) (xj (ix2 jj 0))) ∧ inGrid (cellOf (xi (ix2 r 1)) (xj (ix2 jj 1)))
          ∧ ¬ ((i 0).val * 128 + r.val = (i 1).val * 128 + jj.val) then 1 else 0 := by
  have h0 : (i 0).val < 32 := (i 0).isLt
  have h1 : (i 1).val < 32 := (i 1).isLt
  have hr := r.isLt
  have hj := jj.isLt
  show (FloatOps.sitofp .f32 (BitVec.setWidth 32 (IntOp.andi (IntOp.andi (IntOp.andi (IntOp.andi
      (BitVec.ofBool ((0#32).sle (k0_pay12 (relX xi xj) (k0_pay11 (F := Ideal)) (ix2 r jj))))
      (BitVec.ofBool ((k0_pay12 (relX xi xj) (k0_pay11 (F := Ideal)) (ix2 r jj)).slt 16#32)))
      (BitVec.ofBool ((0#32).sle (k0_pay13 (relY xi xj) (ix2 r jj)))))
      (BitVec.ofBool ((k0_pay13 (relY xi xj) (ix2 r jj)).slt 16#32)))
      (IntOp.xori (BitVec.ofBool
        (IntOp.addi (Scalar.muli (BitVec.ofNat 32 (i 0).val) 128#32) (iota .tc S128x128 32 [0] iota_S128x128_d0_w32 (ix2 r jj))
          == IntOp.addi (Scalar.muli (BitVec.ofNat 32 (i 1).val) 128#32) (iota .tc S128x128 32 [1] iota_S128x128_d1_w32 (ix2 r jj))))
        1#1))) : Ideal .f32) = _
  rw [valid_word, cellX_apply, cellY_apply, iota_single_apply, iota_single_apply]
  show (if ((0#32).sle (cellOf (xi (ix2 r 0)) (xj (ix2 jj 0))) = true ∧ (cellOf (xi (ix2 r 0)) (xj (ix2 jj 0))).slt 16#32 = true)
      ∧ ((0#32).sle (cellOf (xi (ix2 r 1)) (xj (ix2 jj 1))) = true ∧ (cellOf (xi (ix2 r 1)) (xj (ix2 jj 1))).slt 16#32 = true)
      ∧ (IntOp.addi (Scalar.muli (BitVec.ofNat 32 (i 0).val) 128#32) (BitVec.ofNat 32 r.val)
          == IntOp.addi (Scalar.muli (BitVec.ofNat 32 (i 1).val) 128#32) (BitVec.ofNat 32 jj.val)) = false then (1 : EReal) else 0) = _
  refine if_congr (and_congr Iff.rfl (and_congr Iff.rfl ?_)) rfl rfl
  rw [pedWord, pedWord, beq_eq_false_iff_ne, ne_eq, ofNat32_eq_iff _ _ (by omega) (by omega)]

theorem rowIota_apply (r : Fin 128) (a : Fin 16) (jj : Fin 128) : rowIota (ix3 r a jj) = BitVec.ofNat 32 a.val := by
  unfold rowIota
  rw [iota_single_apply]

theorem cellYc_apply (xi xj : Vec Ideal S128x2 .f32) (r jj : Fin 128) :
    cellYc xi xj (ix2 r jj) = IntOp.minsi 15#32 (IntOp.maxsi 0#32 (cellOf (xi (ix2 r 1)) (xj (ix2 jj 1)))) := by
  show IntOp.minsi 15#32 (IntOp.maxsi 0#32 (k0_pay13 (relY xi xj) (ix2 r jj))) = _
  rw [cellY_apply]

theorem cellXb_apply (xi xj : Vec Ideal S128x2 .f32) (r : Fin 128) (a : Fin 16) (jj : Fin 128) :
    cellXb xi xj (ix3 r a jj) = IntOp.minsi 15#32 (IntOp.maxsi 0#32 (cellOf (xi (ix2 r 0)) (xj (ix2 jj 0)))) := by
  unfold cellXb k0_pay16
  rw [spread_apply]
  show IntOp.minsi 15#32 (IntOp.maxsi 0#32 (k0_pay12 (relX xi xj) (k0_pay11 (F := Ideal)) (ix2 r jj))) = _
  rw [cellX_apply]

/-- The x one-hot times the validity, over variables. -/
theorem pay17_apply (v80 : FVec Ideal S128x128 .f32) (v89 v91 : IVec S128x16x128 32) (r : Fin 128) (a : Fin 16) (jj : Fin 128) :
    k0_pay17 v80 v89 v91 (ix3 r a jj) = (if v89 (ix3 r a jj) = v91 (ix3 r a jj) then 1 else 0) * v80 (ix2 r jj) := by
  unfold k0_pay17
  rw [mulf_apply, spread_apply]
  congr 1
  exact oneHot_word _ _

/-- The y one-hot, over variables. -/
theorem pay18_apply (v88 : IVec S128x128 32) (v89 : IVec S128x16x128 32) (r : Fin 128) (b : Fin 16) (jj : Fin 128) :
    k0_pay18 (F := Ideal) v88 v89 (ix3 r b jj) = if v89 (ix3 r b jj) = v88 (ix2 r jj) then 1 else 0 := by
  unfold k0_pay18
  refine (oneHot_word _ _).trans ?_
  rw [spread_apply]

/-! ## One pair's contribution -/

/-- The product of the two one-hots, the validity and a value is the value on a hit and zero elsewhere: on a valid
    pair the clamp is the identity, on an invalid one the validity factor is zero. -/
theorem term_eq (xi yi xj yj : EReal) (self : Prop) [Decidable self] (a b : Fin 16) (v : EReal) :
    ((if BitVec.ofNat 32 a.val = IntOp.minsi 15#32 (IntOp.maxsi 0#32 (cellOf xi xj)) then (1 : EReal) else 0)
        * (if inGrid (cellOf xi xj) ∧ inGrid (cellOf yi yj) ∧ ¬ self then 1 else 0))
      * ((if BitVec.ofNat 32 b.val = IntOp.minsi 15#32 (IntOp.maxsi 0#32 (cellOf yi yj)) then 1 else 0) * v)
      = if hitOf xi yi xj yj self a b then v else 0 := by
  by_cases hV : inGrid (cellOf xi xj) ∧ inGrid (cellOf yi yj) ∧ ¬ self
  · obtain ⟨hx, hy, hs⟩ := id hV
    rw [clamp_of_inGrid hx, clamp_of_inGrid hy, if_pos hV, mul_one]
    by_cases ha : BitVec.ofNat 32 a.val = cellOf xi xj
    · by_cases hb : BitVec.ofNat 32 b.val = cellOf yi yj
      · rw [if_pos ha, if_pos hb, if_pos (show hitOf xi yi xj yj self a b from ⟨hx, hy, hs, ha.symm, hb.symm⟩), one_mul, one_mul]
      · rw [if_pos ha, if_neg hb, if_neg (fun h : hitOf xi yi xj yj self a b => hb h.2.2.2.2.symm), zero_mul, mul_zero]
    · rw [if_neg ha, if_neg (fun h : hitOf xi yi xj yj self a b => ha h.2.2.2.1.symm), zero_mul]
  · rw [if_neg hV, mul_zero, zero_mul, if_neg (fun h : hitOf xi yi xj yj self a b => hV ⟨h.1, h.2.1, h.2.2.1⟩)]

/-! ## The three accumulations, over variables -/

theorem pay19_apply (v35 v80 : FVec Ideal S128x128 .f32) (v88 : IVec S128x128 32) (v89 v91 : IVec S128x16x128 32)
    (s : Vec Ideal S128x16x16 .f32) (r : Fin 128) (a b : Fin 16) :
    k0_pay19 v35 v80 v88 v89 v91 s (ix3 r a b) = s (ix3 r a b) + ∑ jj : Fin 128,
      k0_pay17 v80 v89 v91 (ix3 r a jj) * (k0_pay18 (F := Ideal) v88 v89 (ix3 r b jj) * v35 (ix2 r jj)) := by
  unfold k0_pay19
  rw [shapeCast_self, addf_apply]
  congr 1
  refine (mm_apply _ _ r a b).trans ?_
  refine Finset.sum_congr rfl fun jj _ => ?_
  rw [mulf_apply, spread_apply]

theorem pay20_apply (v44 v80 : FVec Ideal S128x128 .f32) (v88 : IVec S128x128 32) (v89 v91 : IVec S128x16x128 32)
    (s : Vec Ideal S128x16x16 .f32) (r : Fin 128) (a b : Fin 16) :
    k0_pay20 v44 v80 v88 v89 v91 s (ix3 r a b) = s (ix3 r a b) + ∑ jj : Fin 128,
      k0_pay17 v80 v89 v91 (ix3 r a jj) * (k0_pay18 (F := Ideal) v88 v89 (ix3 r b jj) * v44 (ix2 r jj)) := by
  unfold k0_pay20
  rw [shapeCast_self, addf_apply]
  congr 1
  refine (mm_apply _ _ r a b).trans ?_
  refine Finset.sum_congr rfl fun jj _ => ?_
  rw [mulf_apply, spread_apply]

theorem pay21_apply (v80 : FVec Ideal S128x128 .f32) (v88 : IVec S128x128 32) (v89 v91 : IVec S128x16x128 32)
    (s : Vec Ideal S128x16x16 .f32) (r : Fin 128) (a b : Fin 16) :
    k0_pay21 v80 v88 v89 v91 s (ix3 r a b) = s (ix3 r a b) + ∑ jj : Fin 128,
      k0_pay17 v80 v89 v91 (ix3 r a jj) * k0_pay18 (F := Ideal) v88 v89 (ix3 r b jj) := by
  unfold k0_pay21
  rw [shapeCast_self, addf_apply]
  congr 1
  exact mm_apply _ _ r a b

/-! ## One accumulation step, index by index -/

theorem stepVX_apply (i : grid0.Coords) (xi vi xj vj : Vec Ideal S128x2 .f32) (s : Vec Ideal S128x16x16 .f32)
    (r : Fin 128) (a b : Fin 16) :
    stepVX i xi vi xj vj s (ix3 r a b) = s (ix3 r a b) + ∑ jj : Fin 128,
      if hitOf (xi (ix2 r 0)) (xi (ix2 r 1)) (xj (ix2 jj 0)) (xj (ix2 jj 1)) ((i 0).val * 128 + r.val = (i 1).val * 128 + jj.val) a b
      then vj (ix2 jj 0) - vi (ix2 r 0) else 0 := by
  unfold stepVX
  rw [pay19_apply]
  congr 1
  refine Finset.sum_congr rfl fun jj _ => ?_
  rw [pay17_apply, pay18_apply, rowIota_apply, rowIota_apply, cellXb_apply, cellYc_apply, validF_apply, relVX_apply]
  exact term_eq _ _ _ _ _ a b _

theorem stepVY_apply (i : grid0.Coords) (xi vi xj vj : Vec Ideal S128x2 .f32) (s : Vec Ideal S128x16x16 .f32)
    (r : Fin 128) (a b : Fin 16) :
    stepVY i xi vi xj vj s (ix3 r a b) = s (ix3 r a b) + ∑ jj : Fin 128,
      if hitOf (xi (ix2 r 0)) (xi (ix2 r 1)) (xj (ix2 jj 0)) (xj (ix2 jj 1)) ((i 0).val * 128 + r.val = (i 1).val * 128 + jj.val) a b
      then vj (ix2 jj 1) - vi (ix2 r 1) else 0 := by
  unfold stepVY
  rw [pay20_apply]
  congr 1
  refine Finset.sum_congr rfl fun jj _ => ?_
  rw [pay17_apply, pay18_apply, rowIota_apply, rowIota_apply, cellXb_apply, cellYc_apply, validF_apply, relVY_apply]
  exact term_eq _ _ _ _ _ a b _

theorem stepCnt_apply (i : grid0.Coords) (xi xj : Vec Ideal S128x2 .f32) (s : Vec Ideal S128x16x16 .f32)
    (r : Fin 128) (a b : Fin 16) :
    stepCnt i xi xj s (ix3 r a b) = s (ix3 r a b) + ∑ jj : Fin 128,
      if hitOf (xi (ix2 r 0)) (xi (ix2 r 1)) (xj (ix2 jj 0)) (xj (ix2 jj 1)) ((i 0).val * 128 + r.val = (i 1).val * 128 + jj.val) a b
      then 1 else 0 := by
  unfold stepCnt
  rw [pay21_apply]
  congr 1
  refine Finset.sum_congr rfl fun jj _ => ?_
  rw [pay17_apply, pay18_apply, rowIota_apply, rowIota_apply, cellXb_apply, cellYc_apply, validF_apply]
  rw [← mul_one (if BitVec.ofNat 32 b.val = _ then (1 : EReal) else 0)]
  exact term_eq _ _ _ _ _ a b 1

/-! ## The reset and the normalised output -/

theorem accZero_apply (x : S128x16x16.Idx) :
    (accZero (F := Ideal)).1 x = 0 ∧ (accZero (F := Ideal)).2.1 x = 0 ∧ (accZero (F := Ideal)).2.2 x = 0 := by
  refine ⟨?_, ?_, ?_⟩
  · show k0_pay2 (F := Ideal) x = 0
    unfold k0_pay2
    rw [shapeCast_self]
    exact Ideal.ofBits_zero_f32
  · show k0_pay3 (F := Ideal) x = 0
    unfold k0_pay3
    rw [shapeCast_self]
    exact Ideal.ofBits_zero_f32
  · show k0_pay4 (F := Ideal) x = 0
    unfold k0_pay4
    rw [shapeCast_self]
    exact Ideal.ofBits_zero_f32

section Out
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The 16 × 16 cells of a row flattened to 256: position `k` is cell `(k / 16, k % 16)`. -/
theorem flat16_apply (x : S128x16x16.Idx → α) (h : S128x16x16.ShapeCasts S128x256) (r : Fin 128) (k : Fin 256) :
    shapeCast S128x256 x h (ix2 r k) = x (ix3 r (hi16 k) (lo16 k)) :=
  shapeCast_apply x h _ _ (by
    rw [Shape.rowMajor_val_three, Shape.rowMajor_val_two]
    show (r.val * 16 + k.val / 16) * 16 + k.val % 16 = r.val * 256 + k.val
    omega)

end Out

theorem outOf_apply (s : Acc Ideal) (r : Fin 128) (k : Fin 256) (d : Fin 2) :
    outOf s (ix3 r k d) = Ideal.div ((if d = 0 then s.1 else s.2.1) (ix3 r (hi16 k) (lo16 k)))
      (max (s.2.2 (ix3 r (hi16 k) (lo16 k))) (Ideal.ofBits .f32 0x3F800000#32)) := by
  unfold outOf k0_pay1
  by_cases hd : d = 0
  · subst hd
    rw [if_pos rfl]
    refine (concatenate_pair_apply_left (s₁ := S128x256x1) (s₂ := S128x256x1) (t := S128x256x2) _ _ _ _ (ix3 r k (0 : Fin 2)) (by rfl) (ix3 r k (0 : Fin 1)) (fun b => by
      match b with
      | ⟨0, _⟩ => rfl
      | ⟨1, _⟩ => rfl
      | ⟨2, _⟩ => rfl)).trans ?_
    rw [shapeCast_ab_ab1_apply, flat16_apply, divf_apply, maximumf_apply]
    rfl
  · have hd1 : d = 1 := Fin.ext (by
      have := d.isLt
      have : d.val ≠ 0 := fun h => hd (Fin.ext h)
      show d.val = 1
      omega)
    subst hd1
    rw [if_neg hd]
    refine (concatenate_pair_apply_right (s₁ := S128x256x1) (s₂ := S128x256x1) (t := S128x256x2) _ _ _ _ (ix3 r k (1 : Fin 2)) (by rfl) (by rfl) (ix3 r k (0 : Fin 1)) (fun b hb => by
      match b with
      | ⟨0, _⟩ => rfl
      | ⟨1, _⟩ => rfl
      | ⟨2, _⟩ => exact absurd rfl hb) rfl).trans ?_
    rw [shapeCast_ab_ab1_apply, flat16_apply, divf_apply, maximumf_apply]
    rfl

end Cert.KernelIdeal.Hand

end
-- ==== Proof.KI.BinValue.lean ====
/-
  The value of the binning kernel's output array at the ideal instance: the pooled grid of the specification.
  The grid's point t = 32·i0 + j0 reads rows 128·i0 … 128·i0 + 127 of the positions and velocities as its queries
  and rows 128·j0 … 128·j0 + 127 as its neighbours. By induction on the point, after point t row r of the three
  accumulators holds, per cell (a, b), the sums over the neighbours j < 128·(j0 + 1) that hit the cell of pedestrian
  128·i0 + r: their relative velocities along each axis, and their number. At j0 = 31 these are the sums over all the
  pedestrians, and the block written back is the quotient of the sums by max(number, 1): block i0 of the pooled grid.
  The 32 blocks written back at the points with j0 = 31 cover the output array.
-/
import proofs.«109977_j37271726195508_1_alg».proof.Proof.KI.Step
import proofs.«109977_j37271726195508_1_alg».proof.Proof.KI.BinData
import proofs.«109977_j37271726195508_1_alg».proof.Proof.KI.StepValue
import proofs.«109977_j37271726195508_1_alg».proof.Proof.Spec
import proofs.«109977_j37271726195508_1_alg».proof.Proof.Gen.KernelIdeal.Points
import proofs.«109977_j37271726195508_1_alg».proof.Proof.Gen.KernelIdeal.Launch
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Cert.KernelIdeal Cert.KernelIdeal.Gen
open Cert.Spec Idealize.ShloMosaic.ValueIdx
open scoped BigOperators

variable (V : (c : Dev nD) → (b : Ref sig .tc) → Buf (Elt Ideal) ((c : Thread nD τ).loc b))

/-! ## The blocks the windows read -/

/-- The windows' block indices over the grid: point t has query block t / 32 and neighbour block t % 32; the output's
    block moves with the query block. -/
theorem idx_facts0 : ∀ t : Fin cfg0.N,
    win0_0.index t (0 : Fin 2) = t.val / 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ win0_4.index t (0 : Fin 3) = t.val / 32 ∧ win0_4.index t (1 : Fin 3) = 0 ∧ win0_4.index t (2 : Fin 3) = 0
    ∧ ((grid0.coords t) 0).val = t.val / 32 ∧ ((grid0.coords t) 1).val = t.val % 32 :=
  (by decide +kernel : ∀ t : Fin grid0.N, _)

/-- Row r of the query positions' block at point t is row 128·(t / 32) + r of the positions. -/
theorem qpos_apply (c : Dev nD) (t : Fin cfg0.N) (r : Fin 128) (d : Fin 2) (i : Fin 4096)
    (hi : i.val = 128 * (t.val / 32) + r.val) :
    qpos V c t (ix2 r d) = V c main_arg1 (ix2 i d) := by
  obtain ⟨e0, e1, -⟩ := idx_facts0 t
  show V c main_arg1 (((cfg0.win 0).blk t).view.emb (ix2 r d)) = V c main_arg1 (ix2 i d)
  congr 1
  funext a; apply Fin.ext
  match a with
  | ⟨0, _⟩ => show win0_0.index t (0 : Fin 2) * 128 + 1 * r.val = i.val; omega
  | ⟨1, _⟩ => show win0_0.index t (1 : Fin 2) * 2 + 1 * d.val = d.val; omega

/-- The same of the velocities. -/
theorem qvel_apply (c : Dev nD) (t : Fin cfg0.N) (r : Fin 128) (d : Fin 2) (i : Fin 4096)
    (hi : i.val = 128 * (t.val / 32) + r.val) :
    qvel V c t (ix2 r d) = V c main_v0 (ix2 i d) := by
  obtain ⟨-, -, e0, e1, -⟩ := idx_facts0 t
  show V c main_v0 (((cfg0.win 1).blk t).view.emb (ix2 r d)) = V c main_v0 (ix2 i d)
  congr 1
  funext a; apply Fin.ext
  match a with
  | ⟨0, _⟩ => show win0_1.index t (0 : Fin 2) * 128 + 1 * r.val = i.val; omega
  | ⟨1, _⟩ => show win0_1.index t (1 : Fin 2) * 2 + 1 * d.val = d.val; omega

/-- Row jj of the neighbour positions' block at point t is row 128·(t % 32) + jj of the positions. -/
theorem npos_apply (c : Dev nD) (t : Fin cfg0.N) (jj : Fin 128) (d : Fin 2) (j : Fin 4096)
    (hj : j.val = 128 * (t.val % 32) + jj.val) :
    npos V c t (ix2 jj d) = V c main_arg1 (ix2 j d) := by
  obtain ⟨-, -, -, -, e0, e1, -⟩ := idx_facts0 t
  show V c main_arg1 (((cfg0.win 2).blk t).view.emb (ix2 jj d)) = V c main_arg1 (ix2 j d)
  congr 1
  funext a; apply Fin.ext
  match a with
  | ⟨0, _⟩ => show win0_2.index t (0 : Fin 2) * 128 + 1 * jj.val = j.val; omega
  | ⟨1, _⟩ => show win0_2.index t (1 : Fin 2) * 2 + 1 * d.val = d.val; omega

/-- The same of the velocities. -/
theorem nvel_apply (c : Dev nD) (t : Fin cfg0.N) (jj : Fin 128) (d : Fin 2) (j : Fin 4096)
    (hj : j.val = 128 * (t.val % 32) + jj.val) :
    nvel V c t (ix2 jj d) = V c main_v0 (ix2 j d) := by
  obtain ⟨-, -, -, -, -, -, e0, e1, -⟩ := idx_facts0 t
  show V c main_v0 (((cfg0.win 3).blk t).view.emb (ix2 jj d)) = V c main_v0 (ix2 j d)
  congr 1
  funext a; apply Fin.ext
  match a with
  | ⟨0, _⟩ => show win0_3.index t (0 : Fin 2) * 128 + 1 * jj.val = j.val; omega
  | ⟨1, _⟩ => show win0_3.index t (1 : Fin 2) * 2 + 1 * d.val = d.val; omega

/-! ## Sums over the pedestrians, block by block -/

/-- A function of the 4096 pedestrians, extended by zero to every natural. -/
def ext0 (f : Fin 4096 → EReal) (j : ℕ) : EReal := if h : j < 4096 then f ⟨j, h⟩ else 0

/-- Its sum over the first n blocks of 128 pedestrians. -/
def psum (f : Fin 4096 → EReal) (n : ℕ) : EReal := ∑ j ∈ Finset.range (128 * n), ext0 f j

theorem psum_zero (f : Fin 4096 → EReal) : psum f 0 = 0 := by
  unfold psum; rw [Nat.mul_zero, Finset.range_zero, Finset.sum_empty]

/-- One more block adds that block's 128 terms. -/
theorem psum_succ (f : Fin 4096 → EReal) (n : ℕ) :
    psum f (n + 1) = psum f n + ∑ jj : Fin 128, ext0 f (128 * n + jj.val) := by
  unfold psum
  rw [show 128 * (n + 1) = 128 * n + 128 from by omega, Finset.sum_range_add,
    Fin.sum_univ_eq_sum_range (fun x => ext0 f (128 * n + x)) 128]

/-- All 32 blocks are all the pedestrians. -/
theorem psum_full (f : Fin 4096 → EReal) : psum f 32 = ∑ j : Fin 4096, f j := by
  unfold psum
  rw [show 128 * 32 = 4096 from rfl, ← Fin.sum_univ_eq_sum_range (fun x => ext0 f x) 4096]
  refine Finset.sum_congr rfl fun j _ => ?_
  unfold ext0; rw [dif_pos j.isLt]

/-- Neighbour j's contribution to cell (a, b) of pedestrian i along axis d. -/
def termV (P Vl : S4096x2.Idx → EReal) (i : Fin 4096) (a b : Fin 16) (d : Fin 2) (j : Fin 4096) : EReal :=
  if hit P i j a b then Vl (ix2 j d) - Vl (ix2 i d) else 0
/-- Neighbour j's contribution to the count of cell (a, b) of pedestrian i. -/
def termC (P : S4096x2.Idx → EReal) (i : Fin 4096) (a b : Fin 16) (j : Fin 4096) : EReal :=
  if hit P i j a b then 1 else 0

theorem num_eq (P Vl : S4096x2.Idx → EReal) (i : Fin 4096) (a b : Fin 16) (d : Fin 2) :
    num P Vl i a b d = ∑ j : Fin 4096, termV P Vl i a b d j := rfl
theorem cnt_eq (P : S4096x2.Idx → EReal) (i : Fin 4096) (a b : Fin 16) :
    cnt P i a b = ∑ j : Fin 4096, termC P i a b j := rfl

/-- Whether a pair hits a cell depends on "the two are one pedestrian" only up to equivalence. -/
theorem hitOf_congr (xi yi xj yj : EReal) {s s' : Prop} (h : s ↔ s') (a b : Fin 16) :
    hitOf xi yi xj yj s a b ↔ hitOf xi yi xj yj s' a b := by
  unfold hitOf; rw [h]

/-! ## One point's update, in the arrays' terms -/

section StepBlock
variable (g : grid0.Coords) (xi vi xj vj : Vec Ideal S128x2 .f32) (s : Vec Ideal S128x16x16 .f32) (r : Fin 128) (a b : Fin 16)
variable (P Vl : S4096x2.Idx → EReal) (i0 j0 : ℕ) (hj0 : j0 < 32) (hg0 : (g 0).val = i0) (hg1 : (g 1).val = j0)
variable (i : Fin 4096) (hi : i.val = 128 * i0 + r.val)
variable (hxi : ∀ d, xi (ix2 r d) = P (ix2 i d)) (hvi : ∀ d, vi (ix2 r d) = Vl (ix2 i d))
variable (hxj : ∀ (jj : Fin 128) (j : Fin 4096), j.val = 128 * j0 + jj.val → ∀ d, xj (ix2 jj d) = P (ix2 j d))
variable (hvj : ∀ (jj : Fin 128) (j : Fin 4096), j.val = 128 * j0 + jj.val → ∀ d, vj (ix2 jj d) = Vl (ix2 j d))

include hj0 hg0 hg1 hi hxi hvi hxj hvj in
theorem stepVX_block : stepVX g xi vi xj vj s (ix3 r a b)
    = s (ix3 r a b) + ∑ jj : Fin 128, ext0 (termV P Vl i a b 0) (128 * j0 + jj.val) := by
  rw [stepVX_apply]
  congr 1
  refine Finset.sum_congr rfl fun jj _ => ?_
  have hlt : 128 * j0 + jj.val < 4096 := by have := jj.isLt; omega
  unfold ext0; rw [dif_pos hlt]
  unfold termV hit
  rw [hxi 0, hxi 1, hxj jj ⟨_, hlt⟩ rfl 0, hxj jj ⟨_, hlt⟩ rfl 1, hvj jj ⟨_, hlt⟩ rfl 0, hvi 0]
  refine if_congr (hitOf_congr _ _ _ _ ?_ a b) rfl rfl
  rw [Fin.ext_iff]; show _ ↔ i.val = 128 * j0 + jj.val; omega

include hj0 hg0 hg1 hi hxi hvi hxj hvj in
theorem stepVY_block : stepVY g xi vi xj vj s (ix3 r a b)
    = s (ix3 r a b) + ∑ jj : Fin 128, ext0 (termV P Vl i a b 1) (128 * j0 + jj.val) := by
  rw [stepVY_apply]
  congr 1
  refine Finset.sum_congr rfl fun jj _ => ?_
  have hlt : 128 * j0 + jj.val < 4096 := by have := jj.isLt; omega
  unfold ext0; rw [dif_pos hlt]
  unfold termV hit
  rw [hxi 0, hxi 1, hxj jj ⟨_, hlt⟩ rfl 0, hxj jj ⟨_, hlt⟩ rfl 1, hvj jj ⟨_, hlt⟩ rfl 1, hvi 1]
  refine if_congr (hitOf_congr _ _ _ _ ?_ a b) rfl rfl
  rw [Fin.ext_iff]; show _ ↔ i.val = 128 * j0 + jj.val; omega

include hj0 hg0 hg1 hi hxi hxj in
theorem stepCnt_block : stepCnt g xi xj s (ix3 r a b)
    = s (ix3 r a b) + ∑ jj : Fin 128, ext0 (termC P i a b) (128 * j0 + jj.val) := by
  rw [stepCnt_apply]
  congr 1
  refine Finset.sum_congr rfl fun jj _ => ?_
  have hlt : 128 * j0 + jj.val < 4096 := by have := jj.isLt; omega
  unfold ext0; rw [dif_pos hlt]
  unfold termC hit
  rw [hxi 0, hxi 1, hxj jj ⟨_, hlt⟩ rfl 0, hxj jj ⟨_, hlt⟩ rfl 1]
  refine if_congr (hitOf_congr _ _ _ _ ?_ a b) rfl rfl
  rw [Fin.ext_iff]; show _ ↔ i.val = 128 * j0 + jj.val; omega

end StepBlock

/-! ## The accumulators after each point -/

/-- After point n = 32·i0 + j0 the accumulators' rows hold, per cell, the sums over the neighbours of blocks 0 … j0. -/
theorem acc_inv (c : Dev nD) : ∀ (n : ℕ) (h : n < cfg0.N) (r : Fin 128) (a b : Fin 16) (i : Fin 4096),
    i.val = 128 * (n / 32) + r.val →
    (accAt V c n h).1 (ix3 r a b) = psum (termV (V c main_arg1) (V c main_v0) i a b 0) (n % 32 + 1)
    ∧ (accAt V c n h).2.1 (ix3 r a b) = psum (termV (V c main_arg1) (V c main_v0) i a b 1) (n % 32 + 1)
    ∧ (accAt V c n h).2.2 (ix3 r a b) = psum (termC (V c main_arg1) i a b) (n % 32 + 1) := by
  intro n
  induction n using Nat.strong_induction_on with
  | _ n ih =>
    intro h r a b i hi
    have hN : cfg0.N = 1024 := N_0
    obtain ⟨-, -, -, -, -, -, -, -, -, -, -, g0, g1⟩ := idx_facts0 ⟨n, h⟩
    have hj0 : n % 32 < 32 := Nat.mod_lt _ (by decide)
    have hxi := fun d => qpos_apply V c ⟨n, h⟩ r d i hi
    have hvi := fun d => qvel_apply V c ⟨n, h⟩ r d i hi
    have hxj := fun (jj : Fin 128) (j : Fin 4096) (hj : j.val = 128 * (n % 32) + jj.val) d => npos_apply V c ⟨n, h⟩ jj d j hj
    have hvj := fun (jj : Fin 128) (j : Fin 4096) (hj : j.val = 128 * (n % 32) + jj.val) d => nvel_apply V c ⟨n, h⟩ jj d j hj
    have key : ∀ s : Acc Ideal,
        (stepAt V c ⟨n, h⟩ s).1 (ix3 r a b) = s.1 (ix3 r a b) + ∑ jj : Fin 128, ext0 (termV (V c main_arg1) (V c main_v0) i a b 0) (128 * (n % 32) + jj.val)
        ∧ (stepAt V c ⟨n, h⟩ s).2.1 (ix3 r a b) = s.2.1 (ix3 r a b) + ∑ jj : Fin 128, ext0 (termV (V c main_arg1) (V c main_v0) i a b 1) (128 * (n % 32) + jj.val)
        ∧ (stepAt V c ⟨n, h⟩ s).2.2 (ix3 r a b) = s.2.2 (ix3 r a b) + ∑ jj : Fin 128, ext0 (termC (V c main_arg1) i a b) (128 * (n % 32) + jj.val) :=
      fun s => ⟨stepVX_block _ _ _ _ _ _ r a b _ _ (n / 32) (n % 32) hj0 g0 g1 i hi hxi hvi hxj hvj,
        stepVY_block _ _ _ _ _ _ r a b _ _ (n / 32) (n % 32) hj0 g0 g1 i hi hxi hvi hxj hvj,
        stepCnt_block _ _ _ _ r a b _ (n / 32) (n % 32) hj0 g0 g1 i hi hxi hxj⟩
    by_cases hm : n % 32 = 0
    · have e : accAt V c n h = stepAt V c ⟨n, h⟩ accZero := accAt_first V c ⟨n, h⟩ hm
      obtain ⟨k1, k2, k3⟩ := key accZero
      obtain ⟨z1, z2, z3⟩ := accZero_apply (ix3 r a b)
      rw [e, k1, k2, k3, z1, z2, z3, hm, psum_succ, psum_succ, psum_succ, psum_zero, psum_zero, psum_zero]
      exact ⟨rfl, rfl, rfl⟩
    · have e : accAt V c n h = stepAt V c ⟨n, h⟩ (accAt V c (n - 1) (Nat.lt_of_le_of_lt (Nat.sub_le _ _) h)) :=
        accAt_next V c ⟨n, h⟩ hm
      obtain ⟨k1, k2, k3⟩ := key (accAt V c (n - 1) (Nat.lt_of_le_of_lt (Nat.sub_le _ _) h))
      obtain ⟨p1, p2, p3⟩ := ih (n - 1) (by omega) (Nat.lt_of_le_of_lt (Nat.sub_le _ _) h) r a b i (by omega)
      have hs : (n - 1) % 32 + 1 = n % 32 := by omega
      rw [e, k1, k2, k3, p1, p2, p3, hs, psum_succ, psum_succ, psum_succ]
      exact ⟨rfl, rfl, rfl⟩

/-! ## The output array -/

/-- An index of the output array is in point t's block iff each coordinate is in the block's range on its axis. -/
theorem mem_blk4 (t : Fin cfg0.N) (i : S4096x256x2.Idx) :
    i ∈ ((cfg0.win 4).blk t).view.set ↔ ∀ a : Fin 3, win0_4.index t a * S128x256x2.size a ≤ (i a).val
      ∧ (i a).val < win0_4.index t a * S128x256x2.size a + S128x256x2.size a := by
  show i ∈ ((View.whole main_v1).slice (win0_4.rect t)).set ↔ _
  rw [View.set_slice_whole, Rect.mem_set_unit]
  exact Iff.rfl

/-- What a point of neighbour block 31 writes back is its block of the pooled grid. -/
theorem flushed4_eq (c : Dev nD) (t : Fin cfg0.N) (hf : (cfg0.win 4).flush t = true) :
    (dat0 V c).flushed 4 t = ((cfg0.win 4).blk t).view.read (Elt Ideal) (Cert.Spec.grid (V c main_arg1) (V c main_v0)) := by
  have h31 : t.val % 32 = 31 := (flush0_4 t).mp hf
  have hN : cfg0.N = 1024 := N_0
  obtain ⟨-, -, -, -, -, -, -, -, e0, e1, e2, -⟩ := idx_facts0 t
  show (cfg0.win 4).cut (grid0.coords t) ((dat0 V c).after 4 t) = _
  rw [after0_4]
  funext y
  obtain ⟨r, k, d, rfl⟩ : ∃ (r : Fin 128) (k : Fin 256) (d : Fin 2), y = ix3 r k d := ⟨y 0, y 1, y 2, eq_ix3 y⟩
  have hlt : 128 * (t.val / 32) + r.val < 4096 := by have := t.isLt; have := r.isLt; omega
  show outOf (accAt V c t.val t.isLt) (ix3 r k d)
    = grid (V c main_arg1) (V c main_v0) (((cfg0.win 4).blk t).view.emb (ix3 r k d))
  have hemb : ((cfg0.win 4).blk t).view.emb (ix3 r k d) = ix3 (⟨128 * (t.val / 32) + r.val, hlt⟩ : Fin 4096) k d := by
    funext a; apply Fin.ext
    match a with
    | ⟨0, _⟩ => show win0_4.index t (0 : Fin 3) * 128 + 1 * r.val = 128 * (t.val / 32) + r.val; omega
    | ⟨1, _⟩ => show win0_4.index t (1 : Fin 3) * 256 + 1 * k.val = k.val; omega
    | ⟨2, _⟩ => show win0_4.index t (2 : Fin 3) * 2 + 1 * d.val = d.val; omega
  rw [hemb, outOf_apply]
  obtain ⟨p1, p2, p3⟩ := acc_inv V c t.val t.isLt r (hi16 k) (lo16 k) ⟨_, hlt⟩ rfl
  have hs : t.val % 32 + 1 = 32 := by omega
  rw [hs, psum_full] at p1 p2 p3
  show _ = gridAt (V c main_arg1) (V c main_v0) ⟨_, hlt⟩ (hi16 k) (lo16 k) d
  unfold gridAt
  rw [p3, cnt_eq, num_eq]
  by_cases hd : d = 0
  · subst hd; rw [if_pos rfl, p1]
  · have hd1 : d = 1 := by
      apply Fin.ext; have := d.isLt; have : d.val ≠ 0 := fun h => hd (Fin.ext h); show d.val = 1; omega
    subst hd1; rw [if_neg hd, p2]

/-- Every index of the output array is in the block of the last point of its query block's row of the grid. -/
theorem cover4 (i : S4096x256x2.Idx) :
    ∃ t : Fin cfg0.N, (cfg0.win 4).flush t = true ∧ i ∈ ((cfg0.win 4).blk t).view.set := by
  have hN : cfg0.N = 1024 := N_0
  have hi0 : (i 0).val < 4096 := (i 0).isLt
  have hi1 : (i 1).val < 256 := (i 1).isLt
  have hi2 : (i 2).val < 2 := (i 2).isLt
  have hlt : 32 * ((i 0).val / 128) + 31 < cfg0.N := by omega
  obtain ⟨-, -, -, -, -, -, -, -, e0, e1, e2, -⟩ := idx_facts0 ⟨32 * ((i 0).val / 128) + 31, hlt⟩
  have hq : (32 * ((i 0).val / 128) + 31) / 32 = (i 0).val / 128 := by omega
  refine ⟨⟨32 * ((i 0).val / 128) + 31, hlt⟩, (flush0_4 _).mpr (by show (32 * ((i 0).val / 128) + 31) % 32 = 31; omega), ?_⟩
  rw [mem_blk4]
  intro a
  match a with
  | ⟨0, _⟩ =>
    show win0_4.index ⟨32 * ((i 0).val / 128) + 31, hlt⟩ (0 : Fin 3) * 128 ≤ (i 0).val
      ∧ (i 0).val < win0_4.index ⟨32 * ((i 0).val / 128) + 31, hlt⟩ (0 : Fin 3) * 128 + 128
    rw [e0]; show (32 * ((i 0).val / 128) + 31) / 32 * 128 ≤ _ ∧ _ < (32 * ((i 0).val / 128) + 31) / 32 * 128 + 128
    rw [hq]; omega
  | ⟨1, _⟩ =>
    show win0_4.index ⟨32 * ((i 0).val / 128) + 31, hlt⟩ (1 : Fin 3) * 256 ≤ (i 1).val
      ∧ (i 1).val < win0_4.index ⟨32 * ((i 0).val / 128) + 31, hlt⟩ (1 : Fin 3) * 256 + 256
    rw [e1]; omega
  | ⟨2, _⟩ =>
    show win0_4.index ⟨32 * ((i 0).val / 128) + 31, hlt⟩ (2 : Fin 3) * 2 ≤ (i 2).val
      ∧ (i 2).val < win0_4.index ⟨32 * ((i 0).val / 128) + 31, hlt⟩ (2 : Fin 3) * 2 + 2
    rw [e2]; omega

/-- After the region the output array holds the pooled grid of the positions and velocities the region found. -/
theorem bin_value (c : Dev nD) :
    (dat0 (F := Ideal) V c).arrAt 4 cfg0.N = Cert.Spec.grid (V c main_arg1) (V c main_v0) :=
  (dat0 V c).arrAt_eq_of_cover 4 (Cert.Spec.grid (V c main_arg1) (V c main_v0)) (flushed4_eq V c) cover4

end Cert.KernelIdeal.Hand

end
-- ==== Proof.SpecGlue.lean ====
/-
  Small facts joining the specification's pieces to how the two programs spell them: the cell side's pattern as a
  real, the quotient by it as the product with its reciprocal, the flattening of the grid as a reshape, and the
  bias as a one-row matrix.
-/
import proofs.«109977_j37271726195508_1_alg».proof.Proof.Spec
import Idealize.ShloMosaic.PureOps.Ideal.Laws
import Idealize.ShloMosaic.Lib.Pipeline.Value
import Idealize.ShloMosaic.Lib.ValueLayout

noncomputable section

namespace Cert.Spec

open Idealize.ShloMosaic Idealize.ShloMosaic.ValueIdx

/-- The binary32 pattern nearest 0.6 denotes the real 5033165/8388608. -/
theorem ofBits_cellSide : Ideal.ofBits .f32 0x3F19999A#32 = ((5033165 / 8388608 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- Dividing by the cell side is multiplying by its reciprocal, on every extended real. -/
theorem div_cellSide (x : EReal) : Ideal.div x (Ideal.ofBits .f32 0x3F19999A#32) = x * invCell := by
  rw [ofBits_cellSide, Ideal.div_coe (by norm_num : (5033165 / 8388608 : ℝ) ≠ 0)]
  unfold invCell
  norm_num

/-- The grid reshaped to [4096, 512] is the grid flattened: feature f of pedestrian n is entry (n, f / 2, f % 2). -/
theorem flat_of_cast (g : S4096x256x2.Idx → EReal) (h : S4096x256x2.ShapeCasts S4096x512) :
    shapeCast S4096x512 g h = flat g := by
  funext x
  obtain ⟨n, f, rfl⟩ : ∃ (n : Fin 4096) (f : Fin 512), x = ix2 n f := ⟨x 0, x 1, eq_ix2 x⟩
  refine (shapeCast_apply g h (ix2 n f) (ix3 n (hi2 f) (lo2 f)) ?_).trans rfl
  rw [Shape.rowMajor_val_three, Shape.rowMajor_val_two]
  show (n.val * 256 + f.val / 2) * 2 + f.val % 2 = n.val * 512 + f.val
  omega

/-- The bias reshaped to one row: the head over the row is the head over the vector. -/
theorem headRow_of_cast (x : S4096x512.Idx → EReal) (W : S256x512.Idx → EReal) (B : S256.Idx → EReal)
    (h : S256.ShapeCasts S1x256) : headRow x W (shapeCast S1x256 B h) = head x W B := by
  funext y
  unfold headRow head
  have e : shapeCast S1x256 B h (ix2 0 (y 1)) = B (ix1 (y 1)) := by
    refine shapeCast_apply B h _ _ ?_
    rw [Shape.rowMajor_val_one, Shape.rowMajor_val_two]
    show (y 1).val = 0 * 256 + (y 1).val
    omega
  rw [e]

end Cert.Spec

end
-- ==== Proof.LibScatterPair.lean ====
/-
  Reading the two accumulating scatters of the reference at an index, at the ideal instance.

  An accumulating scatter adds to each operand element the updates whose result index is that element. The result
  index of an update is, on every operand axis, the signed start word for that axis plus the window coordinate; the
  update is dropped when that leaves the operand. For the two scatters here the start words are the two index words
  of the update's cell `(i, j)`, on operand axes 0 and 1, and the window coordinate is the update's last coordinate
  (three-axis updates) or absent (two-axis updates). When the first index word of every cell is its own row number,
  only the updates of row `n` land in row `n`, and the sum over all updates collapses to a sum over the cells of
  that row whose second index word is the column asked for.
-/
import proofs.«109977_j37271726195508_1_alg».proof.ReferenceIdeal
import Idealize.ShloMosaic.PureOps.Ideal
import Idealize.ShloMosaic.Lib.ValueIdx

noncomputable section

open scoped BigOperators

namespace Cert.LibScatterPair

open Idealize.ShloMosaic ValueIdx Cert.ReferenceIdeal

/-- An update index lands at the operand index `r` exactly when, on every operand axis, the signed start plus
    the window coordinate is `r`'s coordinate. -/
theorem resultIdx?_eq_some_iff {s si u : Shape} (D : ScatterDims s si u) {w : Nat} (j : u.Idx) (idx : IVec si w)
    (r : s.Idx) :
    D.resultIdx? j idx = some r ↔ ∀ a, D.start j idx a + (D.window j a : Int) = ((r a).val : Int) := by
  unfold ScatterDims.resultIdx?
  split_ifs with h
  · rw [Option.some.injEq]
    constructor
    · intro hf a
      have h1 := congrArg (fun f => (f a).val) hf
      simp only at h1
      have h2 := h a
      omega
    · intro hr
      funext a
      apply Fin.ext
      have h1 := hr a
      show (D.start j idx a + ↑(D.window j a)).toNat = (r a).val
      omega
  · constructor
    · intro hf; exact absurd hf (by simp)
    · intro hr
      exfalso; apply h; intro a
      have h1 := hr a
      have h2 := (r a).isLt
      omega

variable [Facts₀]

/-- On operand axis 0 the start of update `(i, j, d)` is its cell's first index word, read signed. -/
theorem start_vals_0 (idx : IVec S4096x4096x2 32) (i j : Fin 4096) (d : Fin 2) :
    scatter_S4096x256x2_S4096x4096x2_S4096x4096x2_2_01_01_2.start (ix3 i j d) idx ⟨0, by decide⟩
      = (idx (ix3 i j 0)).toInt := by
  have hm : (⟨0, by decide⟩ : Fin S4096x256x2.rank) ∈
      scatter_S4096x256x2_S4096x4096x2_S4096x4096x2_2_01_01_2.scatterDimsToOperandDims := by
    show _ ∈ [(0 : Fin 3), 1]; decide
  unfold ScatterDims.start
  rw [dif_pos hm]
  congr 2
  funext b; refine Fin.ext ?_
  match b with
  | ⟨0, _⟩ => rfl
  | ⟨1, _⟩ => rfl
  | ⟨2, _⟩ => rfl

/-- On operand axis 1 the start of update `(i, j, d)` is its cell's second index word, read signed. -/
theorem start_vals_1 (idx : IVec S4096x4096x2 32) (i j : Fin 4096) (d : Fin 2) :
    scatter_S4096x256x2_S4096x4096x2_S4096x4096x2_2_01_01_2.start (ix3 i j d) idx ⟨1, by decide⟩
      = (idx (ix3 i j 1)).toInt := by
  have hm : (⟨1, by decide⟩ : Fin S4096x256x2.rank) ∈
      scatter_S4096x256x2_S4096x4096x2_S4096x4096x2_2_01_01_2.scatterDimsToOperandDims := by
    show _ ∈ [(0 : Fin 3), 1]; decide
  unfold ScatterDims.start
  rw [dif_pos hm]
  congr 2
  funext b; refine Fin.ext ?_
  match b with
  | ⟨0, _⟩ => rfl
  | ⟨1, _⟩ => rfl
  | ⟨2, _⟩ => rfl

/-- On operand axis 2, which the index map does not name, the start is `0`. -/
theorem start_vals_2 (idx : IVec S4096x4096x2 32) (i j : Fin 4096) (d : Fin 2) :
    scatter_S4096x256x2_S4096x4096x2_S4096x4096x2_2_01_01_2.start (ix3 i j d) idx ⟨2, by decide⟩ = 0 := by
  have hm : ¬ (⟨2, by decide⟩ : Fin S4096x256x2.rank) ∈
      scatter_S4096x256x2_S4096x4096x2_S4096x4096x2_2_01_01_2.scatterDimsToOperandDims := by
    show ¬ _ ∈ [(0 : Fin 3), 1]; decide
  unfold ScatterDims.start
  rw [dif_neg hm]

/-- Operand axis 0 is an inserted axis: the window coordinate there is `0`. -/
theorem window_vals_0 (i j : Fin 4096) (d : Fin 2) :
    scatter_S4096x256x2_S4096x4096x2_S4096x4096x2_2_01_01_2.window (ix3 i j d) ⟨0, by decide⟩ = 0 := rfl
/-- Operand axis 1 is an inserted axis: the window coordinate there is `0`. -/
theorem window_vals_1 (i j : Fin 4096) (d : Fin 2) :
    scatter_S4096x256x2_S4096x4096x2_S4096x4096x2_2_01_01_2.window (ix3 i j d) ⟨1, by decide⟩ = 0 := rfl
/-- On operand axis 2 the window coordinate of update `(i, j, d)` is `d`. -/
theorem window_vals_2 (i j : Fin 4096) (d : Fin 2) :
    scatter_S4096x256x2_S4096x4096x2_S4096x4096x2_2_01_01_2.window (ix3 i j d) ⟨2, by decide⟩ = d.val := rfl

/-- Where update `(i, j, d)` of the two-word-per-cell scatter lands: at `(n, k, e)` exactly when its two index
    words, read signed, are `n` and `k`, and its window coordinate `d` is `e`. -/
theorem resultIdx_vals (idx : IVec S4096x4096x2 32) (i j : Fin 4096) (d : Fin 2) (n : Fin 4096) (k : Fin 256)
    (e : Fin 2) :
    scatter_S4096x256x2_S4096x4096x2_S4096x4096x2_2_01_01_2.resultIdx? (ix3 i j d) idx = some (ix3 n k e)
      ↔ (idx (ix3 i j 0)).toInt = n.val ∧ (idx (ix3 i j 1)).toInt = k.val ∧ d = e := by
  rw [resultIdx?_eq_some_iff]
  constructor
  · intro h
    have h0 := h ⟨0, by decide⟩
    have h1 := h ⟨1, by decide⟩
    have h2 := h ⟨2, by decide⟩
    rw [start_vals_0, window_vals_0] at h0
    rw [start_vals_1, window_vals_1] at h1
    rw [start_vals_2, window_vals_2] at h2
    refine ⟨?_, ?_, ?_⟩
    · have : ((ix3 n k e : S4096x256x2.Idx) ⟨0, by decide⟩).val = n.val := rfl
      omega
    · have : ((ix3 n k e : S4096x256x2.Idx) ⟨1, by decide⟩).val = k.val := rfl
      omega
    · have : ((ix3 n k e : S4096x256x2.Idx) ⟨2, by decide⟩).val = e.val := rfl
      apply Fin.ext; omega
  · rintro ⟨h0, h1, h2⟩ a
    match a with
    | ⟨0, _⟩ =>
      rw [start_vals_0, window_vals_0, h0]
      show (n.val : Int) + ((0 : Nat) : Int) = (n.val : Int)
      omega
    | ⟨1, _⟩ =>
      rw [start_vals_1, window_vals_1, h1]
      show (k.val : Int) + ((0 : Nat) : Int) = (k.val : Int)
      omega
    | ⟨2, _⟩ =>
      rw [start_vals_2, window_vals_2, h2]
      show (0 : Int) + ((e.val : Nat) : Int) = (e.val : Int)
      omega

/-- On operand axis 0 the start of update `(i, j)` is its cell's first index word, read signed. -/
theorem start_cnt_0 (idx : IVec S4096x4096x2 32) (i j : Fin 4096) :
    scatter_S4096x256_S4096x4096x2_S4096x4096_n_01_01_2.start (ix2 i j) idx ⟨0, by decide⟩
      = (idx (ix3 i j 0)).toInt := by
  have hm : (⟨0, by decide⟩ : Fin S4096x256.rank) ∈
      scatter_S4096x256_S4096x4096x2_S4096x4096_n_01_01_2.scatterDimsToOperandDims := by
    show _ ∈ [(0 : Fin 2), 1]; decide
  unfold ScatterDims.start
  rw [dif_pos hm]
  congr 2
  funext b; refine Fin.ext ?_
  match b with
  | ⟨0, _⟩ => rfl
  | ⟨1, _⟩ => rfl
  | ⟨2, _⟩ => rfl

/-- On operand axis 1 the start of update `(i, j)` is its cell's second index word, read signed. -/
theorem start_cnt_1 (idx : IVec S4096x4096x2 32) (i j : Fin 4096) :
    scatter_S4096x256_S4096x4096x2_S4096x4096_n_01_01_2.start (ix2 i j) idx ⟨1, by decide⟩
      = (idx (ix3 i j 1)).toInt := by
  have hm : (⟨1, by decide⟩ : Fin S4096x256.rank) ∈
      scatter_S4096x256_S4096x4096x2_S4096x4096_n_01_01_2.scatterDimsToOperandDims := by
    show _ ∈ [(0 : Fin 2), 1]; decide
  unfold ScatterDims.start
  rw [dif_pos hm]
  congr 2
  funext b; refine Fin.ext ?_
  match b with
  | ⟨0, _⟩ => rfl
  | ⟨1, _⟩ => rfl
  | ⟨2, _⟩ => rfl

/-- Operand axis 0 is an inserted axis: the window coordinate there is `0`. -/
theorem window_cnt_0 (i j : Fin 4096) :
    scatter_S4096x256_S4096x4096x2_S4096x4096_n_01_01_2.window (ix2 i j) ⟨0, by decide⟩ = 0 := rfl
/-- Operand axis 1 is an inserted axis: the window coordinate there is `0`. -/
theorem window_cnt_1 (i j : Fin 4096) :
    scatter_S4096x256_S4096x4096x2_S4096x4096_n_01_01_2.window (ix2 i j) ⟨1, by decide⟩ = 0 := rfl

/-- Where update `(i, j)` of the one-word-per-cell scatter lands: at `(n, k)` exactly when its two index words,
    read signed, are `n` and `k`. -/
theorem resultIdx_cnt (idx : IVec S4096x4096x2 32) (i j : Fin 4096) (n : Fin 4096) (k : Fin 256) :
    scatter_S4096x256_S4096x4096x2_S4096x4096_n_01_01_2.resultIdx? (ix2 i j) idx = some (ix2 n k)
      ↔ (idx (ix3 i j 0)).toInt = n.val ∧ (idx (ix3 i j 1)).toInt = k.val := by
  rw [resultIdx?_eq_some_iff]
  constructor
  · intro h
    have h0 := h ⟨0, by decide⟩
    have h1 := h ⟨1, by decide⟩
    rw [start_cnt_0, window_cnt_0] at h0
    rw [start_cnt_1, window_cnt_1] at h1
    refine ⟨?_, ?_⟩
    · have : ((ix2 n k : S4096x256.Idx) ⟨0, by decide⟩).val = n.val := rfl
      omega
    · have : ((ix2 n k : S4096x256.Idx) ⟨1, by decide⟩).val = k.val := rfl
      omega
  · rintro ⟨h0, h1⟩ a
    match a with
    | ⟨0, _⟩ =>
      rw [start_cnt_0, window_cnt_0, h0]
      show (n.val : Int) + ((0 : Nat) : Int) = (n.val : Int)
      omega
    | ⟨1, _⟩ =>
      rw [start_cnt_1, window_cnt_1, h1]
      show (k.val : Int) + ((0 : Nat) : Int) = (k.val : Int)
      omega

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The two-word-per-cell accumulating scatter read at `(n, k, e)`, when every update's first index word is its
    own row number: the operand's element plus the sum, over the cells `j` of row `n` whose second index word is
    `k`, of the update `(n, j, e)`. -/
theorem scatterAdd_vals_apply (x : FVec Ideal S4096x256x2 .f32) (idx : IVec S4096x4096x2 32)
    (upd : FVec Ideal S4096x4096x2 .f32)
    (hrow : ∀ i j : Fin 4096, (idx (ix3 i j 0)).toInt = i.val) (n : Fin 4096) (k : Fin 256) (e : Fin 2) :
    Host.scatterAdd scatter_S4096x256x2_S4096x4096x2_S4096x4096x2_2_01_01_2 x idx upd (ix3 n k e)
      = x (ix3 n k e) + ∑ j : Fin 4096, if (idx (ix3 n j 1)).toInt = k.val then upd (ix3 n j e) else 0 := by
  unfold Host.scatterAdd
  rw [Ideal.hostScatterAdd_def]
  unfold Ideal.hostScatterAdd
  congr 1
  rw [Finset.sum_filter, sum_idx3]
  simp only [resultIdx_vals, hrow]
  rw [Finset.sum_eq_single n]
  · refine Finset.sum_congr rfl fun j _ => ?_
    by_cases hB : (idx (ix3 n j 1)).toInt = k.val
    · simp [hB]
    · simp [hB]
  · intro i _ hi
    have hne : ¬ ((i.val : Int) = n.val) := by intro h; apply hi; apply Fin.ext; omega
    simp [hne]
  · intro h; exact absurd (Finset.mem_univ n) h

/-- The one-word-per-cell accumulating scatter read at `(n, k)`, when every update's first index word is its own
    row number: the operand's element plus the sum, over the cells `j` of row `n` whose second index word is `k`,
    of the update `(n, j)`. -/
theorem scatterAdd_cnt_apply (x : FVec Ideal S4096x256 .f32) (idx : IVec S4096x4096x2 32)
    (upd : FVec Ideal S4096x4096 .f32)
    (hrow : ∀ i j : Fin 4096, (idx (ix3 i j 0)).toInt = i.val) (n : Fin 4096) (k : Fin 256) :
    Host.scatterAdd scatter_S4096x256_S4096x4096x2_S4096x4096_n_01_01_2 x idx upd (ix2 n k)
      = x (ix2 n k) + ∑ j : Fin 4096, if (idx (ix3 n j 1)).toInt = k.val then upd (ix2 n j) else 0 := by
  unfold Host.scatterAdd
  rw [Ideal.hostScatterAdd_def]
  unfold Ideal.hostScatterAdd
  congr 1
  rw [Finset.sum_filter, sum_idx2]
  simp only [resultIdx_cnt, hrow]
  rw [Finset.sum_eq_single n]
  · refine Finset.sum_congr rfl fun j _ => ?_
    by_cases hB : (idx (ix3 n j 1)).toInt = k.val
    · simp [hB]
    · simp [hB]
  · intro i _ hi
    have hne : ¬ ((i.val : Int) = n.val) := by intro h; apply hi; apply Fin.ext; omega
    simp [hne]
  · intro h; exact absurd (Finset.mem_univ n) h

end Cert.LibScatterPair
-- ==== Proof.RefWords.lean ====
/-
  Word-level facts behind the reference's index arithmetic.

  A cell coordinate is a 32-bit word read signed. It is in the grid when it is one of 0 … 15, and then it is the
  word of that natural number. For two coordinates in the grid the flattened cell word a·16 + b is the word of a
  natural number below 256, so it is not negative, the wrap-around (add 256 when negative) leaves it alone, and it
  equals k exactly when a = k / 16 and b = k mod 16. A row number below 4096 is likewise not negative as a word. A
  conjunction over the two coordinates of a pair is the "and" of the two bits, and the word of i equals the word of
  j exactly when i = j.
-/
import Idealize.ShloMosaic.PureOps.Ideal
import Idealize.ShloMosaic.PureOps.Reduce
import Idealize.ShloMosaic.Lib.Affine
import Idealize.ShloMosaic.Lib.ValueIdx
import proofs.«109977_j37271726195508_1_alg».proof.ReferenceIdeal
import proofs.«109977_j37271726195508_1_alg».proof.Proof.Spec

namespace Cert.RefWords

open Idealize.ShloMosaic Idealize.ShloMosaic.ValueIdx

/-- The word of a natural number below 2³¹, read signed, is that number. -/
theorem toInt_ofNat_small (n : Nat) (h : n < 2147483648) : (BitVec.ofNat 32 n).toInt = (n : Int) := by
  rw [BitVec.toInt_eq_toNat_cond, BitVec.toNat_ofNat]
  have h2 : n % 2 ^ 32 = n := Nat.mod_eq_of_lt (by omega)
  rw [h2]
  split_ifs with hc
  · rfl
  · exfalso; omega

/-- Two natural numbers below 2³² have the same word exactly when they are equal. -/
theorem ofNat_inj_small (a b : Nat) (ha : a < 4294967296) (hb : b < 4294967296) :
    BitVec.ofNat 32 a = BitVec.ofNat 32 b ↔ a = b := by
  constructor
  · intro h
    have h1 := congrArg BitVec.toNat h
    rw [BitVec.toNat_ofNat, BitVec.toNat_ofNat, Nat.mod_eq_of_lt (by omega), Nat.mod_eq_of_lt (by omega)] at h1
    exact h1
  · intro h; rw [h]

/-- A one-bit word is 0 exactly when it is not 1. -/
theorem bit_eq_zero_iff (b : BitVec 1) : b = 0#1 ↔ ¬ b = 1#1 := by revert b; decide

/-- A coordinate is in the grid exactly when, read signed, it is at least 0 and below 16. -/
theorem inGrid_iff_toInt (a : BitVec 32) : Cert.Spec.inGrid a ↔ 0 ≤ a.toInt ∧ a.toInt < 16 := by
  unfold Cert.Spec.inGrid
  rw [BitVec.sle_iff_toInt_le, BitVec.slt_iff_toInt_lt]
  have h0 : (0#32).toInt = 0 := by decide
  have h16 : (16#32).toInt = 16 := by decide
  rw [h0, h16]

/-- A coordinate is in the grid exactly when it is the word of one of 0 … 15. -/
theorem inGrid_iff_exists (a : BitVec 32) : Cert.Spec.inGrid a ↔ ∃ n : Fin 16, a = BitVec.ofNat 32 n.val := by
  rw [inGrid_iff_toInt]
  constructor
  · rintro ⟨h0, h16⟩
    rw [BitVec.toInt_eq_toNat_cond] at h0 h16
    have hlt := a.isLt
    split_ifs at h0 h16 with hc
    · refine ⟨⟨a.toNat, by omega⟩, ?_⟩
      apply BitVec.eq_of_toNat_eq
      rw [BitVec.toNat_ofNat, Nat.mod_eq_of_lt (by omega)]
    · exfalso; omega
  · rintro ⟨n, rfl⟩
    rw [toInt_ofNat_small _ (by have := n.isLt; omega)]
    have := n.isLt
    omega

/-- The wrapped row word of a row number below 4096, read signed, is the row number. -/
theorem row_word (i : Fin 4096) :
    (Scalar.select (IntOp.cmpi .slt (BitVec.ofNat 32 i.val) 0#32) (IntOp.addi (BitVec.ofNat 32 i.val) 4096#32)
      (BitVec.ofNat 32 i.val)).toInt = i.val := by
  have hw : (BitVec.ofNat 32 i.val).toInt = i.val := toInt_ofNat_small _ (by have := i.isLt; omega)
  have hc : IntOp.cmpi .slt (BitVec.ofNat 32 i.val) 0#32 = 0#1 := by
    apply eq_zero_of_ne_one
    rw [IntOp.cmpi_slt, hw]
    have h0 : (0#32).toInt = 0 := by decide
    rw [h0]; omega
  rw [hc, select_zero, hw]

/-- The two range bits of a coordinate and-ed are 1 exactly when the coordinate is in the grid. -/
theorem inGrid_iff_bits (a : BitVec 32) :
    IntOp.andi (IntOp.cmpi .sge a 0#32) (IntOp.cmpi .slt a 16#32) = 1#1 ↔ Cert.Spec.inGrid a := by
  rw [IntOp.andi_eq_one, IntOp.cmpi_sge, IntOp.cmpi_slt]
  unfold Cert.Spec.inGrid
  rw [BitVec.sle_iff_toInt_le, BitVec.slt_iff_toInt_lt]

/-- … and 0 exactly when it is not. -/
theorem not_inGrid_iff_bits (a : BitVec 32) :
    IntOp.andi (IntOp.cmpi .sge a 0#32) (IntOp.cmpi .slt a 16#32) = 0#1 ↔ ¬ Cert.Spec.inGrid a := by
  rw [bit_eq_zero_iff, inGrid_iff_bits]

/-- For two coordinates in the grid the wrapped cell word, read signed, is `k` exactly when the coordinates are the
    words of `k / 16` and `k mod 16`. -/
theorem cell_word_valid (ox oy : BitVec 32) (hx : Cert.Spec.inGrid ox) (hy : Cert.Spec.inGrid oy) (k : Fin 256) :
    (Scalar.select (IntOp.cmpi .slt (IntOp.addi (IntOp.muli ox 16#32) oy) 0#32)
        (IntOp.addi (IntOp.addi (IntOp.muli ox 16#32) oy) 256#32) (IntOp.addi (IntOp.muli ox 16#32) oy)).toInt = k.val
      ↔ ox = BitVec.ofNat 32 (Cert.Spec.hi16 k).val ∧ oy = BitVec.ofNat 32 (Cert.Spec.lo16 k).val := by
  obtain ⟨m, rfl⟩ := (inGrid_iff_exists ox).1 hx
  obtain ⟨n, rfl⟩ := (inGrid_iff_exists oy).1 hy
  have hm := m.isLt
  have hn := n.isLt
  have hk := k.isLt
  have hcell : IntOp.addi (IntOp.muli (BitVec.ofNat 32 m.val) 16#32) (BitVec.ofNat 32 n.val)
      = BitVec.ofNat 32 (m.val * 16 + n.val) := by
    show BitVec.ofNat 32 m.val * BitVec.ofNat 32 16 + BitVec.ofNat 32 n.val = _
    rw [← BitVec.ofNat_mul, ← BitVec.ofNat_add]
  rw [hcell]
  have hw : (BitVec.ofNat 32 (m.val * 16 + n.val)).toInt = ((m.val * 16 + n.val : Nat) : Int) :=
    toInt_ofNat_small _ (by omega)
  have hc : IntOp.cmpi .slt (BitVec.ofNat 32 (m.val * 16 + n.val)) 0#32 = 0#1 := by
    apply eq_zero_of_ne_one
    rw [IntOp.cmpi_slt, hw]
    have h0 : (0#32).toInt = 0 := by decide
    rw [h0]; omega
  rw [hc, select_zero, hw, ofNat_inj_small _ _ (by omega) (by have := (Cert.Spec.hi16 k).isLt; omega),
    ofNat_inj_small _ _ (by omega) (by have := (Cert.Spec.lo16 k).isLt; omega)]
  show ((m.val * 16 + n.val : Nat) : Int) = (k.val : Int) ↔ m.val = k.val / 16 ∧ n.val = k.val % 16
  omega

/-- The wrapped word of cell 0, read signed, is `k` exactly when `k` is 0. -/
theorem cell_word_zero (k : Fin 256) :
    (Scalar.select (IntOp.cmpi .slt 0#32 0#32) (IntOp.addi 0#32 256#32) 0#32).toInt = k.val ↔ k.val = 0 := by
  have h : (Scalar.select (IntOp.cmpi .slt 0#32 0#32) (IntOp.addi 0#32 256#32) 0#32).toInt = 0 := by decide
  rw [h]
  omega

/-- The word of `i` plus the zero word equals the word of `j` exactly when `i = j`. -/
theorem eye_word (i j : Fin 4096) :
    IntOp.cmpi .eq (IntOp.addi (BitVec.ofNat 32 i.val) 0#32) (BitVec.ofNat 32 j.val) = 1#1 ↔ i = j := by
  rw [IntOp.cmpi_eq]
  have ha : IntOp.addi (BitVec.ofNat 32 i.val) 0#32 = BitVec.ofNat 32 i.val := BitVec.add_zero _
  rw [ha, ofNat_inj_small _ _ (by have := i.isLt; omega) (by have := j.isLt; omega), Fin.ext_iff]

open Cert.ReferenceIdeal in
/-- An "and"-reduction over the last axis of a 4096 × 4096 × 2 array of bits is, at `(i, j)`, the initial bit
    and-ed with the two bits of the pair. -/
theorem reduce_and_pair_init {u : Shape} (x : IVec S4096x4096x2 1) (init : u.Idx → BitVec 1) (i j : Fin 4096)
    (h : S4096x4096x2.ReducesTo [2] S4096x4096) (hu : 0 < u.numel) :
    Host.reduce IntOp.andi x init h hu (ix2 i j)
      = IntOp.andi (init (Shape.Idx.first hu)) (IntOp.andi (x (ix3 i j 0)) (x (ix3 i j 1))) := by
  have hr : S4096x4096x2.Reduces [2] S4096x4096 := by decide
  rw [Host.reduce_eq_fold_single IntOp.andi x init h hr hu (ix2 i j)]
  show (Finset.univ : Finset (Fin 2)).fold IntOp.andi (init (Shape.Idx.first hu))
    (fun k : Fin 2 => x (hr.lift (ix2 i j) k)) = _
  have huniv : (Finset.univ : Finset (Fin 2)) = {(0 : Fin 2), (1 : Fin 2)} := by decide
  rw [huniv, Finset.fold_insert (by decide), Finset.fold_singleton]
  have e0 : hr.lift (ix2 i j) (0 : Fin 2) = ix3 i j 0 := by
    funext c; refine Fin.ext ?_
    match c with
    | ⟨0, _⟩ => rfl
    | ⟨1, _⟩ => rfl
    | ⟨2, _⟩ => rfl
  have e1 : hr.lift (ix2 i j) (1 : Fin 2) = ix3 i j 1 := by
    funext c; refine Fin.ext ?_
    match c with
    | ⟨0, _⟩ => rfl
    | ⟨1, _⟩ => rfl
    | ⟨2, _⟩ => rfl
  show IntOp.andi (x (hr.lift (ix2 i j) (0 : Fin 2))) (IntOp.andi (x (hr.lift (ix2 i j) (1 : Fin 2))) _) = _
  rw [e0, e1]
  generalize x (ix3 i j 0) = a
  generalize x (ix3 i j 1) = b
  generalize init (Shape.Idx.first hu) = c
  revert a b c; decide

open Cert.ReferenceIdeal in
/-- From the initial bit 1 it is the "and" of the two bits of the pair. -/
theorem reduce_and_pair {u : Shape} (x : IVec S4096x4096x2 1) (i j : Fin 4096)
    (h : S4096x4096x2.ReducesTo [2] S4096x4096) (hu : 0 < u.numel) :
    Host.reduce IntOp.andi x (fun _ : u.Idx => 1#1) h hu (ix2 i j)
      = IntOp.andi (x (ix3 i j 0)) (x (ix3 i j 1)) := by
  rw [reduce_and_pair_init]
  generalize x (ix3 i j 0) = a
  generalize x (ix3 i j 1) = b
  revert a b; decide

end Cert.RefWords
-- ==== Proof.RefCells.lean ====
/-
  The reference's per-pair quantities read at a pair (i, j) of pedestrians, at the extended reals.
  The cell coordinate along axis d is the floor of (P[j, d] − P[i, d]) / c + 8 converted to a 32-bit integer: the
  specification's cell coordinate, the quotient by the cell side being the product with its reciprocal.
  The index pair of (i, j) that the two accumulations are given has, as its first word, the row number i (wrapped
  when negative, which it never is), and as its second the wrapped cell word of the pair.
-/
import proofs.«109977_j37271726195508_1_alg».proof.Proof.RefRead
import proofs.«109977_j37271726195508_1_alg».proof.Proof.RefWords
import proofs.«109977_j37271726195508_1_alg».proof.Proof.Spec
import proofs.«109977_j37271726195508_1_alg».proof.Proof.SpecGlue
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.ReadP

/-! ## The cell coordinate -/

/-- The cell coordinate of pedestrian j seen from pedestrian i, along axis d. -/
theorem ref_cell (P : (⟨S4096x2, .f32⟩ : BufTy).Contents (Elt Ideal)) (i j : Fin 4096) (d : Fin 2) :
    val_main_v16 (F := Ideal) P (ix3 i j d) = Cert.Spec.cellOf (P (ix2 i d)) (P (ix2 j d)) := by
  rw [val_main_v16_apply, val_main_v15_apply, val_main_v14_apply, val_main_v12_apply, val_main_v13_apply,
    val_main_cst_0_apply, val_main_v11_apply, val_main_cst_apply, val_main_v5_apply, val_main_v3_apply,
    val_main_v1_apply, val_main_v4_apply, val_main_v2_apply]
  rw [show idx_main_v1 (idx_main_v3 (ix3 i j d)) = ix2 j d from
      funext fun a => by match a with | ⟨0, _⟩ => rfl | ⟨1, _⟩ => rfl,
    show idx_main_v2 (idx_main_v4 (ix3 i j d)) = ix2 i d from
      funext fun a => by match a with | ⟨0, _⟩ => rfl | ⟨1, _⟩ => rfl]
  show Ideal.fptosi 32 (Ideal.liftRound Int.floor
    (Ideal.div (P (ix2 j d) - P (ix2 i d)) (Ideal.ofBits .f32 0x3F19999A#32) + Ideal.ofBits .f32 0x41000000#32)) = _
  rw [Cert.Spec.div_cellSide]
  rfl

/-! ## The index pairs -/

/-- The row number as a word, wrapped, as both accumulations' index pairs carry it: at (i, 0). -/
theorem row_word_vals (i : Fin 4096) :
    val_main_v47 (F := Ideal) (ix2 i (0 : Fin 1))
      = Scalar.select (IntOp.cmpi .slt (BitVec.ofNat 32 i.val) 0#32) (IntOp.addi (BitVec.ofNat 32 i.val) 4096#32)
          (BitVec.ofNat 32 i.val) := by
  rw [val_main_v47_apply, val_main_v44_apply, val_main_v46_apply, val_main_v43_apply, val_main_c_8_apply,
    val_main_v45_apply, val_main_c_9_apply, val_main_v41_apply, val_main_v40_apply]

theorem row_word_cnt (i : Fin 4096) :
    val_main_v64 (F := Ideal) (ix2 i (0 : Fin 1))
      = Scalar.select (IntOp.cmpi .slt (BitVec.ofNat 32 i.val) 0#32) (IntOp.addi (BitVec.ofNat 32 i.val) 4096#32)
          (BitVec.ofNat 32 i.val) := by
  rw [val_main_v64_apply, val_main_v61_apply, val_main_v63_apply, val_main_v60_apply, val_main_c_13_apply,
    val_main_v62_apply, val_main_c_14_apply, val_main_v41_apply, val_main_v40_apply]

/-- The first word of the pair (i, j)'s index pair, read signed, is the row number i: the summed velocities' pairs. -/
theorem ref_row_word_vals (P : (⟨S4096x2, .f32⟩ : BufTy).Contents (Elt Ideal)) (i j : Fin 4096) :
    (val_main_v56 (F := Ideal) P (ix3 i j 0)).toInt = i.val := by
  have e : val_main_v56 (F := Ideal) P (ix3 i j 0) = val_main_v54 (F := Ideal) (ix3 i j (0 : Fin 1)) := by
    unfold val_main_v56
    exact concatenate_pair_apply_left (t := S4096x4096x2) (s₁ := S4096x4096x1) (s₂ := S4096x4096x1) _ _ _ _ (ix3 i j (0 : Fin 2)) rfl (ix3 i j (0 : Fin 1) : S4096x4096x1.Idx) (fun b => by
      match b with | ⟨0, _⟩ => rfl | ⟨1, _⟩ => rfl | ⟨2, _⟩ => rfl)
  rw [e, val_main_v54_apply, val_main_v53_apply,
    show idx_main_v53 (idx_main_v54 (ix3 i j (0 : Fin 1))) = ix2 i (0 : Fin 1) from
      funext fun a => by match a with | ⟨0, _⟩ => rfl | ⟨1, _⟩ => rfl,
    row_word_vals]
  exact Cert.RefWords.row_word i

/-- The same for the counts' pairs. -/
theorem ref_row_word_cnt (P : (⟨S4096x2, .f32⟩ : BufTy).Contents (Elt Ideal)) (i j : Fin 4096) :
    (val_main_v73 (F := Ideal) P (ix3 i j 0)).toInt = i.val := by
  have e : val_main_v73 (F := Ideal) P (ix3 i j 0) = val_main_v71 (F := Ideal) (ix3 i j (0 : Fin 1)) := by
    unfold val_main_v73
    exact concatenate_pair_apply_left (t := S4096x4096x2) (s₁ := S4096x4096x1) (s₂ := S4096x4096x1) _ _ _ _ (ix3 i j (0 : Fin 2)) rfl (ix3 i j (0 : Fin 1) : S4096x4096x1.Idx) (fun b => by
      match b with | ⟨0, _⟩ => rfl | ⟨1, _⟩ => rfl | ⟨2, _⟩ => rfl)
  rw [e, val_main_v71_apply, val_main_v70_apply,
    show idx_main_v70 (idx_main_v71 (ix3 i j (0 : Fin 1))) = ix2 i (0 : Fin 1) from
      funext fun a => by match a with | ⟨0, _⟩ => rfl | ⟨1, _⟩ => rfl,
    row_word_cnt]
  exact Cert.RefWords.row_word i

/-- The second word of the pair (i, j)'s index pair is the pair's wrapped cell word: the summed velocities' pairs. -/
theorem ref_cell_word_vals (P : (⟨S4096x2, .f32⟩ : BufTy).Contents (Elt Ideal)) (i j : Fin 4096) :
    val_main_v56 (F := Ideal) P (ix3 i j 1) = val_main_v52 (F := Ideal) P (ix2 i j) := by
  have e : val_main_v56 (F := Ideal) P (ix3 i j 1) = val_main_v55 (F := Ideal) P (ix3 i j (0 : Fin 1)) := by
    unfold val_main_v56
    exact concatenate_pair_apply_right (t := S4096x4096x2) (s₁ := S4096x4096x1) (s₂ := S4096x4096x1) _ _ _ _ (ix3 i j (1 : Fin 2)) rfl rfl (ix3 i j (0 : Fin 1) : S4096x4096x1.Idx) (fun b hb => by
      match b with | ⟨0, _⟩ => rfl | ⟨1, _⟩ => rfl | ⟨2, _⟩ => exact absurd rfl hb) rfl
  rw [e, val_main_v55_apply]
  exact congrArg _ (funext fun a => by match a with | ⟨0, _⟩ => rfl | ⟨1, _⟩ => rfl)

/-- The same for the counts' pairs. -/
theorem ref_cell_word_cnt (P : (⟨S4096x2, .f32⟩ : BufTy).Contents (Elt Ideal)) (i j : Fin 4096) :
    val_main_v73 (F := Ideal) P (ix3 i j 1) = val_main_v69 (F := Ideal) P (ix2 i j) := by
  have e : val_main_v73 (F := Ideal) P (ix3 i j 1) = val_main_v72 (F := Ideal) P (ix3 i j (0 : Fin 1)) := by
    unfold val_main_v73
    exact concatenate_pair_apply_right (t := S4096x4096x2) (s₁ := S4096x4096x1) (s₂ := S4096x4096x1) _ _ _ _ (ix3 i j (1 : Fin 2)) rfl rfl (ix3 i j (0 : Fin 1) : S4096x4096x1.Idx) (fun b hb => by
      match b with | ⟨0, _⟩ => rfl | ⟨1, _⟩ => rfl | ⟨2, _⟩ => exact absurd rfl hb) rfl
  rw [e, val_main_v72_apply]
  exact congrArg _ (funext fun a => by match a with | ⟨0, _⟩ => rfl | ⟨1, _⟩ => rfl)

end Cert.ReferenceIdeal.RefValue

end
-- ==== Proof.RefPairs.lean ====
/-
  The reference's two accumulating scatters are the specification's sums.

  For a pair (i, j) of pedestrians the reference forms the two cell coordinates, a validity bit (both coordinates
  in 0..15 and i ≠ j), an index pair (the row word i, the wrapped cell word) and an update (the relative velocity,
  or the bit as a float), the cell word and the update both replaced by 0 on an invalid pair. Row n, column k of a
  scatter collects the updates of the pairs (n, j) whose cell word is k. On a valid pair the cell word is
  a·16 + b of the two coordinates, a number below 256 that the wrap leaves alone, so it is k exactly when
  (a, b) = (k / 16, k mod 16): the pair hits cell (k / 16, k mod 16). On an invalid pair the update is 0, whatever
  the cell word. So each scatter is, term by term, the specification's sum over the hits.
-/
import proofs.«109977_j37271726195508_1_alg».proof.Proof.RefRead
import proofs.«109977_j37271726195508_1_alg».proof.Proof.Spec
import proofs.«109977_j37271726195508_1_alg».proof.Proof.SpecGlue
import proofs.«109977_j37271726195508_1_alg».proof.Proof.LibScatterPair
import proofs.«109977_j37271726195508_1_alg».proof.Proof.RefWords
import proofs.«109977_j37271726195508_1_alg».proof.Proof.RefCells

noncomputable section

namespace Cert.ReferenceIdeal.RefValue

open Idealize.ShloMosaic Idealize.ShloMosaic.ValueIdx
open Cert.ReferenceIdeal Cert.ReferenceIdeal.ReadP
open scoped BigOperators

/-! ## The validity bit of a pair -/

/-- The range bit of one coordinate of a pair. -/
theorem ref_bit (P : (⟨S4096x2, .f32⟩ : BufTy).Contents (Elt Ideal)) (i j : Fin 4096) (d : Fin 2) :
    val_main_v21 (F := Ideal) P (ix3 i j d)
      = IntOp.andi (IntOp.cmpi .sge (Cert.Spec.cellOf (P (ix2 i d)) (P (ix2 j d))) 0#32)
          (IntOp.cmpi .slt (Cert.Spec.cellOf (P (ix2 i d)) (P (ix2 j d))) 16#32) := by
  rw [val_main_v21_apply, val_main_v18_apply, val_main_v20_apply, val_main_v17_apply, val_main_v19_apply,
    val_main_c_apply, val_main_c_1_apply, ref_cell]

/-- The "same pedestrian" bit of a pair. -/
theorem ref_eye (i j : Fin 4096) :
    val_main_v27 (F := Ideal) (ix2 i j)
      = IntOp.cmpi .eq (IntOp.addi (BitVec.ofNat 32 i.val) 0#32) (BitVec.ofNat 32 j.val) := by
  rw [val_main_v27_apply, val_main_v26_apply, val_main_v23_apply, val_main_v24_apply, val_main_v25_apply,
    val_main_c_3_apply]

/-- Three bits and-ed under an initial 1, and a negated fourth. -/
theorem bits_mask (a b e : BitVec 1) :
    IntOp.andi (IntOp.andi 1#1 (IntOp.andi a b)) (~~~e) = 1#1 ↔ a = 1#1 ∧ b = 1#1 ∧ ¬ e = 1#1 := by
  revert a b e; decide

/-- The pair (i, j) is valid exactly when both cell coordinates are in the grid and i ≠ j. -/
theorem ref_mask (P : (⟨S4096x2, .f32⟩ : BufTy).Contents (Elt Ideal)) (i j : Fin 4096) :
    val_main_v29 (F := Ideal) P (ix2 i j) = 1#1
      ↔ (Cert.Spec.inGrid (Cert.Spec.cellOf (P (ix2 i 0)) (P (ix2 j 0)))
          ∧ Cert.Spec.inGrid (Cert.Spec.cellOf (P (ix2 i 1)) (P (ix2 j 1))) ∧ ¬ i = j) := by
  rw [val_main_v29_apply, val_main_v28_apply, ref_eye]
  unfold val_main_v22
  rw [Cert.RefWords.reduce_and_pair_init, ref_bit, ref_bit, val_main_c_2_apply, bits_mask,
    Cert.RefWords.inGrid_iff_bits, Cert.RefWords.inGrid_iff_bits, Cert.RefWords.eye_word]

/-! ## The index pair and the update of a pair -/

theorem idx_v31_v30 (i j : Fin 4096) : idx_main_v30 (idx_main_v31 (ix2 i j)) = ix3 i j 0 := by
  funext a; refine Fin.ext ?_
  have hi := i.isLt
  have hj := j.isLt
  match a with
  | ⟨0, _⟩ => show (i.val * 4096 + j.val) / 4096 = i.val; omega
  | ⟨1, _⟩ => show (i.val * 4096 + j.val) / 1 % 4096 = j.val; omega
  | ⟨2, _⟩ => rfl

theorem idx_v35_v34 (i j : Fin 4096) : idx_main_v34 (idx_main_v35 (ix2 i j)) = ix3 i j 1 := by
  funext a; refine Fin.ext ?_
  have hi := i.isLt
  have hj := j.isLt
  match a with
  | ⟨0, _⟩ => show (i.val * 4096 + j.val) / 4096 = i.val; omega
  | ⟨1, _⟩ => show (i.val * 4096 + j.val) / 1 % 4096 = j.val; omega
  | ⟨2, _⟩ => rfl

theorem idx_c1_v38 (i j : Fin 4096) (d : Fin 2) : idx_main_v38 (idx_main_call1_v1 (ix3 i j d)) = ix2 i j := by
  funext a; refine Fin.ext ?_
  match a with
  | ⟨0, _⟩ => rfl
  | ⟨1, _⟩ => rfl

theorem idx_v8_v6 (i j : Fin 4096) (d : Fin 2) : idx_main_v6 (idx_main_v8 (ix3 i j d)) = ix2 j d := by
  funext a; refine Fin.ext ?_
  match a with
  | ⟨0, _⟩ => rfl
  | ⟨1, _⟩ => rfl

theorem idx_v9_v7 (i j : Fin 4096) (d : Fin 2) : idx_main_v7 (idx_main_v9 (ix3 i j d)) = ix2 i d := by
  funext a; refine Fin.ext ?_
  match a with
  | ⟨0, _⟩ => rfl
  | ⟨1, _⟩ => rfl

/-- The flattened cell word a·16 + b of a pair, before the mask. -/
theorem ref_v36 (P : (⟨S4096x2, .f32⟩ : BufTy).Contents (Elt Ideal)) (i j : Fin 4096) :
    val_main_v36 (F := Ideal) P (ix2 i j)
      = IntOp.addi (IntOp.muli (Cert.Spec.cellOf (P (ix2 i 0)) (P (ix2 j 0))) 16#32)
          (Cert.Spec.cellOf (P (ix2 i 1)) (P (ix2 j 1))) := by
  rw [val_main_v36_apply, val_main_v33_apply, val_main_v31_apply, val_main_v30_apply, idx_v31_v30, val_main_v32_apply,
    val_main_c_4_apply, val_main_v35_apply, val_main_v34_apply, idx_v35_v34, ref_cell, ref_cell]

/-- The cell word under the mask: the flattened cell on a valid pair, 0 elsewhere. -/
theorem ref_v37 (P : (⟨S4096x2, .f32⟩ : BufTy).Contents (Elt Ideal)) (i j : Fin 4096) :
    val_main_v37 (F := Ideal) P (ix2 i j)
      = Scalar.select (val_main_v29 (F := Ideal) P (ix2 i j))
          (IntOp.addi (IntOp.muli (Cert.Spec.cellOf (P (ix2 i 0)) (P (ix2 j 0))) 16#32)
            (Cert.Spec.cellOf (P (ix2 i 1)) (P (ix2 j 1)))) 0#32 := by
  rw [val_main_v37_apply, ref_v36, val_main_call0_v1_apply, val_main_call0_v0_apply, val_main_c_5_apply]

/-- The wrapped cell word of the first scatter. -/
theorem ref_v52 (P : (⟨S4096x2, .f32⟩ : BufTy).Contents (Elt Ideal)) (i j : Fin 4096) :
    val_main_v52 (F := Ideal) P (ix2 i j)
      = Scalar.select (IntOp.cmpi .slt (val_main_v37 (F := Ideal) P (ix2 i j)) 0#32)
          (IntOp.addi (val_main_v37 (F := Ideal) P (ix2 i j)) 256#32) (val_main_v37 (F := Ideal) P (ix2 i j)) := by
  rw [val_main_v52_apply, val_main_v49_apply, val_main_v51_apply, val_main_v48_apply, val_main_c_10_apply,
    val_main_v50_apply, val_main_c_11_apply]

/-- The wrapped cell word of the second scatter. -/
theorem ref_v69 (P : (⟨S4096x2, .f32⟩ : BufTy).Contents (Elt Ideal)) (i j : Fin 4096) :
    val_main_v69 (F := Ideal) P (ix2 i j)
      = Scalar.select (IntOp.cmpi .slt (val_main_v37 (F := Ideal) P (ix2 i j)) 0#32)
          (IntOp.addi (val_main_v37 (F := Ideal) P (ix2 i j)) 256#32) (val_main_v37 (F := Ideal) P (ix2 i j)) := by
  rw [val_main_v69_apply, val_main_v66_apply, val_main_v68_apply, val_main_v65_apply, val_main_c_15_apply,
    val_main_v67_apply, val_main_c_16_apply]

/-- The relative velocity of a pair. -/
theorem ref_v10 (P Q : (⟨S4096x2, .f32⟩ : BufTy).Contents (Elt Ideal)) (i j : Fin 4096) (d : Fin 2) :
    val_main_v10 (F := Ideal) P Q (ix3 i j d) = Cert.Spec.vel P Q (ix2 j d) - Cert.Spec.vel P Q (ix2 i d) := by
  rw [val_main_v10_apply, val_main_v8_apply, val_main_v6_apply, idx_v8_v6, val_main_v9_apply, val_main_v7_apply,
    idx_v9_v7, val_main_v0_apply, val_main_v0_apply]
  rfl

/-- The first scatter's update: the relative velocity on a valid pair, 0 elsewhere. -/
theorem ref_v39 (P Q : (⟨S4096x2, .f32⟩ : BufTy).Contents (Elt Ideal)) (i j : Fin 4096) (d : Fin 2) :
    val_main_v39 (F := Ideal) P Q (ix3 i j d)
      = Scalar.select (val_main_v29 (F := Ideal) P (ix2 i j))
          (Cert.Spec.vel P Q (ix2 j d) - Cert.Spec.vel P Q (ix2 i d)) 0 := by
  rw [val_main_v39_apply, val_main_call1_v1_apply, val_main_v38_apply, idx_c1_v38, ref_v10, val_main_call1_v2_apply,
    val_main_call1_v0_apply, val_main_cst_6_apply]
  show Scalar.select _ _ (Ideal.ofBits .f32 0x00000000#32) = _
  rw [Ideal.ofBits_zero_f32]

/-! ## One pair's contribution to each scatter -/

theorem pair_num (P Q : (⟨S4096x2, .f32⟩ : BufTy).Contents (Elt Ideal)) (n j : Fin 4096) (k : Fin 256) (d : Fin 2) :
    (if (val_main_v52 (F := Ideal) P (ix2 n j)).toInt = k.val then val_main_v39 (F := Ideal) P Q (ix3 n j d) else 0)
      = if Cert.Spec.hit P n j (Cert.Spec.hi16 k) (Cert.Spec.lo16 k)
          then Cert.Spec.vel P Q (ix2 j d) - Cert.Spec.vel P Q (ix2 n d) else 0 := by
  rw [ref_v52, ref_v37, ref_v39]
  by_cases hm : val_main_v29 (F := Ideal) P (ix2 n j) = 1#1
  · obtain ⟨hx, hy, hne⟩ := (ref_mask P n j).1 hm
    have hw := Cert.RefWords.cell_word_valid _ _ hx hy k
    rw [hm, select_one, select_one]
    by_cases hc : Cert.Spec.cellOf (P (ix2 n 0)) (P (ix2 j 0)) = BitVec.ofNat 32 (Cert.Spec.hi16 k).val
        ∧ Cert.Spec.cellOf (P (ix2 n 1)) (P (ix2 j 1)) = BitVec.ofNat 32 (Cert.Spec.lo16 k).val
    · rw [if_pos (hw.2 hc), if_pos (show Cert.Spec.hit P n j (Cert.Spec.hi16 k) (Cert.Spec.lo16 k) from ⟨hx, hy, hne, hc.1, hc.2⟩)]
    · rw [if_neg (fun h => hc (hw.1 h)), if_neg (fun h : Cert.Spec.hit P n j (Cert.Spec.hi16 k) (Cert.Spec.lo16 k) => hc ⟨h.2.2.2.1, h.2.2.2.2⟩)]
  · have h0 := eq_zero_of_ne_one hm
    rw [h0, select_zero, select_zero,
      if_neg (fun h : Cert.Spec.hit P n j (Cert.Spec.hi16 k) (Cert.Spec.lo16 k) => hm ((ref_mask P n j).2 ⟨h.1, h.2.1, h.2.2.1⟩))]
    exact ite_self _

theorem pair_cnt (P : (⟨S4096x2, .f32⟩ : BufTy).Contents (Elt Ideal)) (n j : Fin 4096) (k : Fin 256) :
    (if (val_main_v69 (F := Ideal) P (ix2 n j)).toInt = k.val then val_main_v59 (F := Ideal) P (ix2 n j) else 0)
      = if Cert.Spec.hit P n j (Cert.Spec.hi16 k) (Cert.Spec.lo16 k) then (1 : EReal) else 0 := by
  rw [ref_v69, ref_v37, val_main_v59_apply]
  by_cases hm : val_main_v29 (F := Ideal) P (ix2 n j) = 1#1
  · obtain ⟨hx, hy, hne⟩ := (ref_mask P n j).1 hm
    have e1 : (FloatOps.uitofp .f32 (1#1 : BitVec 1) : Ideal .f32) = 1 := by
      show ((((1#1 : BitVec 1).toNat : ℕ) : ℝ) : EReal) = 1
      simp
    have hw := Cert.RefWords.cell_word_valid _ _ hx hy k
    rw [hm, select_one, e1]
    by_cases hc : Cert.Spec.cellOf (P (ix2 n 0)) (P (ix2 j 0)) = BitVec.ofNat 32 (Cert.Spec.hi16 k).val
        ∧ Cert.Spec.cellOf (P (ix2 n 1)) (P (ix2 j 1)) = BitVec.ofNat 32 (Cert.Spec.lo16 k).val
    · rw [if_pos (hw.2 hc), if_pos (show Cert.Spec.hit P n j (Cert.Spec.hi16 k) (Cert.Spec.lo16 k) from ⟨hx, hy, hne, hc.1, hc.2⟩)]
    · rw [if_neg (fun h => hc (hw.1 h)), if_neg (fun h : Cert.Spec.hit P n j (Cert.Spec.hi16 k) (Cert.Spec.lo16 k) => hc ⟨h.2.2.2.1, h.2.2.2.2⟩)]
  · have h0 := eq_zero_of_ne_one hm
    have e0 : (FloatOps.uitofp .f32 (0#1 : BitVec 1) : Ideal .f32) = 0 := by
      show ((((0#1 : BitVec 1).toNat : ℕ) : ℝ) : EReal) = 0
      simp
    rw [h0, select_zero, e0,
      if_neg (fun h : Cert.Spec.hit P n j (Cert.Spec.hi16 k) (Cert.Spec.lo16 k) => hm ((ref_mask P n j).2 ⟨h.1, h.2.1, h.2.2.1⟩))]
    exact ite_self _

/-! ## The two scatter sums are the specification's -/

theorem ref_num (P Q : (⟨S4096x2, .f32⟩ : BufTy).Contents (Elt Ideal)) (n : Fin 4096) (k : Fin 256) (d : Fin 2) :
    val_main_v57 (F := Ideal) P Q (ix3 n k d) = Cert.Spec.num P (Cert.Spec.vel P Q) n (Cert.Spec.hi16 k) (Cert.Spec.lo16 k) d := by
  unfold val_main_v57
  rw [Cert.LibScatterPair.scatterAdd_vals_apply _ _ _ (ref_row_word_vals P) n k d, val_main_v42_apply, val_main_cst_7_apply]
  show Ideal.ofBits .f32 0x00000000#32 + _ = _
  rw [Ideal.ofBits_zero_f32, zero_add]
  unfold Cert.Spec.num
  refine Finset.sum_congr rfl fun j _ => ?_
  rw [ref_cell_word_vals]
  exact pair_num P Q n j k d

theorem ref_cnt (P : (⟨S4096x2, .f32⟩ : BufTy).Contents (Elt Ideal)) (n : Fin 4096) (k : Fin 256) :
    val_main_v74 (F := Ideal) P (ix2 n k) = Cert.Spec.cnt P n (Cert.Spec.hi16 k) (Cert.Spec.lo16 k) := by
  unfold val_main_v74
  rw [Cert.LibScatterPair.scatterAdd_cnt_apply _ _ _ (ref_row_word_cnt P) n k, val_main_v58_apply, val_main_cst_12_apply]
  show Ideal.ofBits .f32 0x00000000#32 + _ = _
  rw [Ideal.ofBits_zero_f32, zero_add]
  unfold Cert.Spec.cnt
  refine Finset.sum_congr rfl fun j _ => ?_
  rw [ref_cell_word_cnt]
  exact pair_cnt P n j k

end Cert.ReferenceIdeal.RefValue

end
-- ==== Proof.RefValue.lean ====
/-
  The reference program is the specification, at the extended reals: what it leaves in its result, read entry by
  entry, is the linear layer and the relu of the flattened pooled grid.
  From the two accumulated sums (the relative velocities and the counts per cell) upward: the pooled grid is their
  quotient over max(count, 1); the reshape to 512 features is the flattening; the product with the transposed
  weights is the sum over the 512 features; the bias is added along the rows; the relu is the maximum with 0.
-/
import proofs.«109977_j37271726195508_1_alg».proof.Proof.RefRead
import proofs.«109977_j37271726195508_1_alg».proof.Proof.RefPairs
import proofs.«109977_j37271726195508_1_alg».proof.Proof.Spec
import proofs.«109977_j37271726195508_1_alg».proof.Proof.SpecGlue
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.ReadP

/-! ## The pooled grid -/

/-- The quotient's denominator at (n, k, d): max(count of cell k of pedestrian n, 1). -/
theorem ref_den (P : (⟨S4096x2, .f32⟩ : BufTy).Contents (Elt Ideal)) (n : Fin 4096) (k : Fin 256) (d : Fin 2) :
    val_main_v78 (F := Ideal) P (ix3 n k d)
      = max (Cert.Spec.cnt P n (Cert.Spec.hi16 k) (Cert.Spec.lo16 k)) (Ideal.ofBits .f32 0x3F800000#32) := by
  rw [val_main_v78_apply, val_main_v77_apply, val_main_v76_apply, val_main_v75_apply, val_main_cst_17_apply]
  rw [show idx_main_v77 (idx_main_v78 (ix3 n k d)) = ix2 n k from
    funext fun a => by match a with | ⟨0, _⟩ => rfl | ⟨1, _⟩ => rfl]
  rw [ref_cnt]
  rfl

/-- The reference's pooled grid is the specification's. -/
theorem ref_grid (P Q : (⟨S4096x2, .f32⟩ : BufTy).Contents (Elt Ideal)) :
    val_main_v79 (F := Ideal) P Q = Cert.Spec.grid P (Cert.Spec.vel P Q) := by
  funext x
  obtain ⟨n, k, d, rfl⟩ : ∃ (n : Fin 4096) (k : Fin 256) (d : Fin 2), x = ix3 n k d := ⟨x 0, x 1, x 2, eq_ix3 x⟩
  rw [val_main_v79_apply, ref_num, ref_den]
  rfl

/-! ## The linear layer and the relu -/

/-- The 512 features per pedestrian: the pooled grid flattened. -/
theorem ref_flat (P Q : (⟨S4096x2, .f32⟩ : BufTy).Contents (Elt Ideal)) :
    val_main_v80 (F := Ideal) P Q = Cert.Spec.flat (Cert.Spec.grid P (Cert.Spec.vel P Q)) := by
  unfold val_main_v80
  rw [ref_grid]
  exact Cert.Spec.flat_of_cast _ _

/-- The reference's result is the specification's. -/
theorem ref_value (P Q : (⟨S4096x2, .f32⟩ : BufTy).Contents (Elt Ideal)) (W : (⟨S256x512, .f32⟩ : BufTy).Contents (Elt Ideal))
    (B : (⟨S256, .f32⟩ : BufTy).Contents (Elt Ideal)) :
    val_main_v86 (F := Ideal) P Q W B = Cert.Spec.result P Q W B := by
  funext y
  rw [val_main_v86_apply, val_main_v85_apply, val_main_v82_apply, val_main_v84_apply, val_main_v83_apply,
    val_main_call2_v0_apply, val_main_call2_cst_apply, ref_flat]
  unfold Cert.Spec.result Cert.Spec.head
  refine congrArg₂ max (congrArg₂ (· + ·) (Finset.sum_congr rfl fun k _ => congrArg₂ (· * ·) ?_ ?_) ?_) rfl
  · exact congrArg _ (funext fun a => by match a with | ⟨0, _⟩ => rfl | ⟨1, _⟩ => rfl)
  · rw [val_main_v81_apply]
    exact congrArg W (funext fun a => by match a with | ⟨0, _⟩ => rfl | ⟨1, _⟩ => rfl)
  · exact congrArg B (funext fun a => by match a with | ⟨0, _⟩ => rfl)

end Cert.ReferenceIdeal.RefValue

end
-- ==== Proof.lean ====
/-
  The certificate's claims, assembled.

  Both programs bin, for every pedestrian, the relative velocities of its neighbours into a 16 × 16 grid of cells
  around it, average each cell, flatten, and apply a linear layer and a relu (the specification's `result`). The
  kernel does the binning with one-hot products accumulated over 32 blocks of 128 neighbours, multiplying the
  relative position by the reciprocal of the cell side; the reference scatters and adds, dividing by the cell
  side. With the reciprocal read as the exact quotient both are the specification: the quotient by the cell side is
  the product with its reciprocal on every extended real, a sum of products with 0/1 factors is the sum of the
  selected terms, and finite sums of extended reals regroup freely.
-/
import proofs.«109977_j37271726195508_1_alg».proof.Defs
import proofs.«109977_j37271726195508_1_alg».proof.Proof.Gen.Kernel
import proofs.«109977_j37271726195508_1_alg».proof.Proof.Gen.KernelIdeal
import proofs.«109977_j37271726195508_1_alg».proof.Proof.Gen.ReferenceIdeal
import proofs.«109977_j37271726195508_1_alg».proof.Proof.Gen.Pre_finite_inputs
import proofs.«109977_j37271726195508_1_alg».proof.Proof.K.Run
import proofs.«109977_j37271726195508_1_alg».proof.Proof.KI.Run
import proofs.«109977_j37271726195508_1_alg».proof.Proof.KI.HeadValue
import proofs.«109977_j37271726195508_1_alg».proof.Proof.KI.BinValue
import proofs.«109977_j37271726195508_1_alg».proof.Proof.SpecGlue
import proofs.«109977_j37271726195508_1_alg».proof.Proof.RefRunV
import proofs.«109977_j37271726195508_1_alg».proof.Proof.RefValue
import Idealize.ShloMosaic.Adequacy
import Idealize.ShloMosaic.Init

noncomputable section

namespace Cert.Proof

open Idealize.ShloMosaic Idealize.ShloMosaic.TcCoe Idealize.SL.Sem

/-! ## The kernel's result is the specification -/

section KernelValue

open Cert.KernelIdeal Cert.KernelIdeal.Hand

/-- What the idealized kernel leaves in its result array: the second region's head over the first region's grid,
    reshaped, which is the specification of the argument arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    W4 (F := Ideal) m ρ c (Proc.devRef .tc main_v4)
      = Cert.Spec.result (m ((c.tc : Thread nD τ).loc main_arg1)) (m ((c.tc : Thread nD τ).loc main_arg2))
          (m ((c.tc : Thread nD τ).loc main_arg3)) (m ((c.tc : Thread nD τ).loc main_arg4)) := by
  rw [W4_main_v4, head_value, V3_main_v2, V3_main_v3, V3_main_arg3, bin_value, V1_main_arg1, V1_main_v0]
  rw [Cert.Spec.flat_of_cast, Cert.Spec.headRow_of_cast]
  rfl

end KernelValue

/-! ## The claims -/

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueV.run (F := Ideal) m ρ)

/-- The two sites of the named reciprocal: the table gives the name the exact quotient 8388608/5033165, which is what
    the printed constant denotes at the ideal instance. -/
theorem preserves : Cert.preserves_Kernel_KernelIdeal :=
  ⟨IdealRules.named_const.statement Cert.KernelIdeal.κ "inv_cell" .f32 0x3FD55555#32 ((8388608 / 5033165 : ℝ) : EReal) rfl,
   IdealRules.named_const.statement Cert.KernelIdeal.κ "inv_cell" .f32 0x3FD55555#32 ((8388608 / 5033165 : ℝ) : EReal) rfl⟩

/-- Both idealized programs end with the specification of the arguments in their result. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueV.run (F := Ideal) m' ρ')
    rw [(hagree c).2.1, (hagree c).2.2.1, (hagree c).2.2.2.1, (hagree c).2.2.2.2]
    exact Cert.ReferenceIdeal.RefValue.ref_value _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
